-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S2x1600000 : Shape := ⟨2, ![2, 1600000]⟩
abbrev S_ : Shape := ⟨0, ![]⟩
abbrev S1x1600000 : Shape := ⟨2, ![1, 1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  slices_S2x1600000_S1x1600000_1_0 : S2x1600000.Slices ![1, 0] S1x1600000
  shapeCasts_S1x1600000_S1600000 : S1x1600000.ShapeCasts S1600000

variable [Facts]

def fn_part1 {F : FTy → Type} [FloatOps F] (main_v8 : IVec S_ 1) (main_v17 : IVec S1600000 1) : IVec S_ 1 :=
  let main_c_4 : IVec S_ 1 := constantI S_ 1 1#1
  let main_v18 : IVec S_ 1 := (fun x v => Host.reduce IntOp.andi x v reducesTo_S1600000_S_d0 h_S_) main_v17 main_c_4
  let main_v19 : IVec S_ 1 := andi main_v8 main_v18
  main_v19

def fn {F : FTy → Type} [FloatOps F] (main_arg0 : FVec F S100000x32 .f32) (main_arg1 : FVec F S1600000 .f32) (main_arg2 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : IVec S1x1600000 32 := (extractStridedSlice S1x1600000 ![1, 0] · slices_S2x1600000_S1x1600000_1_0) main_arg2
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_v13 : IVec S1x1600000 32 := (extractStridedSlice S1x1600000 ![1, 0] · slices_S2x1600000_S1x1600000_1_0) main_arg2
  let main_v14 : IVec S1600000 32 := shapeCast S1600000 main_v13 shapeCasts_S1x1600000_S1600000
  let main_c_3 : IVec S_ 32 := constantI S_ 32 100000#32
  let main_v15 : IVec S1600000 32 := broadcastInDim S1600000 ![] bcast_S_S1600000 main_c_3
  let main_v16 : IVec S1600000 1 := cmpi .slt main_v14 main_v15
  let main_v17 : IVec S1600000 1 := andi main_v12 main_v16
  fn_part1 (F := F) main_v8 main_v17
-- ==== Kernel.lean ====
abbrev S100000x32 : Shape := ⟨2, ![100000, 32]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1601536 : Shape := ⟨1, ![1601536]⟩
abbrev S100000x1 : Shape := ⟨2, ![100000, 1]⟩
abbrev S100000x33 : Shape := ⟨2, ![100000, 33]⟩
abbrev S100352x33 : Shape := ⟨2, ![100352, 33]⟩
abbrev S1601536x33 : Shape := ⟨2, ![1601536, 33]⟩
abbrev S4096 : Shape := ⟨1, ![4096]⟩
abbrev S2048x33 : Shape := ⟨2, ![2048, 33]⟩
abbrev S4096x33 : Shape := ⟨2, ![4096, 33]⟩
abbrev S4096x2048 : Shape := ⟨2, ![4096, 2048]⟩
abbrev S4096x1 : Shape := ⟨2, ![4096, 1]⟩
abbrev S100352x32 : Shape := ⟨2, ![100352, 32]⟩
abbrev S2048x32 : Shape := ⟨2, ![2048, 32]⟩
abbrev S2048x4096 : Shape := ⟨2, ![2048, 4096]⟩
abbrev S1x4096 : Shape := ⟨2, ![1, 4096]⟩
abbrev S2048x1 : Shape := ⟨2, ![2048, 1]⟩

abbrev nBuf : Space → Nat
  | .hbm => 25
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S_, .i32⟩
  | .hbm, ⟨9, _⟩ => ⟨S1601536, .i32⟩
  | .hbm, ⟨10, _⟩ => ⟨S_, .i32⟩
  | .hbm, ⟨11, _⟩ => ⟨S_, .i32⟩
  | .hbm, ⟨12, _⟩ => ⟨S1601536, .i32⟩
  | .hbm, ⟨13, _⟩ => ⟨S_, .f32⟩
  | .hbm, ⟨14, _⟩ => ⟨S_, .f32⟩
  | .hbm, ⟨15, _⟩ => ⟨S1601536, .f32⟩
  | .hbm, ⟨16, _⟩ => ⟨S_, .f32⟩
  | .hbm, ⟨17, _⟩ => ⟨S100000x1, .f32⟩
  | .hbm, ⟨18, _⟩ => ⟨S100000x33, .f32⟩
  | .hbm, ⟨19, _⟩ => ⟨S_, .f32⟩
  | .hbm, ⟨20, _⟩ => ⟨S_, .f32⟩
  | .hbm, ⟨21, _⟩ => ⟨S100352x33, .f32⟩
  | .hbm, ⟨22, _⟩ => ⟨S1601536x33, .f32⟩
  | .hbm, ⟨23, _⟩ => ⟨S100352x32, .f32⟩
  | .hbm, ⟨24, _⟩ => ⟨S100000x32, .f32⟩
  | .local _ .vmem, ⟨0, _⟩ => ⟨S4096, .i32⟩
  | .local _ .vmem, ⟨1, _⟩ => ⟨S4096, .i32⟩
  | .local _ .vmem, ⟨2, _⟩ => ⟨S4096, .f32⟩
  | .local _ .vmem, ⟨3, _⟩ => ⟨S4096, .f32⟩
  | .local _ .vmem, ⟨4, _⟩ => ⟨S2048x33, .f32⟩
  | .local _ .vmem, ⟨5, _⟩ => ⟨S2048x33, .f32⟩
  | .local _ .vmem, ⟨6, _⟩ => ⟨S4096x33, .f32⟩
  | .local _ .vmem, ⟨7, _⟩ => ⟨S4096x33, .f32⟩
  | .local _ .vmem, ⟨8, _⟩ => ⟨S4096x33, .f32⟩
  | .local _ .vmem, ⟨9, _⟩ => ⟨S4096, .i32⟩
  | .local _ .vmem, ⟨10, _⟩ => ⟨S4096, .i32⟩
  | .local _ .vmem, ⟨11, _⟩ => ⟨S4096x33, .f32⟩
  | .local _ .vmem, ⟨12, _⟩ => ⟨S4096x33, .f32⟩
  | .local _ .vmem, ⟨13, _⟩ => ⟨S2048x33, .f32⟩
  | .local _ .vmem, ⟨14, _⟩ => ⟨S2048x33, .f32⟩
  | .local _ .vmem, ⟨15, _⟩ => ⟨S2048x32, .f32⟩
  | .local _ .vmem, ⟨16, _⟩ => ⟨S2048x32, .f32⟩
  | .local _ .vmem, ⟨17, _⟩ => ⟨S2048x33, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_cst : Ref sig .tc := ⟨.hbm, 13, rfl⟩
abbrev main_call2_v0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![391, 49], ![false, false]⟩

def k0_cond2 (i : grid0.Coords) : BitVec 1 :=
  let arg1 : BitVec 32 := BitVec.ofNat 32 (i 1).val
  let c48_i32 : BitVec 32 := 48#32
  let v24 : BitVec 1 := Scalar.cmpi .eq arg1 c48_i32
  let v25 : BitVec 32 := Scalar.extui v24
  let c0_i32_7 : BitVec 32 := 0#32
  let v26 : BitVec 1 := Scalar.cmpi .ne v25 c0_i32_7
  v26

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x33 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![49, 391], ![false, false]⟩

def k1_cond2 (i : grid1.Coords) : BitVec 1 :=
  let arg1 : BitVec 32 := BitVec.ofNat 32 (i 1).val
  let c390_i32 : BitVec 32 := 390#32
  let v24 : BitVec 1 := Scalar.cmpi .eq arg1 c390_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x33 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x33 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1601536_015360 : S1600000.Pads (![0] : Fin 1 → Nat) ![1536] ![0] S1601536
  h_S_ : 0 < S_.numel
  bcast_S_S100000x1 : S_.BroadcastsInDim S100000x1 (![] : Fin 0 → Fin S100000x1.rank)
  concatenates_S100000x32_S100000x1_S100000x33_d1 : Shape.Concatenates [S100000x32, S100000x1] S100000x33 1
  pads_S100000x33_S100352x33_03520_000 : S100000x33.Pads (![0, 0] : Fin 2 → Nat) ![352, 0] ![0, 0] S100352x33
  inb_S4096x33_S4096x33_0_0 : ∀ a, (![0, 0] : Fin 2 → Nat) a + S4096x33.size a ≤ S4096x33.size a
  h_S4096x33 : 0 < S4096x33.numel
  shapeCasts_S4096x33_S4096x33 : S4096x33.ShapeCasts S4096x33
  inb_S4096_S4096_0 : ∀ a, (![0] : Fin 1 → Nat) a + S4096.size a ≤ S4096.size a
  h_S4096 : 0 < S4096.numel
  shapeCasts_S4096_S4096 : S4096.ShapeCasts S4096
  iota_S4096x2048_d1_w32 : S4096x2048.Iotas .tc 32 [1]
  shapeCasts_S4096_S4096x1 : S4096.ShapeCasts S4096x1
  broadcasts_S4096x1_S4096x2048 : S4096x1.Broadcasts S4096x2048
  natLt_1_32 : 1 < 32
  bitsLt_bf16_f32 : FTy.bits .bf16 < FTy.bits .f32
  inb_S2048x33_S2048x33_0_0 : ∀ a, (![0, 0] : Fin 2 → Nat) a + S2048x33.size a ≤ S2048x33.size a
  h_S2048x33 : 0 < S2048x33.numel
  shapeCasts_S2048x33_S2048x33 : S2048x33.ShapeCasts S2048x33
  broadcasts_S4096x1_S4096x33 : S4096x1.Broadcasts S4096x33
  iota_S2048x4096_d0_w32 : S2048x4096.Iotas .tc 32 [0]
  shapeCasts_S4096_S1x4096 : S4096.ShapeCasts S1x4096
  broadcasts_S1x4096_S2048x4096 : S1x4096.Broadcasts S2048x4096
  slices_S2048x33_o0_0_S2048x32 : S2048x33.Slices ![0, 0] S2048x32
  slices_S2048x33_o0_32_S2048x1 : S2048x33.Slices ![0, 32] S2048x1
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  slices_S100352x32_S100000x32_0_0 : S100352x32.Slices ![0, 0] S100000x32
  dot_S4096x2048_S2048x33_S4096x33_1_0_0_1_n_n_wf : DotDims.WF S4096x2048 S2048x33 S4096x33 [1] [0] [0] [1] [] []
  dot_S2048x4096_S4096x33_S2048x33_1_0_0_1_n_n_wf : DotDims.WF S2048x4096 S4096x33 S2048x33 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1601536.size a
  hwx0_0 : ∀ i : grid0.Coords, EltTy.bits .i32 = 32 ∨ (Rect.block (s := S1601536) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1601536.size a
  hwx0_1 : ∀ i : grid0.Coords, EltTy.bits .f32 = 32 ∨ (Rect.block (s := S1601536) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x33.size a ≤ S100352x33.size a
  hwx0_2 : ∀ i : grid0.Coords, EltTy.bits .f32 = 32 ∨ (Rect.block (s := S100352x33) S2048x33.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x33.size a ≤ S1601536x33.size a
  hwx0_3 : ∀ i : grid0.Coords, EltTy.bits .f32 = 32 ∨ (Rect.block (s := S1601536x33) S4096x33.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S1601536.size a
  hwx1_0 : ∀ i : grid1.Coords, EltTy.bits .i32 = 32 ∨ (Rect.block (s := S1601536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x33.size a ≤ S1601536x33.size a
  hwx1_1 : ∀ i : grid1.Coords, EltTy.bits .f32 = 32 ∨ (Rect.block (s := S1601536x33) S4096x33.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x33.size a ≤ S100352x33.size a
  hwx1_2 : ∀ i : grid1.Coords, EltTy.bits .f32 = 32 ∨ (Rect.block (s := S100352x33) S2048x33.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S100352x32.size a
  hwx1_3 : ∀ i : grid1.Coords, EltTy.bits .f32 = 32 ∨ (Rect.block (s := S100352x32) S2048x32.size (cc1_transform_3 i) (hinb1_3 i)).WholeWords (EltTy.packing .f32)

variable [Facts₀]

def dot_S4096x2048_S2048x33_S4096x33_1_0_0_1_n_n : DotDims S4096x2048 S2048x33 S4096x33 where
  lhsContracting := [1]
  rhsContracting := [0]
  lhsNonContracting := [0]
  rhsNonContracting := [1]
  lhsBatch := []
  rhsBatch := []
  wf := dot_S4096x2048_S2048x33_S4096x33_1_0_0_1_n_n_wf
def dot_S2048x4096_S4096x33_S2048x33_1_0_0_1_n_n : DotDims S2048x4096 S4096x33 S2048x33 where
  lhsContracting := [1]
  rhsContracting := [0]
  lhsNonContracting := [0]
  rhsNonContracting := [1]
  lhsBatch := []
  rhsBatch := []
  wf := dot_S2048x4096_S4096x33_S2048x33_1_0_0_1_n_n_wf

abbrev win0_0 : Pipeline.Window sig grid0 :=
  Pipeline.Window.ofSpec (Memref.whole main_v5) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x33.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4096x33.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v4) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4096x33.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048x33.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x32 : Shape := ⟨2, ![100000, 32]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩

abbrev nBuf : Space → Nat
  | .hbm => 33
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x32, .f32⟩
  | .hbm, ⟨25, _⟩ => ⟨S1600000x32, .f32⟩
  | .hbm, ⟨26, _⟩ => ⟨S1600000x1, .f32⟩
  | .hbm, ⟨27, _⟩ => ⟨S1600000x32, .f32⟩
  | .hbm, ⟨28, _⟩ => ⟨S1600000x32, .f32⟩
  | .hbm, ⟨29, _⟩ => ⟨S_, .f32⟩
  | .hbm, ⟨30, _⟩ => ⟨S100000x32, .f32⟩
  | .hbm, ⟨31, _⟩ => ⟨S1600000x1, .i32⟩
  | .hbm, ⟨32, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.K.Gather.Setup.lean ====
/-
  The gather pass (the first pallas_call) on its grid of 391 × 49 points: what its per-case runs and its
  region invariant are stated over. A point is (i, j): edge block i (4096 edges) against node block j (2048
  node rows of the padded, ones-augmented feature table). The scratch accumulator is reset at j = 0, gains one
  one-hot product at every j, and is scaled by the edge weights into the output block at j = 48; the output
  window is idle at every other point. Everything here is stated at a parameter `V`: the buffer contents
  when the region is entered.
-/
import proofs.«412493_j88510686036697_1_alg».proof.Proof.Gen.Kernel.Launch
import proofs.«412493_j88510686036697_1_alg».proof.Proof.Gen.Kernel.Skeleton
import proofs.«412493_j88510686036697_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an
    unfetched point has the same block index as the one before it): the column indices (window 0), -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the edge weights (window 1), -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the node block of the feature table (window 2). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first node block" (j = 0): the accumulator is reset. -/
abbrev condFirst (i : grid0.Coords) : Prop := (Scalar.cmpi .ne (Scalar.extui (Scalar.cmpi .eq (BitVec.ofNat 32 (i 1).val) 0#32)) 0#32) = 1#1
/-- It holds at the points ≡ 0 (mod 49). -/
theorem hcondFirst : ∀ t : Fin cfg0.N, condFirst (grid0.coords t) ↔ t.val % 49 = 0 :=
  (by decide +kernel : ∀ t : Fin grid0.N, condFirst (grid0.coords t) ↔ t.val % 49 = 0)

/-- "This is the last node block" (j = 48): the weighted accumulator is stored into the output block. -/
abbrev condLast (i : grid0.Coords) : Prop := k0_cond2 i = 1#1
/-- It holds at the points ≡ 48 (mod 49). -/
theorem hcondLast : ∀ t : Fin cfg0.N, condLast (grid0.coords t) ↔ t.val % 49 = 48 :=
  (by decide +kernel : ∀ t : Fin grid0.N, condLast (grid0.coords t) ↔ t.val % 49 = 48)

/-! ## Where the windows are idle -/

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
/-- Away from the last node block the output window is idle: the body stores nothing into it, -/
theorem idle_3 (t : Fin cfg0.N) (h : ¬condLast (grid0.coords t)) : cfg0.idle 3 (grid0.coords t) = true := by
  show (!(k0_cond2 (grid0.coords t) == 1#1)) = true
  simp only [Bool.not_eq_true', beq_eq_false_iff_ne, ne_eq]; exact h
/-- and the pipeline does not write its block back there. -/
theorem noFlush_3 (t : Fin cfg0.N) (h : ¬condLast (grid0.coords t)) : (cfg0.win 3).flush t = false := by
  have h' : ¬t.val % 49 = 48 := fun e => h ((hcondLast t).mpr e)
  cases hf : (cfg0.win 3).flush t with
  | false => rfl
  | true => exact absurd ((flush0_3 t).mp hf) h'
/-- At the last node block it is live. -/
theorem live_3 (t : Fin cfg0.N) (h : condLast (grid0.coords t)) : cfg0.idle 3 (grid0.coords t) = false := by
  show (!(k0_cond2 (grid0.coords t) == 1#1)) = false
  simp only [Bool.not_eq_false', beq_iff_eq]; exact h

/-! ## The staging and scratch memrefs -/

/-- One staging buffer of the output window, through which its contents are stated. -/
abbrev VO : View sig .tc .vmem S4096x33 .f32 := (Memref.whole cc0_stg3_0 : Memref sig .tc .vmem S4096x33 .f32).view
/-- Each window's current staging memref at point `t`, as the pipeline passes it, and its wholeness. -/
abbrev ms_0 (t : Fin cfg0.N) : Memref sig .tc .vmem S4096 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x33 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4096x33 .f32 := win0_3.stage (cfg0.slots t 3)
abbrev hs_3 (t : Fin cfg0.N) : (ms_3 t).IsWhole := hstage0_3 ((cfg0.slots t 3).cast nbuf0_3)
/-- The accumulator: a whole scoped buffer of the kernel's own. -/
abbrev scM : Memref sig .tc .vmem S4096x33 .f32 := Memref.whole cc0_scratch0
abbrev VS : View sig .tc .vmem S4096x33 .f32 := scM.view

/-- The scoped buffers of the core that this region neither stages through nor accumulates in (the other
    pallas_call's staging buffers and its accumulator), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's region invariant with the accumulator as a memref owned at some contents, beside the other
    scoped buffers and the generator register: what the body obligation hands a run and takes back. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

end Cert.Kernel.Gather

end
-- ==== Proof.K.Gather.RunA.lean ====
/-
  The gather pass's body at a point with j = 0 (the first node block of an edge block, which is not the last):
  the accumulator, whatever it held, is reset to zero and then gains this node block's one-hot product with the
  column indices; the weights and the output block are not touched. The run is stated on any whole memrefs: the
  three inputs at their contents, the output block at contents handed back as they were, the accumulator at
  anything; what the accumulator ends with is the list of stored pieces (last first) that the run itself finds.
-/
import proofs.«412493_j88510686036697_1_alg».proof.Proof.K.Gather.Setup

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition holds and the last does not: no piece for the output block, and for the
    accumulator the reset piece under the accumulation piece, with the proof that the body runs from the inputs
    and the idle output at their contents and the accumulator at anything to the same inputs and output and the
    accumulator with those pieces written. -/
noncomputable def runFirst (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i)
    (x0 : Vec F S4096 .i32) (x1 : Vec F S4096 .f32) (x2 : Vec F S2048x33 .f32) :
    Σ' (LO : List (View.Piece (Elt F) S4096x33 .f32)), { LS : List (View.Piece (Elt F) S4096x33 .f32) //
      ∀ (xi3 : Vec F S4096x33 .f32) (E : Set ℕ) (K : PUnit → sProp 𝕄),
        iprop(owns (c : Thread nD τ) nbr fullShare x0 ∗ owns (c : Thread nD τ) wts fullShare x1 ∗ owns (c : Thread nD τ) tbl fullShare x2 ∗ owns (c : Thread nD τ) outp fullShare xi3 ∗ (∃ d, owns (c : Thread nD τ) acc fullShare d)
            ∗ (iprop(owns (c : Thread nD τ) nbr fullShare x0 ∗ owns (c : Thread nD τ) wts fullShare x1 ∗ owns (c : Thread nD τ) tbl fullShare x2 ∗ owns (c : Thread nD τ) outp fullShare xi3 ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := hnbr.eq_unread hf0; obtain rfl := hwts.eq_unread hf1; obtain rfl := htbl.eq_unread hf2; obtain rfl := houtp.eq_unread hf3
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]
    · iexists _; isplitr; · ipureintro; exact houtp.read_unread _
      iexact H3
    iexists _; iexact HS

end Cert.Kernel.Gather

end
-- ==== Proof.K.Gather.RunB.lean ====
/-
  The gather pass's body at a point with 0 < j < 48 (neither the first node block nor the last): the accumulator,
  at what the point before left in it, gains this node block's one-hot product with the column indices; the
  weights and the output block are not touched.
-/
import proofs.«412493_j88510686036697_1_alg».proof.Proof.K.Gather.RunA

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where neither condition holds: no piece for the output block, one accumulation piece for the
    accumulator, with the proof that the body runs from the inputs and the idle output at their contents and the
    accumulator at the contents `xs` carried from the point before to the same inputs and output and the
    accumulator with that piece written. -/
noncomputable def runMid (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i)
    (x0 : Vec F S4096 .i32) (x1 : Vec F S4096 .f32) (x2 : Vec F S2048x33 .f32) (xs : Vec F S4096x33 .f32) :
    Σ' (LO : List (View.Piece (Elt F) S4096x33 .f32)), { LS : List (View.Piece (Elt F) S4096x33 .f32) //
      ∀ (xi3 : Vec F S4096x33 .f32) (E : Set ℕ) (K : PUnit → sProp 𝕄),
        iprop(owns (c : Thread nD τ) nbr fullShare x0 ∗ owns (c : Thread nD τ) wts fullShare x1 ∗ owns (c : Thread nD τ) tbl fullShare x2 ∗ owns (c : Thread nD τ) outp fullShare xi3 ∗ owns (c : Thread nD τ) acc fullShare xs
            ∗ (iprop(owns (c : Thread nD τ) nbr fullShare x0 ∗ owns (c : Thread nD τ) wts fullShare x1 ∗ owns (c : Thread nD τ) tbl fullShare x2 ∗ owns (c : Thread nD τ) outp fullShare xi3 ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := hnbr.eq_unread hf0; obtain rfl := hwts.eq_unread hf1; obtain rfl := htbl.eq_unread hf2; obtain rfl := houtp.eq_unread hf3
    obtain rfl := hacc.eq_unread hfs
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]
    · iexists _; isplitr; · ipureintro; exact houtp.read_unread _
      iexact H3
    iexists _; iexact HS

end Cert.Kernel.Gather

end
-- ==== Proof.K.Gather.RunC.lean ====
/-
  The gather pass's body at a point with j = 48 (the last node block of an edge block, which is not the first):
  the accumulator, at what the point before left in it, gains this node block's one-hot product, and the output
  block is stored whole: the accumulator's rows scaled by the edge weights.
-/
import proofs.«412493_j88510686036697_1_alg».proof.Proof.K.Gather.RunB

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the last condition holds and the first does not: one piece for the output block, one
    accumulation piece for the accumulator, with the proof that the body runs from the inputs at their contents,
    the output block at anything and the accumulator at the contents `xs` carried from the point before to the
    same inputs and the output block and the accumulator with their pieces written. -/
noncomputable def runLast (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i)
    (x0 : Vec F S4096 .i32) (x1 : Vec F S4096 .f32) (x2 : Vec F S2048x33 .f32) (xs : Vec F S4096x33 .f32) :
    Σ' (LO : List (View.Piece (Elt F) S4096x33 .f32)), { LS : List (View.Piece (Elt F) S4096x33 .f32) //
      ∀ (E : Set ℕ) (K : PUnit → sProp 𝕄),
        iprop(owns (c : Thread nD τ) nbr fullShare x0 ∗ owns (c : Thread nD τ) wts fullShare x1 ∗ owns (c : Thread nD τ) tbl fullShare x2 ∗ (∃ d, owns (c : Thread nD τ) outp fullShare d) ∗ owns (c : Thread nD τ) acc fullShare xs
            ∗ (iprop(owns (c : Thread nD τ) nbr fullShare x0 ∗ owns (c : Thread nD τ) wts fullShare x1 ∗ owns (c : Thread nD τ) tbl fullShare x2 ∗ (∃ f, outp.view.loc (c : Thread nD τ) ↦[outp.view.set]{fullShare} outp.view.writes (Elt F) f LO) ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := hnbr.eq_unread hf0; obtain rfl := hwts.eq_unread hf1; obtain rfl := htbl.eq_unread hf2
    obtain rfl := hacc.eq_unread hfs
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]; · iexists _; iexact H3
    iexists _; iexact HS

end Cert.Kernel.Gather

end
-- ==== Proof.K.Gather.Frame.lean ====
/-
  The gather pass (the program's first kernel call) as one pipeline region, at the buffer contents `V` the region is
  entered with. After the body at point t = 49·i + j the accumulator holds the sum over the node blocks 0..j of
  edge block i's one-hot products, as a chain of the body's accumulation step: at j = 0 the step is taken from
  the reset value, otherwise from what the point before left; at j = 48 the output block is the accumulator's
  rows scaled by the edge weights. What each control case's run found (the stored pieces) is read back to that
  form; the region invariant carries the accumulator at the chain's value from point to point, the scatter
  pass's scoped buffers and the generator register riding along untouched; and the body obligation is
  proved at a generic point by the three cases.
-/
import proofs.«412493_j88510686036697_1_alg».proof.Proof.K.Gather.RunC
import Idealize.ShloMosaic.Lib.Pipeline.Value

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer accesses sit at offset zero -/

theorem off2 : (![0, 0] : Fin 2 → ℕ) = fun _ => 0 := funext fun a => by fin_cases a <;> rfl
theorem off1 : (![0] : Fin 1 → ℕ) = fun _ => 0 := funext fun a => by fin_cases a <;> rfl

/-! ## What each case's run found, read back -/

/-- First node block: the accumulator's pieces (the reset, then the step) cover it, -/
theorem coverAccFirst (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i) (x0 : Vec F S4096 .i32) (x1 : Vec F S4096 .f32) (x2 : Vec F S2048x33 .f32) (y : S4096x33.Idx) :
    ∃ pc ∈ (runFirst c i nbr hnbr wts hwts tbl htbl outp houtp acc hacc hF hL x0 x1 x2).2.1, y ∈ pc.1.set :=
  View.cover_of_tiledL (runFirst c i nbr hnbr wts hwts tbl htbl outp houtp acc hacc hF hL x0 x1 x2).2.1 S4096x33.size (by sl_kernel_rfl) y

/-- and leave the step taken from the reset value: the step's load of the accumulator reads back what the reset
    just stored, not what the accumulator held before. -/
theorem accFirst_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i) (x0 : Vec F S4096 .i32) (x1 : Vec F S4096 .f32) (x2 : Vec F S2048x33 .f32) :
    View.canon (runFirst c i nbr hnbr wts hwts tbl htbl outp houtp acc hacc hF hL x0 x1 x2).2.1 = k0_pay2 i x0 x2 (k0_pay1 (F := F)) := by
  unfold runFirst
  dsimp only
  sl_unfold_words
  rw [View.canon_cons_unit_zero (S := S4096x33) off2]
  simp only [View.readAt_eq_ld, hnbr.read_unread, htbl.read_unread, View.ld_unit_zero (S := S4096) off1,
    View.ld_unit_zero (S := S2048x33) off2, View.readCov_unit_zero (S := S4096x33) _ off2]

/-- A middle node block: the accumulator's one piece covers it, -/
theorem coverAccMid (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i) (x0 : Vec F S4096 .i32) (x1 : Vec F S4096 .f32) (x2 : Vec F S2048x33 .f32) (xs : Vec F S4096x33 .f32) (y : S4096x33.Idx) :
    ∃ pc ∈ (runMid c i nbr hnbr wts hwts tbl htbl outp houtp acc hacc hF hL x0 x1 x2 xs).2.1, y ∈ pc.1.set :=
  View.cover_of_tiledL (runMid c i nbr hnbr wts hwts tbl htbl outp houtp acc hacc hF hL x0 x1 x2 xs).2.1 S4096x33.size (by sl_kernel_rfl) y

/-- and leaves the step taken from the carried contents. -/
theorem accMid_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i) (x0 : Vec F S4096 .i32) (x1 : Vec F S4096 .f32) (x2 : Vec F S2048x33 .f32) (xs : Vec F S4096x33 .f32) :
    View.canon (runMid c i nbr hnbr wts hwts tbl htbl outp houtp acc hacc hF hL x0 x1 x2 xs).2.1 = k0_pay2 i x0 x2 xs := by
  unfold runMid
  dsimp only
  sl_unfold_words
  rw [View.canon_unit_zero (S := S4096x33) off2]
  simp only [View.readAt_eq_ld, hnbr.read_unread, htbl.read_unread, hacc.read_unread, View.ld_unit_zero (S := S4096) off1,
    View.ld_unit_zero (S := S2048x33) off2, View.ld_unit_zero (S := S4096x33) off2]

/-- Last node block: the accumulator's one piece covers it, -/
theorem coverAccLast (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) (y : S4096x33.Idx) :
    ∃ pc ∈ (runLast c i nbr hnbr wts hwts tbl htbl outp houtp acc hacc hF hL x0 x1 x2 xs).2.1, y ∈ pc.1.set :=
  View.cover_of_tiledL (runLast c i nbr hnbr wts hwts tbl htbl outp houtp acc hacc hF hL x0 x1 x2 xs).2.1 S4096x33.size (by sl_kernel_rfl) y

/-- and leaves the step taken from the carried contents; -/
theorem accLast_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) :
    View.canon (runLast c i nbr hnbr wts hwts tbl htbl outp houtp acc hacc hF hL x0 x1 x2 xs).2.1 = k0_pay2 i x0 x2 xs := by
  unfold runLast
  dsimp only
  sl_unfold_words
  rw [View.canon_unit_zero (S := S4096x33) off2]
  simp only [View.readAt_eq_ld, hnbr.read_unread, htbl.read_unread, hacc.read_unread, View.ld_unit_zero (S := S4096) off1,
    View.ld_unit_zero (S := S2048x33) off2, View.ld_unit_zero (S := S4096x33) off2]

/-- the output block's one piece covers it, -/
theorem coverOutLast (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) (y : S4096x33.Idx) :
    ∃ pc ∈ (runLast c i nbr hnbr wts hwts tbl htbl outp houtp acc hacc hF hL x0 x1 x2 xs).1, y ∈ pc.1.set :=
  View.cover_of_tiledL (runLast c i nbr hnbr wts hwts tbl htbl outp houtp acc hacc hF hL x0 x1 x2 xs).1 S4096x33.size (by sl_kernel_rfl) y

/-- and leaves the rows of the accumulator just stored, scaled by the edge weights. -/
theorem outLast_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) :
    View.canon (runLast c i nbr hnbr wts hwts tbl htbl outp houtp acc hacc hF hL x0 x1 x2 xs).1 = k0_pay3 x1 (k0_pay2 i x0 x2 xs) := by
  unfold runLast
  dsimp only
  sl_unfold_words
  rw [View.canon_unit_zero (S := S4096x33) off2]
  simp only [View.readAt_eq_ld, hnbr.read_unread, hwts.read_unread, htbl.read_unread, hacc.read_unread, View.ld_unit_zero (S := S4096) off1,
    View.ld_unit_zero (S := S2048x33) off2, View.ld_unit_zero (S := S4096x33) off2, View.readCov_unit_zero (S := S4096x33) _ off2]

/-! ## The accumulator and the output block after each point -/

/-- The accumulator after the body at point `n`: the accumulation step at the point's coordinates and blocks,
    taken from the reset value where the point opens an edge block (n ≡ 0 mod 49), else from what the point
    before left. -/
def accAt (c : Dev nD) : (n : ℕ) → n < cfg0.N → Vec F S4096x33 .f32
  | 0, hn => k0_pay2 (grid0.coords ⟨0, hn⟩) (iblk V c 0 ⟨0, hn⟩) (iblk V c 2 ⟨0, hn⟩) (k0_pay1 (F := F))
  | n + 1, hn => k0_pay2 (grid0.coords ⟨n + 1, hn⟩) (iblk V c 0 ⟨n + 1, hn⟩) (iblk V c 2 ⟨n + 1, hn⟩)
      (if (n + 1) % 49 = 0 then k0_pay1 (F := F) else accAt c n (Nat.lt_of_succ_lt hn))

/-- (The output's staging buffer, the accumulator) after the body at point `n`. The first component is what a
    point closing an edge block stores: the accumulator's rows scaled by the point's edge weights; at any other
    point the output window is idle and the component names nothing that is read. -/
def outsAt (c : Dev nD) : (n : ℕ) → n < cfg0.N → Vec F S4096x33 .f32 × Vec F S4096x33 .f32 :=
  fun n hn => (k0_pay3 (iblk V c 1 ⟨n, hn⟩) (accAt V c n hn), accAt V c n hn)

/-- At a point opening an edge block the accumulator is one step from the reset value. -/
theorem acc_first (c : Dev nD) (t : Fin cfg0.N) (h : t.val % 49 = 0) :
    (outsAt V c t.val t.isLt).2 = k0_pay2 (grid0.coords t) (iblk V c 0 t) (iblk V c 2 t) (k0_pay1 (F := F)) := by
  obtain ⟨n, hn⟩ := t
  show accAt V c n hn = _
  cases n with
  | zero => rfl
  | succ n => rw [accAt]; rw [if_pos h]

/-- At any other point it is one step from what the point before left. -/
theorem acc_next (c : Dev nD) (t : Fin cfg0.N) (h : ¬ t.val % 49 = 0) :
    (outsAt V c t.val t.isLt).2 = k0_pay2 (grid0.coords t) (iblk V c 0 t) (iblk V c 2 t) (outsAt V c (t.val - 1) (Nat.lt_of_le_of_lt (Nat.sub_le _ _) t.isLt)).2 := by
  obtain ⟨n, hn⟩ := t
  show accAt V c n hn = k0_pay2 _ _ _ (accAt V c (n - 1) _)
  cases n with
  | zero => exact absurd (Nat.zero_mod _) h
  | succ n => rw [accAt]; rw [if_neg h]; rfl

/-- At a point closing an edge block the output block is the accumulator scaled by the edge weights. -/
theorem out_last (c : Dev nD) (t : Fin cfg0.N) (h : t.val % 49 = 48) :
    (outsAt V c t.val t.isLt).1 = k0_pay3 (iblk V c 1 t) (outsAt V c t.val t.isLt).2 := rfl

/-! ## The region invariant -/

/-- Before point `n`: at the first point what the launch hands the region (the accumulator at anything);
    afterwards the accumulator at what the point before left, beside the other scoped buffers and the generator
    register. -/
def Phi (c : Dev nD) : (n : ℕ) → n ≤ cfg0.N → sProp 𝕄
  | 0, _ => Pipeline.ΦA spec0 c
  | n + 1, hn => iprop(iprop(owns (c : Thread nD τ) scM fullShare ((outsAt V c n hn).2) ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) scM fullShare ((outsAt V c n hn).2) ∗ others (F := F) c) ∗ (∃ r, prngReg c r)) := rfl

theorem Phi_pos (c : Dev nD) (n : ℕ) (h : n ≤ cfg0.N) (hz : n ≠ 0) :
    Phi V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The pipeline's proof data -/

/-- The arrays as the region finds them; after the body each input window's buffer at its block and the output
    window's at `outsAt`'s first component; the tracked invariant; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- An input window is live everywhere: the body leaves its buffer at its block. -/
theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (iblk V c 2 t) := by
  unfold Dat.leavesExact; rw [live_2 t, after_2]
/-- The output window away from the last node block: handed back as it was found. -/
theorem leaves_3_idle (c : Dev nD) (t : Fin cfg0.N) (h1 : ¬t.val % 49 = 48) :
    (dat V c).leavesExact 3 t = iprop(∃ d, owns (c : Thread nD τ) (ms_3 t) fullShare ((dat V c).before 3 t d)) :=
  Dat.leavesExact_idle (dat V c) 3 t (idle_3 t (fun h => h1 ((hcondLast t).mp h))) (noFlush_3 t (fun h => h1 ((hcondLast t).mp h)))
/-- At the last node block: at the stored block. -/
theorem leaves_3_live (c : Dev nD) (t : Fin cfg0.N) (h1 : t.val % 49 = 48) :
    (dat V c).leavesExact 3 t = owns (c : Thread nD τ) (ms_3 t) fullShare ((outsAt V c t.val t.isLt).1) := by
  unfold Dat.leavesExact; rw [live_3 t ((hcondLast t).mpr h1), after_3]

/-! ## The cases' runs at a point, and what they leave there -/

/-- The first case's run at point `t`'s memrefs and blocks. -/
abbrev firstAt (c : Dev nD) (t : Fin cfg0.N) (h0 : t.val % 49 = 0) (h1 : ¬t.val % 49 = 48) :=
  runFirst (F := F) c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)
/-- The middle case's, over what the point before left in the accumulator. -/
abbrev midAt (c : Dev nD) (t : Fin cfg0.N) (h0 : ¬t.val % 49 = 0) (h1 : ¬t.val % 49 = 48) :=
  runMid (F := F) c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2
/-- The last case's, likewise. -/
abbrev lastAt (c : Dev nD) (t : Fin cfg0.N) (h0 : ¬t.val % 49 = 0) (h1 : t.val % 49 = 48) :=
  runLast (F := F) c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2

theorem acc_of_first (c : Dev nD) (t : Fin cfg0.N) (h0 : t.val % 49 = 0) (h1 : ¬t.val % 49 = 48) (es : scM.view.ty.Contents (Elt F)) :
    scM.view.read (Elt F) (scM.view.writes (Elt F) es (firstAt V c t h0 h1).2.1) = (outsAt V c t.val t.isLt).2 := by
  rw [acc_first V c t h0]
  exact (View.read_writes_eq_canon _ _ _ (coverAccFirst c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t))).trans
    (accFirst_eq c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t))

theorem acc_of_mid (c : Dev nD) (t : Fin cfg0.N) (h0 : ¬t.val % 49 = 0) (h1 : ¬t.val % 49 = 48) (es : scM.view.ty.Contents (Elt F)) :
    scM.view.read (Elt F) (scM.view.writes (Elt F) es (midAt V c t h0 h1).2.1) = (outsAt V c t.val t.isLt).2 := by
  rw [acc_next V c t h0]
  exact (View.read_writes_eq_canon _ _ _ (coverAccMid c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2)).trans
    (accMid_eq c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2)

theorem acc_of_last (c : Dev nD) (t : Fin cfg0.N) (h0 : ¬t.val % 49 = 0) (h1 : t.val % 49 = 48) (es : scM.view.ty.Contents (Elt F)) :
    scM.view.read (Elt F) (scM.view.writes (Elt F) es (lastAt V c t h0 h1).2.1) = (outsAt V c t.val t.isLt).2 := by
  rw [acc_next V c t h0]
  exact (View.read_writes_eq_canon _ _ _ (coverAccLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)).trans
    (accLast_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)

theorem out_of_last (c : Dev nD) (t : Fin cfg0.N) (h0 : ¬t.val % 49 = 0) (h1 : t.val % 49 = 48) (eo : (ms_3 t).view.ty.Contents (Elt F)) :
    (ms_3 t).view.read (Elt F) ((ms_3 t).view.writes (Elt F) eo (lastAt V c t h0 h1).1) = (outsAt V c t.val t.isLt).1 := by
  rw [out_last V c t h1, acc_next V c t h0]
  exact (View.read_writes_eq_canon _ _ _ (coverOutLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)).trans
    (outLast_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's residue mod 49 says which case it
    is in (both conditions at once would need a one-point inner axis); the invariant hands the run the accumulator
    (at anything where the launch's invariant still stands, else at what the point before left) and takes it back
    at this point's value; an idle output window goes back as it came, a live one at the stored block; the other
    scoped buffers, the generator register and the core's debts pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2]
  have hN : t.val < 19159 := lt_of_lt_of_eq t.isLt (show cfg0.N = 19159 from N_0)
  by_cases h0 : t.val % 49 = 0
  · by_cases h1 : t.val % 49 = 48
    · exfalso; omega
    · rw [leaves_3_idle V c t h1]
      by_cases hz : t.val = 0
      · rw [Phi_castSucc V c t, Phi_zero V c _ _ hz, PhiA_eq]
        iintro ⟨⟨⟨HS, Hoth⟩, Hg⟩, Ho, ⟨%d0, H0⟩, ⟨%d1, H1⟩, ⟨%d2, H2⟩, ⟨%d3, H3⟩⟩
        iapply ((firstAt V c t h0 h1).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact acc_of_first V c t h0 h1 es
            iexact Hoth
          iexact Hg
        isplitl [Ho]; · iexact Ho
        isplitl [H0]; · iexact H0
        isplitl [H1]; · iexact H1
        isplitl [H2]; · iexact H2
        iexists _; iexact H3
      · rw [Phi_castSucc V c t, Phi_pos V c _ _ hz]
        iintro ⟨⟨⟨HS, Hoth⟩, Hg⟩, Ho, ⟨%d0, H0⟩, ⟨%d1, H1⟩, ⟨%d2, H2⟩, ⟨%d3, H3⟩⟩
        iapply ((firstAt V c t h0 h1).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact acc_of_first V c t h0 h1 es
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    rw [Phi_castSucc V c t, Phi_pos V c _ _ hz]
    by_cases h1 : t.val % 49 = 48
    · rw [leaves_3_live V c t h1]
      iintro ⟨⟨⟨HS, Hoth⟩, Hg⟩, Ho, ⟨%d0, H0⟩, ⟨%d1, H1⟩, ⟨%d2, H2⟩, ⟨%d3, H3⟩⟩
      iapply ((lastAt V c t h0 h1).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact acc_of_last V c t h0 h1 es
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact out_of_last V c t h0 h1 eo
    · rw [leaves_3_idle V c t h1]
      iintro ⟨⟨⟨HS, Hoth⟩, Hg⟩, Ho, ⟨%d0, H0⟩, ⟨%d1, H1⟩, ⟨%d2, H2⟩, ⟨%d3, H3⟩⟩
      iapply ((midAt V c t h0 h1).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact acc_of_mid V c t h0 h1 es
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives it back: the accumulator's named contents are forgotten. -/
theorem Phi_out (c : Dev nD) : (dat V c).Φ (Fin.last cfg0.N) ⊢ Pipeline.ΦA spec0 c := by
  have hne : (Fin.last cfg0.N).val ≠ 0 := by rw [Fin.val_last]; have : cfg0.N = 19159 := N_0; omega
  rw [show (dat V c).Φ (Fin.last cfg0.N) = Phi V c (Fin.last cfg0.N).val (Nat.le_of_lt_succ (Fin.last cfg0.N).isLt) from rfl,
    Phi_pos V c _ _ hne, PhiA_eq]
  iintro ⟨⟨HS, Hoth⟩, Hg⟩
  isplitl [HS Hoth]
  · isplitl [HS]
    · iexists _; iexact HS
    iexact Hoth
  iexact Hg

end Cert.Kernel.Gather

end
-- ==== Proof.K.Scatter.Setup.lean ====
/-
  The scatter pass (the second pallas_call) on its grid of 49 × 391 points: what its per-case runs and its
  region invariant are stated over. A point is (i, j): node block i (2048 node rows) against edge block j (4096
  edges). For a fixed node block the kernel walks over all edge blocks: the accumulator is cleared at j = 0, at
  every j it gains the one-hot (node row = own-node index) product with the first pass's result block, and at
  j = 390 the output block is formed from the accumulator and the node block of the table; at every other point
  the output window is idle. Everything here is stated at a parameter V, the buffer contents when the region is
  entered.
-/
import proofs.«412493_j88510686036697_1_alg».proof.Proof.Gen.Kernel.Launch
import proofs.«412493_j88510686036697_1_alg».proof.Proof.Gen.Kernel.Skeleton
import proofs.«412493_j88510686036697_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or
    not (where it is not fetched the block index is that of the point before): the own-node indices of the
    edge block (window 0), -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the first pass's result for the edge block (window 1), -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the node block of the feature table (window 2), which moves only when the node block does. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first edge block" (j = 0): the accumulator is cleared. -/
abbrev condFirst (i : grid1.Coords) : Prop := (Scalar.cmpi .ne (Scalar.extui (Scalar.cmpi .eq (BitVec.ofNat 32 (i 1).val) 0#32)) 0#32) = 1#1
/-- It holds at the points ≡ 0 (mod 391). -/
theorem hcondFirst : ∀ t : Fin cfg1.N, condFirst (grid1.coords t) ↔ t.val % 391 = 0 :=
  (by decide +kernel : ∀ t : Fin grid1.N, condFirst (grid1.coords t) ↔ t.val % 391 = 0)

/-- "This is the last edge block" (j = 390): the output block is formed from the accumulator and stored. -/
abbrev condLast (i : grid1.Coords) : Prop := k1_cond2 i = 1#1
/-- It holds at the points ≡ 390 (mod 391). -/
theorem hcondLast : ∀ t : Fin cfg1.N, condLast (grid1.coords t) ↔ t.val % 391 = 390 :=
  (by decide +kernel : ∀ t : Fin grid1.N, condLast (grid1.coords t) ↔ t.val % 391 = 390)

/-! ## Where the windows are idle -/

theorem live_0 (t : Fin cfg1.N) : cfg1.idle 0 (grid1.coords t) = false := rfl
theorem live_1 (t : Fin cfg1.N) : cfg1.idle 1 (grid1.coords t) = false := rfl
theorem live_2 (t : Fin cfg1.N) : cfg1.idle 2 (grid1.coords t) = false := rfl
/-- Away from the last edge block the output window is idle: the body stores nothing into it, -/
theorem idle_3 (t : Fin cfg1.N) (h : ¬condLast (grid1.coords t)) : cfg1.idle 3 (grid1.coords t) = true := by
  show (!(k1_cond2 (grid1.coords t) == 1#1)) = true
  simp only [Bool.not_eq_true', beq_eq_false_iff_ne, ne_eq]; exact h
/-- and the pipeline does not write its block back there. -/
theorem noFlush_3 (t : Fin cfg1.N) (h : ¬condLast (grid1.coords t)) : (cfg1.win 3).flush t = false := by
  have h' : ¬t.val % 391 = 390 := fun e => h ((hcondLast t).mpr e)
  cases hf : (cfg1.win 3).flush t with
  | false => rfl
  | true => exact absurd ((flush1_3 t).mp hf) h'
/-- At the last edge block it is live. -/
theorem live_3 (t : Fin cfg1.N) (h : condLast (grid1.coords t)) : cfg1.idle 3 (grid1.coords t) = false := by
  show (!(k1_cond2 (grid1.coords t) == 1#1)) = false
  simp only [Bool.not_eq_false', beq_iff_eq]; exact h

/-! ## The staging and scratch memrefs -/

/-- One staging buffer of the output window, through which its contents are stated. -/
abbrev VO : View sig .tc .vmem S2048x32 .f32 := (Memref.whole cc1_stg3_0 : Memref sig .tc .vmem S2048x32 .f32).view
/-- Each window's current staging memref at point t, as the pipeline passes it, and its wholeness. -/
abbrev ms_0 (t : Fin cfg1.N) : Memref sig .tc .vmem S4096 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4096x33 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S2048x33 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x32 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S2048x33 .f32 := Memref.whole cc1_scratch0
abbrev VS : View sig .tc .vmem S2048x33 .f32 := scM.view

/-- The scoped buffers of the core that this region neither stages through nor accumulates in (the first
    pallas_call's staging buffers and its accumulator), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- In a chain of ten conjuncts the last may be brought to the front. -/
theorem sep_last_to_front {M : Type} [URA M] (A0 A1 A2 A3 A4 A5 A6 A7 A8 Z : sProp M) :
    iprop(A0 ∗ A1 ∗ A2 ∗ A3 ∗ A4 ∗ A5 ∗ A6 ∗ A7 ∗ A8 ∗ Z) = iprop(Z ∗ (A0 ∗ A1 ∗ A2 ∗ A3 ∗ A4 ∗ A5 ∗ A6 ∗ A7 ∗ A8)) := by
  have fwd : iprop(A0 ∗ A1 ∗ A2 ∗ A3 ∗ A4 ∗ A5 ∗ A6 ∗ A7 ∗ A8 ∗ Z) ⊢ iprop(Z ∗ (A0 ∗ A1 ∗ A2 ∗ A3 ∗ A4 ∗ A5 ∗ A6 ∗ A7 ∗ A8)) := by
    iintro ⟨H0, H1, H2, H3, H4, H5, H6, H7, H8, HZ⟩
    isplitl [HZ]; · iexact HZ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have bwd : iprop(Z ∗ (A0 ∗ A1 ∗ A2 ∗ A3 ∗ A4 ∗ A5 ∗ A6 ∗ A7 ∗ A8)) ⊢ iprop(A0 ∗ A1 ∗ A2 ∗ A3 ∗ A4 ∗ A5 ∗ A6 ∗ A7 ∗ A8 ∗ Z) := by
    iintro ⟨HZ, H0, H1, H2, H3, H4, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HZ
  exact BI.equiv_iff.mp ⟨fwd, bwd⟩

/-- The class's region invariant with the accumulator as a memref owned at some contents, beside the other
    scoped buffers and the generator register: what the body obligation hands a run and takes back. The
    accumulator is the last of the core's scoped buffers that are no staging buffer of this call; it is brought
    to the front. -/
theorem PhiA_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA others; rw [scopedRest1_eq, sep_last_to_front]; simp only [scM, owns_whole]; try rfl

end Cert.Kernel.Scatter

end
-- ==== Proof.K.Scatter.RunA.lean ====
/-
  The scatter kernel's body at a point of case A: the first edge block of a node block, and not the last. The
  accumulator is cleared and then gains this edge block's one-hot product; nothing is stored into the output
  block. The run is found by symbolic execution of the body's skeleton; what the accumulator ends with is
  recorded as the list of pieces stored into it, which is the witness.
-/
import proofs.«412493_j88510686036697_1_alg».proof.Proof.K.Scatter.Setup

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (first edge block, not the last). On whole memrefs — the three inputs at their contents, the output's
    staging buffer at any contents xi3, the accumulator at anything — the body runs to a continuation that is
    handed the inputs as they were, the output's buffer untouched at xi3, and the accumulator with the pieces LS
    written into it (the clearing store, then the update). No piece goes to the output (L3 is empty). -/
noncomputable def kernelRun_A (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) :
    Σ' (L3 : List (View.Piece (Elt F) S2048x32 .f32)), { LS : List (View.Piece (Elt F) S2048x33 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Scatter

end
-- ==== Proof.K.Scatter.RunB.lean ====
/-
  The scatter kernel's body at a point of case B: an edge block that is neither the first nor the last of its
  node block. The accumulator, which holds what the point before left, gains this edge block's one-hot product;
  nothing is stored into the output block.
-/
import proofs.«412493_j88510686036697_1_alg».proof.Proof.K.Scatter.RunA

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (neither first nor last edge block). On whole memrefs — the three inputs at their contents, the
    output's staging buffer at any contents xi3, the accumulator at xs — the body runs to a continuation that is
    handed the inputs as they were, the output's buffer untouched at xi3, and the accumulator with the pieces LS
    written into it (the one update). No piece goes to the output (L3 is empty). -/
noncomputable def kernelRun_B (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) :
    Σ' (L3 : List (View.Piece (Elt F) S2048x32 .f32)), { LS : List (View.Piece (Elt F) S2048x33 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Scatter

end
-- ==== Proof.K.Scatter.RunC.lean ====
/-
  The scatter kernel's body at a point of case C: the last edge block of a node block, and not the first. The
  accumulator, which holds what the point before left, gains this edge block's one-hot product; then the output
  block is formed from the accumulator and the node block of the table and stored whole.
-/
import proofs.«412493_j88510686036697_1_alg».proof.Proof.K.Scatter.RunB

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (last edge block, not the first). On whole memrefs — the three inputs at their contents, the output's
    staging buffer at anything, the accumulator at xs — the body runs to a continuation that is handed the inputs
    as they were, the output's buffer with the pieces L3 written into it (the one store of the output block) and
    the accumulator with the pieces LS written into it (the one update). -/
noncomputable def kernelRun_C (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) :
    Σ' (L3 : List (View.Piece (Elt F) S2048x32 .f32)), { LS : List (View.Piece (Elt F) S2048x33 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Scatter

end
-- ==== Proof.K.Scatter.Frame.lean ====
/-
  The scatter pass as a region: what each of the body's three cases leaves in the accumulator and in the output
  block, the same point by point along the grid, the region invariant that carries the accumulator from one
  point to the next, the pipeline's proof data and the body obligation. The accumulator after a point is the
  update step applied to the cleared value (at the first edge block of a node block) or to what the point before
  left (elsewhere); the output block at the last edge block is formed from the accumulator there and the node
  block of the table.
-/
import proofs.«412493_j88510686036697_1_alg».proof.Proof.K.Scatter.RunC
import Idealize.ShloMosaic.Lib.Pipeline.Value

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder that nothing consults (the window is idle at
    these points: neither written back nor read at the next point). -/
def out_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : Vec F S2048x32 .f32 :=
  VO.read (Elt F) (VO.writes (Elt F) VO.junk (kernelRun_A c i arg2 harg2 arg3 harg3 arg4 harg4 arg5 harg5 arg6 harg6 hc0 hc1 x0 x1 x2).1)

/-- Case A's pieces for the accumulator cover it (the clearing store and the update are both whole). -/
theorem scover_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) (y : S2048x33.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x33.size (by sl_kernel_rfl) y

/-- What case A leaves in the accumulator: its pieces read back. -/
def sout_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : Vec F S2048x33 .f32 :=
  VS.read (Elt F) (VS.writes (Elt F) VS.junk (kernelRun_A c i arg2 harg2 arg3 harg3 arg4 harg4 arg5 harg5 arg6 harg6 hc0 hc1 x0 x1 x2).2.1)

/-- Case B stores nothing into the output block either: the same placeholder. -/
def out_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : Vec F S2048x32 .f32 :=
  VO.read (Elt F) (VO.writes (Elt F) VO.junk (kernelRun_B c i arg2 harg2 arg3 harg3 arg4 harg4 arg5 harg5 arg6 harg6 hc0 hc1 x0 x1 x2 xs).1)

/-- Case B's one piece for the accumulator covers it. -/
theorem scover_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) (y : S2048x33.Idx) :
    ∃ pc ∈ (kernelRun_B c i arg2 harg2 arg3 harg3 arg4 harg4 arg5 harg5 arg6 harg6 hc0 hc1 x0 x1 x2 xs).2.1, y ∈ pc.1.set :=
  View.cover_of_tiledL (kernelRun_B c i arg2 harg2 arg3 harg3 arg4 harg4 arg5 harg5 arg6 harg6 hc0 hc1 x0 x1 x2 xs).2.1 S2048x33.size (by sl_kernel_rfl) y

/-- What case B leaves in the accumulator. -/
def sout_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : Vec F S2048x33 .f32 :=
  VS.read (Elt F) (VS.writes (Elt F) VS.junk (kernelRun_B c i arg2 harg2 arg3 harg3 arg4 harg4 arg5 harg5 arg6 harg6 hc0 hc1 x0 x1 x2 xs).2.1)

/-- Case C's one piece for the output block covers it. -/
theorem cover_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) (y : S2048x32.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S2048x32.size (by sl_kernel_rfl) y

/-- What case C leaves in the output's staging buffer. -/
def out_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : Vec F S2048x32 .f32 :=
  VO.read (Elt F) (VO.writes (Elt F) VO.junk (kernelRun_C c i arg2 harg2 arg3 harg3 arg4 harg4 arg5 harg5 arg6 harg6 hc0 hc1 x0 x1 x2 xs).1)

/-- Case C's one piece for the accumulator covers it. -/
theorem scover_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) (y : S2048x33.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S2048x33.size (by sl_kernel_rfl) y

/-- What case C leaves in the accumulator. -/
def sout_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : Vec F S2048x33 .f32 :=
  VS.read (Elt F) (VS.writes (Elt F) VS.junk (kernelRun_C c i arg2 harg2 arg3 harg3 arg4 harg4 arg5 harg5 arg6 harg6 hc0 hc1 x0 x1 x2 xs).2.1)

/-! ## The cases' contents in closed form -/

theorem zero_off1 : (![0] : Fin 1 → Nat) = fun _ => 0 := by funext a; fin_cases a; rfl
theorem zero_off2 : (![0, 0] : Fin 2 → Nat) = fun _ => 0 := by funext a; fin_cases a <;> rfl

/-- Case A leaves in the accumulator one update step over the cleared value. -/
theorem sout_A_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : sout_A c i arg2 harg2 arg3 harg3 arg4 harg4 arg5 harg5 arg6 harg6 hc0 hc1 x0 x1 x2 = k1_pay2 i x0 x1 (k1_pay1 (F := F)) := by
  unfold sout_A; rw [View.read_writes_eq_canon _ _ _ (scover_A c i arg2 harg2 arg3 harg3 arg4 harg4 arg5 harg5 arg6 harg6 hc0 hc1 x0 x1 x2)]
  unfold kernelRun_A; dsimp only; sl_unfold_words
  rw [View.canon_cons_unit_zero (S := S2048x33) zero_off2]
  simp only [View.readAt_eq_ld, harg2.read_unread, harg3.read_unread, View.ld_unit_zero (S := S4096) zero_off1,
    View.ld_unit_zero (S := S4096x33) zero_off2, View.readCov_unit_zero (S := S2048x33) _ zero_off2]

/-- Case B leaves in the accumulator one update step over what it held. -/
theorem sout_B_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : sout_B c i arg2 harg2 arg3 harg3 arg4 harg4 arg5 harg5 arg6 harg6 hc0 hc1 x0 x1 x2 xs = k1_pay2 i x0 x1 xs := by
  unfold sout_B; rw [View.read_writes_eq_canon _ _ _ (scover_B c i arg2 harg2 arg3 harg3 arg4 harg4 arg5 harg5 arg6 harg6 hc0 hc1 x0 x1 x2 xs)]
  unfold kernelRun_B; dsimp only; sl_unfold_words
  rw [View.canon_unit_zero (S := S2048x33) zero_off2]
  simp only [View.readAt_eq_ld, harg2.read_unread, harg3.read_unread, harg6.read_unread, View.ld_unit_zero (S := S4096) zero_off1,
    View.ld_unit_zero (S := S4096x33) zero_off2, View.ld_unit_zero (S := S2048x33) zero_off2]

/-- So does case C. -/
theorem sout_C_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : sout_C c i arg2 harg2 arg3 harg3 arg4 harg4 arg5 harg5 arg6 harg6 hc0 hc1 x0 x1 x2 xs = k1_pay2 i x0 x1 xs := by
  unfold sout_C; rw [View.read_writes_eq_canon _ _ _ (scover_C c i arg2 harg2 arg3 harg3 arg4 harg4 arg5 harg5 arg6 harg6 hc0 hc1 x0 x1 x2 xs)]
  unfold kernelRun_C; dsimp only; sl_unfold_words
  rw [View.canon_unit_zero (S := S2048x33) zero_off2]
  simp only [View.readAt_eq_ld, harg2.read_unread, harg3.read_unread, harg6.read_unread, View.ld_unit_zero (S := S4096) zero_off1,
    View.ld_unit_zero (S := S4096x33) zero_off2, View.ld_unit_zero (S := S2048x33) zero_off2]

/-- Case C leaves in the output block what the closing formula makes of the updated accumulator and the node
    block of the table. -/
theorem out_C_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : out_C c i arg2 harg2 arg3 harg3 arg4 harg4 arg5 harg5 arg6 harg6 hc0 hc1 x0 x1 x2 xs = k1_pay3 (k1_pay2 i x0 x1 xs) x2 := by
  unfold out_C; rw [View.read_writes_eq_canon _ _ _ (cover_C c i arg2 harg2 arg3 harg3 arg4 harg4 arg5 harg5 arg6 harg6 hc0 hc1 x0 x1 x2 xs)]
  unfold kernelRun_C; dsimp only; sl_unfold_words
  rw [View.canon_unit_zero (S := S2048x32) zero_off2]
  simp only [View.readAt_eq_ld, harg2.read_unread, harg3.read_unread, harg4.read_unread, harg6.read_unread, View.ld_unit_zero (S := S4096) zero_off1,
    View.ld_unit_zero (S := S4096x33) zero_off2, View.ld_unit_zero (S := S2048x33) zero_off2, View.readCov_unit_zero (S := S2048x33) _ zero_off2]

/-! ## What the output's staging buffer and the accumulator hold after each point -/

/-- After the body at point n: the pair (the output's staging buffer, the accumulator). The case is read off
    n mod 391; the accumulator the step reads is the cleared value in case A and what the point before left in
    cases B and C. First-and-last at once does not occur. -/
def outsAt (c : Dev nD) : (n : ℕ) → n < cfg1.N → Vec F S2048x32 .f32 × Vec F S2048x33 .f32
  | 0, hn => (out_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 391 = 0 then
      if h1 : (n + 1) % 391 = 390 then
        False.elim (by omega)
      else
        (out_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 391 = 390 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a point of case A. -/
theorem outsAt_A (c : Dev nD) (t : Fin cfg1.N) (h0 : t.val % 391 = 0) (h1 : ¬t.val % 391 = 390) :
    outsAt V c t.val t.isLt = (out_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t), sout_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

/-- At a point of case B: over what the point before left. -/
theorem outsAt_B (c : Dev nD) (t : Fin cfg1.N) (h0 : ¬t.val % 391 = 0) (h1 : ¬t.val % 391 = 390) :
    outsAt V c t.val t.isLt = (out_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt_C (c : Dev nD) (t : Fin cfg1.N) (h0 : ¬t.val % 391 = 0) (h1 : t.val % 391 = 390) :
    outsAt V c t.val t.isLt = (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the region's entry the class's invariant (every scoped buffer that is no staging
    buffer of this call at anything, the generator register at some state); afterwards the accumulator at what
    the point before left in it, beside the other scoped buffers and the generator register. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others (F := F) c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The pipeline's proof data -/

/-- The arrays as the region finds them; after the body at point t each input's buffer at its block and the
    output's at the first component of the pair above; the invariant the one above; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point t: the invariant, the core's dues, each window's current staging
    buffer at what the pipeline left in it, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; n mod 391 says which case the point is in, and
    that case's run applies. The invariant hands the body the accumulator (at anything at the region's first point,
    otherwise at what the point before left), keeps the other scoped buffers and the generator register, and takes
    the accumulator back at this point's contents. Where the output window is idle its buffer is handed back as it
    was found. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 19159 := lt_of_lt_of_eq t.isLt (show cfg1.N = 19159 from N_1)
  by_cases h0 : t.val % 391 = 0
  · by_cases h1 : t.val % 391 = 390
    · exfalso; omega
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 391 = 390
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      have hz : t.val ≠ 0 := fun e => h0 (by rw [e])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      have hz : t.val ≠ 0 := fun e => h0 (by rw [e])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  have hN : (Fin.last cfg1.N).val ≠ 0 := by rw [Fin.val_last]; have : cfg1.N = 19159 := N_1; omega
  rw [show (dat V c).Φ (Fin.last cfg1.N) = PhiS V c (Fin.last cfg1.N).val (Nat.le_of_lt_succ (Fin.last cfg1.N).isLt) from rfl,
    PhiS_pos V c _ _ hN, PhiA_eq]
  iintro ⟨⟨HS, Hoth⟩, Hg⟩
  isplitl [HS Hoth]
  · isplitl [HS]
    · iexists _; iexact HS
    iexact Hoth
  iexact Hg

/-! ## The step equations -/

/-- At the first edge block of a node block the accumulator ends at one update step over the cleared value. -/
theorem acc_first (c : Dev nD) (t : Fin cfg1.N) (h : t.val % 391 = 0) :
    (outsAt V c t.val t.isLt).2 = k1_pay2 (grid1.coords t) (iblk V c 0 t) (iblk V c 1 t) (k1_pay1 (F := F)) := by
  have h1 : ¬t.val % 391 = 390 := by omega
  rw [outsAt_A V c t h h1]; dsimp only
  exact sout_A_eq (F := F) c (grid1.coords t) (ms_0 t) (hs_0 t) (ms_1 t) (hs_1 t) (ms_2 t) (hs_2 t) (ms_3 t) (hs_3 t) scM (Memref.isWhole_whole _)
    ((hcondFirst t).mpr h) (fun h' => h1 ((hcondLast t).mp h')) (iblk V c 0 t) (iblk V c 1 t) (iblk V c 2 t)

/-- At every other point it ends at one update step over what the point before left. -/
theorem acc_next (c : Dev nD) (t : Fin cfg1.N) (h : ¬ t.val % 391 = 0) :
    (outsAt V c t.val t.isLt).2 = k1_pay2 (grid1.coords t) (iblk V c 0 t) (iblk V c 1 t) (outsAt V c (t.val - 1) (Nat.lt_of_le_of_lt (Nat.sub_le _ _) t.isLt)).2 := by
  by_cases h1 : t.val % 391 = 390
  · rw [outsAt_C V c t h h1]; dsimp only
    exact sout_C_eq (F := F) c (grid1.coords t) (ms_0 t) (hs_0 t) (ms_1 t) (hs_1 t) (ms_2 t) (hs_2 t) (ms_3 t) (hs_3 t) scM (Memref.isWhole_whole _)
      (fun h' => h ((hcondFirst t).mp h')) ((hcondLast t).mpr h1) (iblk V c 0 t) (iblk V c 1 t) (iblk V c 2 t)
      (outsAt V c (t.val - 1) (Nat.lt_of_le_of_lt (Nat.sub_le _ _) t.isLt)).2
  · rw [outsAt_B V c t h h1]; dsimp only
    exact sout_B_eq (F := F) c (grid1.coords t) (ms_0 t) (hs_0 t) (ms_1 t) (hs_1 t) (ms_2 t) (hs_2 t) (ms_3 t) (hs_3 t) scM (Memref.isWhole_whole _)
      (fun h' => h ((hcondFirst t).mp h')) (fun h' => h1 ((hcondLast t).mp h')) (iblk V c 0 t) (iblk V c 1 t) (iblk V c 2 t)
      (outsAt V c (t.val - 1) (Nat.lt_of_le_of_lt (Nat.sub_le _ _) t.isLt)).2

/-- At the last edge block of a node block the output block is the closing formula of the accumulator there and
    the node block of the table. -/
theorem out_last (c : Dev nD) (t : Fin cfg1.N) (h : t.val % 391 = 390) :
    (outsAt V c t.val t.isLt).1 = k1_pay3 ((outsAt V c t.val t.isLt).2) (iblk V c 2 t) := by
  have h0 : ¬t.val % 391 = 0 := by omega
  rw [outsAt_C V c t h0 h]; dsimp only
  exact (out_C_eq (F := F) c (grid1.coords t) (ms_0 t) (hs_0 t) (ms_1 t) (hs_1 t) (ms_2 t) (hs_2 t) (ms_3 t) (hs_3 t) scM (Memref.isWhole_whole _)
      (fun h' => h0 ((hcondFirst t).mp h')) ((hcondLast t).mpr h) (iblk V c 0 t) (iblk V c 1 t) (iblk V c 2 t)
      (outsAt V c (t.val - 1) (Nat.lt_of_le_of_lt (Nat.sub_le _ _) t.isLt)).2).trans
    (congrArg (fun a => k1_pay3 a (iblk V c 2 t))
      (sout_C_eq (F := F) c (grid1.coords t) (ms_0 t) (hs_0 t) (ms_1 t) (hs_1 t) (ms_2 t) (hs_2 t) (ms_3 t) (hs_3 t) scM (Memref.isWhole_whole _)
        (fun h' => h0 ((hcondFirst t).mp h')) ((hcondLast t).mpr h) (iblk V c 0 t) (iblk V c 1 t) (iblk V c 2 t)
        (outsAt V c (t.val - 1) (Nat.lt_of_le_of_lt (Nat.sub_le _ _) t.isLt)).2).symm)

end Cert.Kernel.Scatter

end
-- ==== Proof.K.Assembly.lean ====
/-
  The kernel program's whole run: @main's eleven items in order — eight stretches of host operations
  that slice, pad and augment the arguments, the gather pass, the scatter pass, the final slice — composed from
  each item's own account. Between two items a core holds every unscoped buffer at known contents: the launch
  memory pushed through the host stretches (`V0 … V8`), then each pass's arrays at what its write-backs leave
  (`W9`, `W10`), then the final slice (`W11`). The run ends with every unscoped buffer at `W11`; the frame
  claim and the result's value are read off that.
-/
import proofs.«412493_j88510686036697_1_alg».proof.Proof.K.Gather.Frame
import proofs.«412493_j88510686036697_1_alg».proof.Proof.K.Scatter.Frame
import proofs.«412493_j88510686036697_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Assembly

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' ends -/

/-- What the gather pass is entered from, read at the TensorCore's references. -/
abbrev E8 : (c : Dev nD) → (b : Ref sig .tc) → Buf (Elt F) ((c : Thread nD τ).loc b) := fun c b => V8 m c b
/-- After the gather pass: its arrays at what the pipeline leaves, every other buffer as entered. -/
def W9 (c : Dev nD) : Valuation τ sig (Elt F) :=
  Pipeline.withArrays spec0 c (V8 m c) fun w => (Gather.dat (E8 m) c).arrAt w cfg0.N
theorem W9_arr (c : Dev nD) (w : Fin cfg0.W) :
    W9 m c (Proc.devRef .tc (Pipeline.arrRef spec0 w)) = (Gather.dat (E8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = V8 m c (Proc.devRef .tc b) := by
  unfold W9; exact Pipeline.withArrays_of_ne spec0 c _ _ b hb
/-- The same read at the TensorCore's references: what the scatter pass is entered from. -/
abbrev E9 : (c : Dev nD) → (b : Ref sig .tc) → Buf (Elt F) ((c : Thread nD τ).loc b) := fun c b => W9 m c b
theorem hF0 (c : Dev nD) (w : Fin cfg0.W) : (Gather.dat (E8 m) c).arrAt w cfg0.N = E9 m c (Pipeline.arrRef spec0 w) :=
  (W9_arr m c w).symm
theorem hrest0 (c : Dev nD) : ∀ b, b ∉ Finset.univ.image (Pipeline.arrRef spec0) → E9 m c b = E8 m c b :=
  fun b hb => W9_of_ne m c b fun w e => hb (Finset.mem_image.mpr ⟨w, Finset.mem_univ _, e⟩)

/-- After the scatter pass. -/
def W10 (c : Dev nD) : Valuation τ sig (Elt F) :=
  Pipeline.withArrays spec1 c (W9 m c) fun w => (Scatter.dat (E9 m) c).arrAt w cfg1.N
theorem W10_arr (c : Dev nD) (w : Fin cfg1.W) :
    W10 m c (Proc.devRef .tc (Pipeline.arrRef spec1 w)) = (Scatter.dat (E9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E10 : (c : Dev nD) → (b : Ref sig .tc) → Buf (Elt F) ((c : Thread nD τ).loc b) := fun c b => W10 m c b
theorem hF1 (c : Dev nD) (w : Fin cfg1.W) : (Scatter.dat (E9 m) c).arrAt w cfg1.N = E10 m c (Pipeline.arrRef spec1 w) :=
  (W10_arr m c w).symm
theorem hrest1 (c : Dev nD) : ∀ b, b ∉ Finset.univ.image (Pipeline.arrRef spec1) → E10 m c b = E9 m c b :=
  fun b hb => W10_of_ne m c b fun w e => hb (Finset.mem_image.mpr ⟨w, Finset.mem_univ _, e⟩)

/-- After the final slice. -/
abbrev W11 : Dev nD → Valuation τ sig (Elt F) := fun c => StableHlo.after hostOps2 (W10 m c)

/-! ## The proof data family and the thread state -/

abbrev adm : (p : Fin 2) → (pcfgs (F := F) p).Adm := fun p => (cfgs p).toPCfg_adm
/-- Each pass's proof data at its own entry contents: a literal match on the pipeline. -/
def pdats : (p : Fin 2) → (c : Dev nD) → Dat τ (Elt F) Unit ℕ (UR sig nD τ) ℕ (Pipeline.pin (pcfgs (F := F)) adm p) c
  | ⟨0, _⟩ => fun c => Gather.dat (E8 m) c
  | ⟨1, _⟩ => fun c => Scatter.dat (E9 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last contents, the generator register. -/
abbrev Tₙ (c : Dev nD) : sProp 𝕄 := iprop(StableHlo.held (c : Thread nD τ) (Pipeline.ucRefs τ sig) (W11 m c) ∗ ∃ r, prngReg c r)

/-! ## The class's region invariant, put together and taken apart -/

/-- The generator register, anything, and a pipeline's scoped rest make the class's region invariant (the middle
    conjunct — the prefetched tables, of which there are none — is dropped). -/
theorem toPhiA0 (c : Dev nD) (Mid : sProp 𝕄) :
    iprop((∃ r, prngReg c r) ∗ Mid ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And the invariant gives them back (no semaphore of the kernel's own: the middle conjunct is empty). -/
theorem fromPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr
theorem toPhiA1 (c : Dev nD) (Mid : sProp 𝕄) :
    iprop((∃ r, prngReg c r) ∗ Mid ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
theorem fromPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The two passes as segments -/

set_option backward.isDefEq.respectTransparency.types false in
/-- THE GATHER PASS: entered from every unscoped buffer at `V8`, left at `W9`. Its arrays are split out of the
    unscoped buffers and put back at the exit contents; the generator register and the scoped rest go into the
    region invariant (whose later points track the accumulator) and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation (E8 m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E8 m c) fun w => Gather.A_eq (E8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (toPhiA0 c _) (show Pipeline.ΦA spec0 c ⊢ (pdats m 0 c).Φ 0 from Gather.Phi_in (E8 m) c)
  hout c := by
    rw [Pipeline.ownSems0_none]
    exact BI.Entails.trans (show (pdats m 0 c).Φ (Fin.last _) ⊢ Pipeline.ΦA spec0 c from Gather.Phi_out (E8 m) c) (fromPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E8 m c) (E9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER PASS: entered from every unscoped buffer at `W9`, left at `W10`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation (E9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun w => Scatter.A_eq (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (toPhiA1 c _) (show Pipeline.ΦA spec1 c ⊢ (pdats m 1 c).Φ 0 from Scatter.Phi_in (E9 m) c)
  hout c := by
    rw [Pipeline.ownSems0_none]
    exact BI.Entails.trans (show (pdats m 1 c).Φ (Fin.last _) ⊢ Pipeline.ΦA spec1 c from Scatter.Phi_out (E9 m) c) (fromPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .region (reg0 m),
    .region (reg1 m),
    .host (hseg hostOps2 hostOps2_sub hostOps2_fresh (W10 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (StableHlo.after hostOps2 (W10 m c)) ∗ R c)
          ⊢ iprop(Tₙ m c ∗ ∃ W, owes (c : Thread nD τ) (0 : CellTallies nD τ sig Unit) W)
        iintro ⟨Hh, Hp, HO⟩
        isplitr [HO]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## What the run leaves: the arguments as launched, the result at `W11` -/

/-- No item writes an argument: the last contents at an argument are the launch memory's. -/
theorem W11_of_arg (c : Dev nD) (r : Ref sig .tc) (h2 : r ∉ hostOps2_W) (h1 : ∀ w, Pipeline.arrRef spec1 w ≠ r) (h0 : ∀ w, Pipeline.arrRef spec0 w ≠ r)
    (h8 : V8 m c r = m ((c : Thread nD τ).loc r)) : W11 m c r = m ((c : Thread nD τ).loc r) :=
  (StableHlo.after_of_writes_sub hostOps2 _ hostOps2_writes h2).trans <| (W10_of_ne m c r h1).trans <| (W9_of_ne m c r h0).trans h8
theorem V8_arg (c : Dev nD) (r : Ref sig .tc) (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) (h8 : r ∉ hostOps0_7_W) : V8 m c r = m ((c : Thread nD τ).loc r) :=
  (V8_of m c r h8).trans <| (V7_of m c r h7).trans <| (V6_of m c r h6).trans <| (V5_of m c r h5).trans <| (V4_of m c r h4).trans <|
    (V3_of m c r h3).trans <| (V2_of m c r h2).trans <| (V1_of m c r h1).trans rfl
theorem W11_main_arg0 (c : Dev nD) : W11 m c main_arg0 = m ((c : Thread nD τ).loc main_arg0) :=
  W11_of_arg m c main_arg0 (by decide) (by decide) (by decide) (V8_arg m c main_arg0 (by decide) (by decide) (by decide) (by decide) (by decide) (by decide) (by decide) (by decide))
theorem W11_main_arg1 (c : Dev nD) : W11 m c main_arg1 = m ((c : Thread nD τ).loc main_arg1) :=
  W11_of_arg m c main_arg1 (by decide) (by decide) (by decide) (V8_arg m c main_arg1 (by decide) (by decide) (by decide) (by decide) (by decide) (by decide) (by decide) (by decide))
theorem W11_main_arg2 (c : Dev nD) : W11 m c main_arg2 = m ((c : Thread nD τ).loc main_arg2) :=
  W11_of_arg m c main_arg2 (by decide) (by decide) (by decide) (V8_arg m c main_arg2 (by decide) (by decide) (by decide) (by decide) (by decide) (by decide) (by decide) (by decide))

/-- THE RUN, read at the four buffers a claim speaks of: the result at `W11`, each argument as launched. -/
theorem run_main : θ_run defs (onTc (τ := τ) (main (F := F))) ⟨m, fun _ => 0, ρ⟩ (fun r => ∀ c : Dev nD,
      r.2.mem ((c.tc : Thread nD τ).loc main_v12) = W11 m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v12 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.Kernel.Assembly

end
-- ==== Proof.KI.Gather.Setup.lean ====
/-
  The gather pass (the first pallas_call) on its grid of 391 × 49 points: what its per-case runs and its
  region invariant are stated over. A point is (i, j): edge block i (4096 edges) against node block j (2048
  node rows of the padded, ones-augmented feature table). The scratch accumulator is reset at j = 0, gains one
  one-hot product at every j, and is scaled by the edge weights into the output block at j = 48; the output
  window is idle at every other point. Everything here is stated at a parameter `V`: the buffer contents
  when the region is entered.
-/
import proofs.«412493_j88510686036697_1_alg».proof.Proof.Gen.KernelIdeal.Launch
import proofs.«412493_j88510686036697_1_alg».proof.Proof.Gen.KernelIdeal.Skeleton
import proofs.«412493_j88510686036697_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an
    unfetched point has the same block index as the one before it): the column indices (window 0), -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the edge weights (window 1), -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the node block of the feature table (window 2). -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first node block" (j = 0): the accumulator is reset. -/
abbrev condFirst (i : grid0.Coords) : Prop := (Scalar.cmpi .ne (Scalar.extui (Scalar.cmpi .eq (BitVec.ofNat 32 (i 1).val) 0#32)) 0#32) = 1#1
/-- It holds at the points ≡ 0 (mod 49). -/
theorem hcondFirst : ∀ t : Fin cfg0.N, condFirst (grid0.coords t) ↔ t.val % 49 = 0 :=
  (by decide +kernel : ∀ t : Fin grid0.N, condFirst (grid0.coords t) ↔ t.val % 49 = 0)

/-- "This is the last node block" (j = 48): the weighted accumulator is stored into the output block. -/
abbrev condLast (i : grid0.Coords) : Prop := k0_cond2 i = 1#1
/-- It holds at the points ≡ 48 (mod 49). -/
theorem hcondLast : ∀ t : Fin cfg0.N, condLast (grid0.coords t) ↔ t.val % 49 = 48 :=
  (by decide +kernel : ∀ t : Fin grid0.N, condLast (grid0.coords t) ↔ t.val % 49 = 48)

/-! ## Where the windows are idle -/

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
/-- Away from the last node block the output window is idle: the body stores nothing into it, -/
theorem idle_3 (t : Fin cfg0.N) (h : ¬condLast (grid0.coords t)) : cfg0.idle 3 (grid0.coords t) = true := by
  show (!(k0_cond2 (grid0.coords t) == 1#1)) = true
  simp only [Bool.not_eq_true', beq_eq_false_iff_ne, ne_eq]; exact h
/-- and the pipeline does not write its block back there. -/
theorem noFlush_3 (t : Fin cfg0.N) (h : ¬condLast (grid0.coords t)) : (cfg0.win 3).flush t = false := by
  have h' : ¬t.val % 49 = 48 := fun e => h ((hcondLast t).mpr e)
  cases hf : (cfg0.win 3).flush t with
  | false => rfl
  | true => exact absurd ((flush0_3 t).mp hf) h'
/-- At the last node block it is live. -/
theorem live_3 (t : Fin cfg0.N) (h : condLast (grid0.coords t)) : cfg0.idle 3 (grid0.coords t) = false := by
  show (!(k0_cond2 (grid0.coords t) == 1#1)) = false
  simp only [Bool.not_eq_false', beq_iff_eq]; exact h

/-! ## The staging and scratch memrefs -/

/-- One staging buffer of the output window, through which its contents are stated. -/
abbrev VO : View sig .tc .vmem S4096x33 .f32 := (Memref.whole cc0_stg3_0 : Memref sig .tc .vmem S4096x33 .f32).view
/-- Each window's current staging memref at point `t`, as the pipeline passes it, and its wholeness. -/
abbrev ms_0 (t : Fin cfg0.N) : Memref sig .tc .vmem S4096 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x33 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S4096x33 .f32 := win0_3.stage (cfg0.slots t 3)
abbrev hs_3 (t : Fin cfg0.N) : (ms_3 t).IsWhole := hstage0_3 ((cfg0.slots t 3).cast nbuf0_3)
/-- The accumulator: a whole scoped buffer of the kernel's own. -/
abbrev scM : Memref sig .tc .vmem S4096x33 .f32 := Memref.whole cc0_scratch0
abbrev VS : View sig .tc .vmem S4096x33 .f32 := scM.view

/-- The scoped buffers of the core that this region neither stages through nor accumulates in (the other
    pallas_call's staging buffers and its accumulator), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class's region invariant with the accumulator as a memref owned at some contents, beside the other
    scoped buffers and the generator register: what the body obligation hands a run and takes back. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

end Cert.KernelIdeal.Gather

end
-- ==== Proof.KI.Gather.RunA.lean ====
/-
  The gather pass's body at a point with j = 0 (the first node block of an edge block, which is not the last):
  the accumulator, whatever it held, is reset to zero and then gains this node block's one-hot product with the
  column indices; the weights and the output block are not touched. The run is stated on any whole memrefs: the
  three inputs at their contents, the output block at contents handed back as they were, the accumulator at
  anything; what the accumulator ends with is the list of stored pieces (last first) that the run itself finds.
-/
import proofs.«412493_j88510686036697_1_alg».proof.Proof.KI.Gather.Setup

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the first condition holds and the last does not: no piece for the output block, and for the
    accumulator the reset piece under the accumulation piece, with the proof that the body runs from the inputs
    and the idle output at their contents and the accumulator at anything to the same inputs and output and the
    accumulator with those pieces written. -/
noncomputable def runFirst (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i)
    (x0 : Vec F S4096 .i32) (x1 : Vec F S4096 .f32) (x2 : Vec F S2048x33 .f32) :
    Σ' (LO : List (View.Piece (Elt F) S4096x33 .f32)), { LS : List (View.Piece (Elt F) S4096x33 .f32) //
      ∀ (xi3 : Vec F S4096x33 .f32) (E : Set ℕ) (K : PUnit → sProp 𝕄),
        iprop(owns (c : Thread nD τ) nbr fullShare x0 ∗ owns (c : Thread nD τ) wts fullShare x1 ∗ owns (c : Thread nD τ) tbl fullShare x2 ∗ owns (c : Thread nD τ) outp fullShare xi3 ∗ (∃ d, owns (c : Thread nD τ) acc fullShare d)
            ∗ (iprop(owns (c : Thread nD τ) nbr fullShare x0 ∗ owns (c : Thread nD τ) wts fullShare x1 ∗ owns (c : Thread nD τ) tbl fullShare x2 ∗ owns (c : Thread nD τ) outp fullShare xi3 ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := hnbr.eq_unread hf0; obtain rfl := hwts.eq_unread hf1; obtain rfl := htbl.eq_unread hf2; obtain rfl := houtp.eq_unread hf3
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]
    · iexists _; isplitr; · ipureintro; exact houtp.read_unread _
      iexact H3
    iexists _; iexact HS

end Cert.KernelIdeal.Gather

end
-- ==== Proof.KI.Gather.RunB.lean ====
/-
  The gather pass's body at a point with 0 < j < 48 (neither the first node block nor the last): the accumulator,
  at what the point before left in it, gains this node block's one-hot product with the column indices; the
  weights and the output block are not touched.
-/
import proofs.«412493_j88510686036697_1_alg».proof.Proof.KI.Gather.RunA

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where neither condition holds: no piece for the output block, one accumulation piece for the
    accumulator, with the proof that the body runs from the inputs and the idle output at their contents and the
    accumulator at the contents `xs` carried from the point before to the same inputs and output and the
    accumulator with that piece written. -/
noncomputable def runMid (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i)
    (x0 : Vec F S4096 .i32) (x1 : Vec F S4096 .f32) (x2 : Vec F S2048x33 .f32) (xs : Vec F S4096x33 .f32) :
    Σ' (LO : List (View.Piece (Elt F) S4096x33 .f32)), { LS : List (View.Piece (Elt F) S4096x33 .f32) //
      ∀ (xi3 : Vec F S4096x33 .f32) (E : Set ℕ) (K : PUnit → sProp 𝕄),
        iprop(owns (c : Thread nD τ) nbr fullShare x0 ∗ owns (c : Thread nD τ) wts fullShare x1 ∗ owns (c : Thread nD τ) tbl fullShare x2 ∗ owns (c : Thread nD τ) outp fullShare xi3 ∗ owns (c : Thread nD τ) acc fullShare xs
            ∗ (iprop(owns (c : Thread nD τ) nbr fullShare x0 ∗ owns (c : Thread nD τ) wts fullShare x1 ∗ owns (c : Thread nD τ) tbl fullShare x2 ∗ owns (c : Thread nD τ) outp fullShare xi3 ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨[], ?_, fun xi3 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := hnbr.eq_unread hf0; obtain rfl := hwts.eq_unread hf1; obtain rfl := htbl.eq_unread hf2; obtain rfl := houtp.eq_unread hf3
    obtain rfl := hacc.eq_unread hfs
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]
    · iexists _; isplitr; · ipureintro; exact houtp.read_unread _
      iexact H3
    iexists _; iexact HS

end Cert.KernelIdeal.Gather

end
-- ==== Proof.KI.Gather.RunC.lean ====
/-
  The gather pass's body at a point with j = 48 (the last node block of an edge block, which is not the first):
  the accumulator, at what the point before left in it, gains this node block's one-hot product, and the output
  block is stored whole: the accumulator's rows scaled by the edge weights.
-/
import proofs.«412493_j88510686036697_1_alg».proof.Proof.KI.Gather.RunB

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the last condition holds and the first does not: one piece for the output block, one
    accumulation piece for the accumulator, with the proof that the body runs from the inputs at their contents,
    the output block at anything and the accumulator at the contents `xs` carried from the point before to the
    same inputs and the output block and the accumulator with their pieces written. -/
noncomputable def runLast (c : Dev nD) (i : grid0.Coords)
    (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i)
    (x0 : Vec F S4096 .i32) (x1 : Vec F S4096 .f32) (x2 : Vec F S2048x33 .f32) (xs : Vec F S4096x33 .f32) :
    Σ' (LO : List (View.Piece (Elt F) S4096x33 .f32)), { LS : List (View.Piece (Elt F) S4096x33 .f32) //
      ∀ (E : Set ℕ) (K : PUnit → sProp 𝕄),
        iprop(owns (c : Thread nD τ) nbr fullShare x0 ∗ owns (c : Thread nD τ) wts fullShare x1 ∗ owns (c : Thread nD τ) tbl fullShare x2 ∗ (∃ d, owns (c : Thread nD τ) outp fullShare d) ∗ owns (c : Thread nD τ) acc fullShare xs
            ∗ (iprop(owns (c : Thread nD τ) nbr fullShare x0 ∗ owns (c : Thread nD τ) wts fullShare x1 ∗ owns (c : Thread nD τ) tbl fullShare x2 ∗ (∃ f, outp.view.loc (c : Thread nD τ) ↦[outp.view.set]{fullShare} outp.view.writes (Elt F) f LO) ∗ (∃ f, acc.view.loc (c : Thread nD τ) ↦[acc.view.set]{fullShare} acc.view.writes (Elt F) f LS)) -∗ K ⟨⟩))
          ⊢ wp frame (wpE (defs₀ (F := F)) Variants.none c none) E (cc0__gather_kernel i nbr hnbr wts hwts tbl htbl outp houtp acc hacc) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := hnbr.eq_unread hf0; obtain rfl := hwts.eq_unread hf1; obtain rfl := htbl.eq_unread hf2
    obtain rfl := hacc.eq_unread hfs
    sl_exec (disch := first | exact hF | exact hL)
    sl_step
    iapply Hk
    isplitl [H0]
    · iexists _; isplitr; · ipureintro; exact hnbr.read_unread _
      iexact H0
    isplitl [H1]
    · iexists _; isplitr; · ipureintro; exact hwts.read_unread _
      iexact H1
    isplitl [H2]
    · iexists _; isplitr; · ipureintro; exact htbl.read_unread _
      iexact H2
    isplitl [H3]; · iexists _; iexact H3
    iexists _; iexact HS

end Cert.KernelIdeal.Gather

end
-- ==== Proof.KI.Gather.Frame.lean ====
/-
  The gather pass (the program's first kernel call) as one pipeline region, at the buffer contents `V` the region is
  entered with. After the body at point t = 49·i + j the accumulator holds the sum over the node blocks 0..j of
  edge block i's one-hot products, as a chain of the body's accumulation step: at j = 0 the step is taken from
  the reset value, otherwise from what the point before left; at j = 48 the output block is the accumulator's
  rows scaled by the edge weights. What each control case's run found (the stored pieces) is read back to that
  form; the region invariant carries the accumulator at the chain's value from point to point, the scatter
  pass's scoped buffers and the generator register riding along untouched; and the body obligation is
  proved at a generic point by the three cases.
-/
import proofs.«412493_j88510686036697_1_alg».proof.Proof.KI.Gather.RunC
import Idealize.ShloMosaic.Lib.Pipeline.Value

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer accesses sit at offset zero -/

theorem off2 : (![0, 0] : Fin 2 → ℕ) = fun _ => 0 := funext fun a => by fin_cases a <;> rfl
theorem off1 : (![0] : Fin 1 → ℕ) = fun _ => 0 := funext fun a => by fin_cases a <;> rfl

/-! ## What each case's run found, read back -/

/-- First node block: the accumulator's pieces (the reset, then the step) cover it, -/
theorem coverAccFirst (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i) (x0 : Vec F S4096 .i32) (x1 : Vec F S4096 .f32) (x2 : Vec F S2048x33 .f32) (y : S4096x33.Idx) :
    ∃ pc ∈ (runFirst c i nbr hnbr wts hwts tbl htbl outp houtp acc hacc hF hL x0 x1 x2).2.1, y ∈ pc.1.set :=
  View.cover_of_tiledL (runFirst c i nbr hnbr wts hwts tbl htbl outp houtp acc hacc hF hL x0 x1 x2).2.1 S4096x33.size (by sl_kernel_rfl) y

/-- and leave the step taken from the reset value: the step's load of the accumulator reads back what the reset
    just stored, not what the accumulator held before. -/
theorem accFirst_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : condFirst i) (hL : ¬condLast i) (x0 : Vec F S4096 .i32) (x1 : Vec F S4096 .f32) (x2 : Vec F S2048x33 .f32) :
    View.canon (runFirst c i nbr hnbr wts hwts tbl htbl outp houtp acc hacc hF hL x0 x1 x2).2.1 = k0_pay2 i x0 x2 (k0_pay1 (F := F)) := by
  unfold runFirst
  dsimp only
  sl_unfold_words
  rw [View.canon_cons_unit_zero (S := S4096x33) off2]
  simp only [View.readAt_eq_ld, hnbr.read_unread, htbl.read_unread, View.ld_unit_zero (S := S4096) off1,
    View.ld_unit_zero (S := S2048x33) off2, View.readCov_unit_zero (S := S4096x33) _ off2]

/-- A middle node block: the accumulator's one piece covers it, -/
theorem coverAccMid (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i) (x0 : Vec F S4096 .i32) (x1 : Vec F S4096 .f32) (x2 : Vec F S2048x33 .f32) (xs : Vec F S4096x33 .f32) (y : S4096x33.Idx) :
    ∃ pc ∈ (runMid c i nbr hnbr wts hwts tbl htbl outp houtp acc hacc hF hL x0 x1 x2 xs).2.1, y ∈ pc.1.set :=
  View.cover_of_tiledL (runMid c i nbr hnbr wts hwts tbl htbl outp houtp acc hacc hF hL x0 x1 x2 xs).2.1 S4096x33.size (by sl_kernel_rfl) y

/-- and leaves the step taken from the carried contents. -/
theorem accMid_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : ¬condLast i) (x0 : Vec F S4096 .i32) (x1 : Vec F S4096 .f32) (x2 : Vec F S2048x33 .f32) (xs : Vec F S4096x33 .f32) :
    View.canon (runMid c i nbr hnbr wts hwts tbl htbl outp houtp acc hacc hF hL x0 x1 x2 xs).2.1 = k0_pay2 i x0 x2 xs := by
  unfold runMid
  dsimp only
  sl_unfold_words
  rw [View.canon_unit_zero (S := S4096x33) off2]
  simp only [View.readAt_eq_ld, hnbr.read_unread, htbl.read_unread, hacc.read_unread, View.ld_unit_zero (S := S4096) off1,
    View.ld_unit_zero (S := S2048x33) off2, View.ld_unit_zero (S := S4096x33) off2]

/-- Last node block: the accumulator's one piece covers it, -/
theorem coverAccLast (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) (y : S4096x33.Idx) :
    ∃ pc ∈ (runLast c i nbr hnbr wts hwts tbl htbl outp houtp acc hacc hF hL x0 x1 x2 xs).2.1, y ∈ pc.1.set :=
  View.cover_of_tiledL (runLast c i nbr hnbr wts hwts tbl htbl outp houtp acc hacc hF hL x0 x1 x2 xs).2.1 S4096x33.size (by sl_kernel_rfl) y

/-- and leaves the step taken from the carried contents; -/
theorem accLast_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) :
    View.canon (runLast c i nbr hnbr wts hwts tbl htbl outp houtp acc hacc hF hL x0 x1 x2 xs).2.1 = k0_pay2 i x0 x2 xs := by
  unfold runLast
  dsimp only
  sl_unfold_words
  rw [View.canon_unit_zero (S := S4096x33) off2]
  simp only [View.readAt_eq_ld, hnbr.read_unread, htbl.read_unread, hacc.read_unread, View.ld_unit_zero (S := S4096) off1,
    View.ld_unit_zero (S := S2048x33) off2, View.ld_unit_zero (S := S4096x33) off2]

/-- the output block's one piece covers it, -/
theorem coverOutLast (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) (y : S4096x33.Idx) :
    ∃ pc ∈ (runLast c i nbr hnbr wts hwts tbl htbl outp houtp acc hacc hF hL x0 x1 x2 xs).1, y ∈ pc.1.set :=
  View.cover_of_tiledL (runLast c i nbr hnbr wts hwts tbl htbl outp houtp acc hacc hF hL x0 x1 x2 xs).1 S4096x33.size (by sl_kernel_rfl) y

/-- and leaves the rows of the accumulator just stored, scaled by the edge weights. -/
theorem outLast_eq (c : Dev nD) (i : grid0.Coords) (nbr : Memref sig .tc .vmem S4096 .i32) (hnbr : nbr.IsWhole) (wts : Memref sig .tc .vmem S4096 .f32) (hwts : wts.IsWhole)
    (tbl : Memref sig .tc .vmem S2048x33 .f32) (htbl : tbl.IsWhole) (outp : Memref sig .tc .vmem S4096x33 .f32) (houtp : outp.IsWhole)
    (acc : Memref sig .tc .vmem S4096x33 .f32) (hacc : acc.IsWhole)
    (hF : ¬condFirst i) (hL : condLast i) (x0 : Vec F S4096 .i32) (x1 : Vec F S4096 .f32) (x2 : Vec F S2048x33 .f32) (xs : Vec F S4096x33 .f32) :
    View.canon (runLast c i nbr hnbr wts hwts tbl htbl outp houtp acc hacc hF hL x0 x1 x2 xs).1 = k0_pay3 x1 (k0_pay2 i x0 x2 xs) := by
  unfold runLast
  dsimp only
  sl_unfold_words
  rw [View.canon_unit_zero (S := S4096x33) off2]
  simp only [View.readAt_eq_ld, hnbr.read_unread, hwts.read_unread, htbl.read_unread, hacc.read_unread, View.ld_unit_zero (S := S4096) off1,
    View.ld_unit_zero (S := S2048x33) off2, View.ld_unit_zero (S := S4096x33) off2, View.readCov_unit_zero (S := S4096x33) _ off2]

/-! ## The accumulator and the output block after each point -/

/-- The accumulator after the body at point `n`: the accumulation step at the point's coordinates and blocks,
    taken from the reset value where the point opens an edge block (n ≡ 0 mod 49), else from what the point
    before left. -/
def accAt (c : Dev nD) : (n : ℕ) → n < cfg0.N → Vec F S4096x33 .f32
  | 0, hn => k0_pay2 (grid0.coords ⟨0, hn⟩) (iblk V c 0 ⟨0, hn⟩) (iblk V c 2 ⟨0, hn⟩) (k0_pay1 (F := F))
  | n + 1, hn => k0_pay2 (grid0.coords ⟨n + 1, hn⟩) (iblk V c 0 ⟨n + 1, hn⟩) (iblk V c 2 ⟨n + 1, hn⟩)
      (if (n + 1) % 49 = 0 then k0_pay1 (F := F) else accAt c n (Nat.lt_of_succ_lt hn))

/-- (The output's staging buffer, the accumulator) after the body at point `n`. The first component is what a
    point closing an edge block stores: the accumulator's rows scaled by the point's edge weights; at any other
    point the output window is idle and the component names nothing that is read. -/
def outsAt (c : Dev nD) : (n : ℕ) → n < cfg0.N → Vec F S4096x33 .f32 × Vec F S4096x33 .f32 :=
  fun n hn => (k0_pay3 (iblk V c 1 ⟨n, hn⟩) (accAt V c n hn), accAt V c n hn)

/-- At a point opening an edge block the accumulator is one step from the reset value. -/
theorem acc_first (c : Dev nD) (t : Fin cfg0.N) (h : t.val % 49 = 0) :
    (outsAt V c t.val t.isLt).2 = k0_pay2 (grid0.coords t) (iblk V c 0 t) (iblk V c 2 t) (k0_pay1 (F := F)) := by
  obtain ⟨n, hn⟩ := t
  show accAt V c n hn = _
  cases n with
  | zero => rfl
  | succ n => rw [accAt]; rw [if_pos h]

/-- At any other point it is one step from what the point before left. -/
theorem acc_next (c : Dev nD) (t : Fin cfg0.N) (h : ¬ t.val % 49 = 0) :
    (outsAt V c t.val t.isLt).2 = k0_pay2 (grid0.coords t) (iblk V c 0 t) (iblk V c 2 t) (outsAt V c (t.val - 1) (Nat.lt_of_le_of_lt (Nat.sub_le _ _) t.isLt)).2 := by
  obtain ⟨n, hn⟩ := t
  show accAt V c n hn = k0_pay2 _ _ _ (accAt V c (n - 1) _)
  cases n with
  | zero => exact absurd (Nat.zero_mod _) h
  | succ n => rw [accAt]; rw [if_neg h]; rfl

/-- At a point closing an edge block the output block is the accumulator scaled by the edge weights. -/
theorem out_last (c : Dev nD) (t : Fin cfg0.N) (h : t.val % 49 = 48) :
    (outsAt V c t.val t.isLt).1 = k0_pay3 (iblk V c 1 t) (outsAt V c t.val t.isLt).2 := rfl

/-! ## The region invariant -/

/-- Before point `n`: at the first point what the launch hands the region (the accumulator at anything);
    afterwards the accumulator at what the point before left, beside the other scoped buffers and the generator
    register. -/
def Phi (c : Dev nD) : (n : ℕ) → n ≤ cfg0.N → sProp 𝕄
  | 0, _ => Pipeline.ΦA spec0 c
  | n + 1, hn => iprop(iprop(owns (c : Thread nD τ) scM fullShare ((outsAt V c n hn).2) ∗ others (F := F) c) ∗ (∃ r, prngReg c r))

theorem Phi_zero (c : Dev nD) (n : ℕ) (h : n ≤ cfg0.N) (hz : n = 0) : Phi V c n h = Pipeline.ΦA spec0 c := by
  subst hz; rfl

theorem Phi_succ (c : Dev nD) (n : ℕ) (hn : n < cfg0.N) :
    Phi V c (n + 1) hn = iprop(iprop(owns (c : Thread nD τ) scM fullShare ((outsAt V c n hn).2) ∗ others (F := F) c) ∗ (∃ r, prngReg c r)) := rfl

theorem Phi_pos (c : Dev nD) (n : ℕ) (h : n ≤ cfg0.N) (hz : n ≠ 0) :
    Phi V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The pipeline's proof data -/

/-- The arrays as the region finds them; after the body each input window's buffer at its block and the output
    window's at `outsAt`'s first component; the tracked invariant; full shares; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = Phi V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]

/-- Each input's current staging buffer holds its block at every point. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

/-- An input window is live everywhere: the body leaves its buffer at its block. -/
theorem leaves_0 (c : Dev nD) (t : Fin cfg0.N) : (dat V c).leavesExact 0 t = owns (c : Thread nD τ) (ms_0 t) fullShare (iblk V c 0 t) := by
  unfold Dat.leavesExact; rw [live_0 t, after_0]
theorem leaves_1 (c : Dev nD) (t : Fin cfg0.N) : (dat V c).leavesExact 1 t = owns (c : Thread nD τ) (ms_1 t) fullShare (iblk V c 1 t) := by
  unfold Dat.leavesExact; rw [live_1 t, after_1]
theorem leaves_2 (c : Dev nD) (t : Fin cfg0.N) : (dat V c).leavesExact 2 t = owns (c : Thread nD τ) (ms_2 t) fullShare (iblk V c 2 t) := by
  unfold Dat.leavesExact; rw [live_2 t, after_2]
/-- The output window away from the last node block: handed back as it was found. -/
theorem leaves_3_idle (c : Dev nD) (t : Fin cfg0.N) (h1 : ¬t.val % 49 = 48) :
    (dat V c).leavesExact 3 t = iprop(∃ d, owns (c : Thread nD τ) (ms_3 t) fullShare ((dat V c).before 3 t d)) :=
  Dat.leavesExact_idle (dat V c) 3 t (idle_3 t (fun h => h1 ((hcondLast t).mp h))) (noFlush_3 t (fun h => h1 ((hcondLast t).mp h)))
/-- At the last node block: at the stored block. -/
theorem leaves_3_live (c : Dev nD) (t : Fin cfg0.N) (h1 : t.val % 49 = 48) :
    (dat V c).leavesExact 3 t = owns (c : Thread nD τ) (ms_3 t) fullShare ((outsAt V c t.val t.isLt).1) := by
  unfold Dat.leavesExact; rw [live_3 t ((hcondLast t).mpr h1), after_3]

/-! ## The cases' runs at a point, and what they leave there -/

/-- The first case's run at point `t`'s memrefs and blocks. -/
abbrev firstAt (c : Dev nD) (t : Fin cfg0.N) (h0 : t.val % 49 = 0) (h1 : ¬t.val % 49 = 48) :=
  runFirst (F := F) c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)
/-- The middle case's, over what the point before left in the accumulator. -/
abbrev midAt (c : Dev nD) (t : Fin cfg0.N) (h0 : ¬t.val % 49 = 0) (h1 : ¬t.val % 49 = 48) :=
  runMid (F := F) c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2
/-- The last case's, likewise. -/
abbrev lastAt (c : Dev nD) (t : Fin cfg0.N) (h0 : ¬t.val % 49 = 0) (h1 : t.val % 49 = 48) :=
  runLast (F := F) c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2

theorem acc_of_first (c : Dev nD) (t : Fin cfg0.N) (h0 : t.val % 49 = 0) (h1 : ¬t.val % 49 = 48) (es : scM.view.ty.Contents (Elt F)) :
    scM.view.read (Elt F) (scM.view.writes (Elt F) es (firstAt V c t h0 h1).2.1) = (outsAt V c t.val t.isLt).2 := by
  rw [acc_first V c t h0]
  exact (View.read_writes_eq_canon _ _ _ (coverAccFirst c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t))).trans
    (accFirst_eq c (grid0.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t))

theorem acc_of_mid (c : Dev nD) (t : Fin cfg0.N) (h0 : ¬t.val % 49 = 0) (h1 : ¬t.val % 49 = 48) (es : scM.view.ty.Contents (Elt F)) :
    scM.view.read (Elt F) (scM.view.writes (Elt F) es (midAt V c t h0 h1).2.1) = (outsAt V c t.val t.isLt).2 := by
  rw [acc_next V c t h0]
  exact (View.read_writes_eq_canon _ _ _ (coverAccMid c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2)).trans
    (accMid_eq c (grid0.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2)

theorem acc_of_last (c : Dev nD) (t : Fin cfg0.N) (h0 : ¬t.val % 49 = 0) (h1 : t.val % 49 = 48) (es : scM.view.ty.Contents (Elt F)) :
    scM.view.read (Elt F) (scM.view.writes (Elt F) es (lastAt V c t h0 h1).2.1) = (outsAt V c t.val t.isLt).2 := by
  rw [acc_next V c t h0]
  exact (View.read_writes_eq_canon _ _ _ (coverAccLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)).trans
    (accLast_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)

theorem out_of_last (c : Dev nD) (t : Fin cfg0.N) (h0 : ¬t.val % 49 = 0) (h1 : t.val % 49 = 48) (eo : (ms_3 t).view.ty.Contents (Elt F)) :
    (ms_3 t).view.read (Elt F) ((ms_3 t).view.writes (Elt F) eo (lastAt V c t h0 h1).1) = (outsAt V c t.val t.isLt).1 := by
  rw [out_last V c t h1, acc_next V c t h0]
  exact (View.read_writes_eq_canon _ _ _ (coverOutLast c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)).trans
    (outLast_eq c (grid0.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' buffers hold their blocks; the point's residue mod 49 says which case it
    is in (both conditions at once would need a one-point inner axis); the invariant hands the run the accumulator
    (at anything where the launch's invariant still stands, else at what the point before left) and takes it back
    at this point's value; an idle output window goes back as it came, a live one at the stored block; the other
    scoped buffers, the generator register and the core's debts pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2]
  have hN : t.val < 19159 := lt_of_lt_of_eq t.isLt (show cfg0.N = 19159 from N_0)
  by_cases h0 : t.val % 49 = 0
  · by_cases h1 : t.val % 49 = 48
    · exfalso; omega
    · rw [leaves_3_idle V c t h1]
      by_cases hz : t.val = 0
      · rw [Phi_castSucc V c t, Phi_zero V c _ _ hz, PhiA_eq]
        iintro ⟨⟨⟨HS, Hoth⟩, Hg⟩, Ho, ⟨%d0, H0⟩, ⟨%d1, H1⟩, ⟨%d2, H2⟩, ⟨%d3, H3⟩⟩
        iapply ((firstAt V c t h0 h1).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact acc_of_first V c t h0 h1 es
            iexact Hoth
          iexact Hg
        isplitl [Ho]; · iexact Ho
        isplitl [H0]; · iexact H0
        isplitl [H1]; · iexact H1
        isplitl [H2]; · iexact H2
        iexists _; iexact H3
      · rw [Phi_castSucc V c t, Phi_pos V c _ _ hz]
        iintro ⟨⟨⟨HS, Hoth⟩, Hg⟩, Ho, ⟨%d0, H0⟩, ⟨%d1, H1⟩, ⟨%d2, H2⟩, ⟨%d3, H3⟩⟩
        iapply ((firstAt V c t h0 h1).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact acc_of_first V c t h0 h1 es
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    rw [Phi_castSucc V c t, Phi_pos V c _ _ hz]
    by_cases h1 : t.val % 49 = 48
    · rw [leaves_3_live V c t h1]
      iintro ⟨⟨⟨HS, Hoth⟩, Hg⟩, Ho, ⟨%d0, H0⟩, ⟨%d1, H1⟩, ⟨%d2, H2⟩, ⟨%d3, H3⟩⟩
      iapply ((lastAt V c t h0 h1).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS Hoth Hg]
      · isplitl [HS Hoth]
        · isplitl [HS]
          · unfold owns; iexists _; isplitr
            swap; · iexact HS
            ipureintro; exact acc_of_last V c t h0 h1 es
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact out_of_last V c t h0 h1 eo
    · rw [leaves_3_idle V c t h1]
      iintro ⟨⟨⟨HS, Hoth⟩, Hg⟩, Ho, ⟨%d0, H0⟩, ⟨%d1, H1⟩, ⟨%d2, H2⟩, ⟨%d3, H3⟩⟩
      iapply ((midAt V c t h0 h1).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact acc_of_mid V c t h0 h1 es
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat V c).Φ 0 := by
  rw [show (dat V c).Φ 0 = Phi V c 0 (Nat.zero_le _) from rfl, Phi_zero V c 0 _ rfl]

/-- After the last point the invariant gives it back: the accumulator's named contents are forgotten. -/
theorem Phi_out (c : Dev nD) : (dat V c).Φ (Fin.last cfg0.N) ⊢ Pipeline.ΦA spec0 c := by
  have hne : (Fin.last cfg0.N).val ≠ 0 := by rw [Fin.val_last]; have : cfg0.N = 19159 := N_0; omega
  rw [show (dat V c).Φ (Fin.last cfg0.N) = Phi V c (Fin.last cfg0.N).val (Nat.le_of_lt_succ (Fin.last cfg0.N).isLt) from rfl,
    Phi_pos V c _ _ hne, PhiA_eq]
  iintro ⟨⟨HS, Hoth⟩, Hg⟩
  isplitl [HS Hoth]
  · isplitl [HS]
    · iexists _; iexact HS
    iexact Hoth
  iexact Hg

end Cert.KernelIdeal.Gather

end
-- ==== Proof.KI.Scatter.Setup.lean ====
/-
  The scatter pass (the second pallas_call) on its grid of 49 × 391 points: what its per-case runs and its
  region invariant are stated over. A point is (i, j): node block i (2048 node rows) against edge block j (4096
  edges). For a fixed node block the kernel walks over all edge blocks: the accumulator is cleared at j = 0, at
  every j it gains the one-hot (node row = own-node index) product with the first pass's result block, and at
  j = 390 the output block is formed from the accumulator and the node block of the table; at every other point
  the output window is idle. Everything here is stated at a parameter V, the buffer contents when the region is
  entered.
-/
import proofs.«412493_j88510686036697_1_alg».proof.Proof.Gen.KernelIdeal.Launch
import proofs.«412493_j88510686036697_1_alg».proof.Proof.Gen.KernelIdeal.Skeleton
import proofs.«412493_j88510686036697_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or
    not (where it is not fetched the block index is that of the point before): the own-node indices of the
    edge block (window 0), -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the first pass's result for the edge block (window 1), -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- the node block of the feature table (window 2), which moves only when the node block does. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first edge block" (j = 0): the accumulator is cleared. -/
abbrev condFirst (i : grid1.Coords) : Prop := (Scalar.cmpi .ne (Scalar.extui (Scalar.cmpi .eq (BitVec.ofNat 32 (i 1).val) 0#32)) 0#32) = 1#1
/-- It holds at the points ≡ 0 (mod 391). -/
theorem hcondFirst : ∀ t : Fin cfg1.N, condFirst (grid1.coords t) ↔ t.val % 391 = 0 :=
  (by decide +kernel : ∀ t : Fin grid1.N, condFirst (grid1.coords t) ↔ t.val % 391 = 0)

/-- "This is the last edge block" (j = 390): the output block is formed from the accumulator and stored. -/
abbrev condLast (i : grid1.Coords) : Prop := k1_cond2 i = 1#1
/-- It holds at the points ≡ 390 (mod 391). -/
theorem hcondLast : ∀ t : Fin cfg1.N, condLast (grid1.coords t) ↔ t.val % 391 = 390 :=
  (by decide +kernel : ∀ t : Fin grid1.N, condLast (grid1.coords t) ↔ t.val % 391 = 390)

/-! ## Where the windows are idle -/

theorem live_0 (t : Fin cfg1.N) : cfg1.idle 0 (grid1.coords t) = false := rfl
theorem live_1 (t : Fin cfg1.N) : cfg1.idle 1 (grid1.coords t) = false := rfl
theorem live_2 (t : Fin cfg1.N) : cfg1.idle 2 (grid1.coords t) = false := rfl
/-- Away from the last edge block the output window is idle: the body stores nothing into it, -/
theorem idle_3 (t : Fin cfg1.N) (h : ¬condLast (grid1.coords t)) : cfg1.idle 3 (grid1.coords t) = true := by
  show (!(k1_cond2 (grid1.coords t) == 1#1)) = true
  simp only [Bool.not_eq_true', beq_eq_false_iff_ne, ne_eq]; exact h
/-- and the pipeline does not write its block back there. -/
theorem noFlush_3 (t : Fin cfg1.N) (h : ¬condLast (grid1.coords t)) : (cfg1.win 3).flush t = false := by
  have h' : ¬t.val % 391 = 390 := fun e => h ((hcondLast t).mpr e)
  cases hf : (cfg1.win 3).flush t with
  | false => rfl
  | true => exact absurd ((flush1_3 t).mp hf) h'
/-- At the last edge block it is live. -/
theorem live_3 (t : Fin cfg1.N) (h : condLast (grid1.coords t)) : cfg1.idle 3 (grid1.coords t) = false := by
  show (!(k1_cond2 (grid1.coords t) == 1#1)) = false
  simp only [Bool.not_eq_false', beq_iff_eq]; exact h

/-! ## The staging and scratch memrefs -/

/-- One staging buffer of the output window, through which its contents are stated. -/
abbrev VO : View sig .tc .vmem S2048x32 .f32 := (Memref.whole cc1_stg3_0 : Memref sig .tc .vmem S2048x32 .f32).view
/-- Each window's current staging memref at point t, as the pipeline passes it, and its wholeness. -/
abbrev ms_0 (t : Fin cfg1.N) : Memref sig .tc .vmem S4096 .i32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S4096x33 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S2048x33 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x32 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev scM : Memref sig .tc .vmem S2048x33 .f32 := Memref.whole cc1_scratch0
abbrev VS : View sig .tc .vmem S2048x33 .f32 := scM.view

/-- The scoped buffers of the core that this region neither stages through nor accumulates in (the first
    pallas_call's staging buffers and its accumulator), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- In a chain of ten conjuncts the last may be brought to the front. -/
theorem sep_last_to_front {M : Type} [URA M] (A0 A1 A2 A3 A4 A5 A6 A7 A8 Z : sProp M) :
    iprop(A0 ∗ A1 ∗ A2 ∗ A3 ∗ A4 ∗ A5 ∗ A6 ∗ A7 ∗ A8 ∗ Z) = iprop(Z ∗ (A0 ∗ A1 ∗ A2 ∗ A3 ∗ A4 ∗ A5 ∗ A6 ∗ A7 ∗ A8)) := by
  have fwd : iprop(A0 ∗ A1 ∗ A2 ∗ A3 ∗ A4 ∗ A5 ∗ A6 ∗ A7 ∗ A8 ∗ Z) ⊢ iprop(Z ∗ (A0 ∗ A1 ∗ A2 ∗ A3 ∗ A4 ∗ A5 ∗ A6 ∗ A7 ∗ A8)) := by
    iintro ⟨H0, H1, H2, H3, H4, H5, H6, H7, H8, HZ⟩
    isplitl [HZ]; · iexact HZ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have bwd : iprop(Z ∗ (A0 ∗ A1 ∗ A2 ∗ A3 ∗ A4 ∗ A5 ∗ A6 ∗ A7 ∗ A8)) ⊢ iprop(A0 ∗ A1 ∗ A2 ∗ A3 ∗ A4 ∗ A5 ∗ A6 ∗ A7 ∗ A8 ∗ Z) := by
    iintro ⟨HZ, H0, H1, H2, H3, H4, H5, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HZ
  exact BI.equiv_iff.mp ⟨fwd, bwd⟩

/-- The class's region invariant with the accumulator as a memref owned at some contents, beside the other
    scoped buffers and the generator register: what the body obligation hands a run and takes back. The
    accumulator is the last of the core's scoped buffers that are no staging buffer of this call; it is brought
    to the front. -/
theorem PhiA_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA others; rw [scopedRest1_eq, sep_last_to_front]; simp only [scM, owns_whole]; try rfl

end Cert.KernelIdeal.Scatter

end
-- ==== Proof.KI.Scatter.RunA.lean ====
/-
  The scatter kernel's body at a point of case A: the first edge block of a node block, and not the last. The
  accumulator is cleared and then gains this edge block's one-hot product; nothing is stored into the output
  block. The run is found by symbolic execution of the body's skeleton; what the accumulator ends with is
  recorded as the list of pieces stored into it, which is the witness.
-/
import proofs.«412493_j88510686036697_1_alg».proof.Proof.KI.Scatter.Setup

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE A (first edge block, not the last). On whole memrefs — the three inputs at their contents, the output's
    staging buffer at any contents xi3, the accumulator at anything — the body runs to a continuation that is
    handed the inputs as they were, the output's buffer untouched at xi3, and the accumulator with the pieces LS
    written into it (the clearing store, then the update). No piece goes to the output (L3 is empty). -/
noncomputable def kernelRun_A (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) :
    Σ' (L3 : List (View.Piece (Elt F) S2048x32 .f32)), { LS : List (View.Piece (Elt F) S2048x33 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Scatter

end
-- ==== Proof.KI.Scatter.RunB.lean ====
/-
  The scatter kernel's body at a point of case B: an edge block that is neither the first nor the last of its
  node block. The accumulator, which holds what the point before left, gains this edge block's one-hot product;
  nothing is stored into the output block.
-/
import proofs.«412493_j88510686036697_1_alg».proof.Proof.KI.Scatter.RunA

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE B (neither first nor last edge block). On whole memrefs — the three inputs at their contents, the
    output's staging buffer at any contents xi3, the accumulator at xs — the body runs to a continuation that is
    handed the inputs as they were, the output's buffer untouched at xi3, and the accumulator with the pieces LS
    written into it (the one update). No piece goes to the output (L3 is empty). -/
noncomputable def kernelRun_B (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) :
    Σ' (L3 : List (View.Piece (Elt F) S2048x32 .f32)), { LS : List (View.Piece (Elt F) S2048x33 .f32) //
      ∀ (xi3 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2
                ∗ owns (c : Thread nD τ) arg5 fullShare xi3
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨[], ?_, fun xi3 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Scatter

end
-- ==== Proof.KI.Scatter.RunC.lean ====
/-
  The scatter kernel's body at a point of case C: the last edge block of a node block, and not the first. The
  accumulator, which holds what the point before left, gains this edge block's one-hot product; then the output
  block is formed from the accumulator and the node block of the table and stored whole.
-/
import proofs.«412493_j88510686036697_1_alg».proof.Proof.KI.Scatter.RunB

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- CASE C (last edge block, not the first). On whole memrefs — the three inputs at their contents, the output's
    staging buffer at anything, the accumulator at xs — the body runs to a continuation that is handed the inputs
    as they were, the output's buffer with the pieces L3 written into it (the one store of the output block) and
    the accumulator with the pieces LS written into it (the one update). -/
noncomputable def kernelRun_C (c : Dev nD) (i : grid1.Coords)
    (arg2 : Memref sig .tc .vmem S4096 .i32) (harg2 : arg2.IsWhole) (arg3 : Memref sig .tc .vmem S4096x33 .f32) (harg3 : arg3.IsWhole)
    (arg4 : Memref sig .tc .vmem S2048x33 .f32) (harg4 : arg4.IsWhole) (arg5 : Memref sig .tc .vmem S2048x32 .f32) (harg5 : arg5.IsWhole)
    (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) :
    Σ' (L3 : List (View.Piece (Elt F) S2048x32 .f32)), { LS : List (View.Piece (Elt F) S2048x33 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__scatter_kernel i arg2 harg2 arg3 harg3 arg4 harg4 arg5 harg5 arg6 harg6) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2
    obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Scatter

end
-- ==== Proof.KI.Scatter.Frame.lean ====
/-
  The scatter pass as a region: what each of the body's three cases leaves in the accumulator and in the output
  block, the same point by point along the grid, the region invariant that carries the accumulator from one
  point to the next, the pipeline's proof data and the body obligation. The accumulator after a point is the
  update step applied to the cleared value (at the first edge block of a node block) or to what the point before
  left (elsewhere); the output block at the last edge block is formed from the accumulator there and the node
  block of the table.
-/
import proofs.«412493_j88510686036697_1_alg».proof.Proof.KI.Scatter.RunC
import Idealize.ShloMosaic.Lib.Pipeline.Value

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output block: a placeholder that nothing consults (the window is idle at
    these points: neither written back nor read at the next point). -/
def out_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : Vec F S2048x32 .f32 :=
  VO.read (Elt F) (VO.writes (Elt F) VO.junk (kernelRun_A c i arg2 harg2 arg3 harg3 arg4 harg4 arg5 harg5 arg6 harg6 hc0 hc1 x0 x1 x2).1)

/-- Case A's pieces for the accumulator cover it (the clearing store and the update are both whole). -/
theorem scover_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) (y : S2048x33.Idx) :
    ∃ pc ∈ (kernelRun_A c i arg2 harg2 arg3 harg3 arg4 harg4 arg5 harg5 arg6 harg6 hc0 hc1 x0 x1 x2).2.1, y ∈ pc.1.set :=
  View.cover_of_tiledL (kernelRun_A c i arg2 harg2 arg3 harg3 arg4 harg4 arg5 harg5 arg6 harg6 hc0 hc1 x0 x1 x2).2.1 S2048x33.size (by sl_kernel_rfl) y

/-- What case A leaves in the accumulator: its pieces read back. -/
def sout_A (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : Vec F S2048x33 .f32 :=
  VS.read (Elt F) (VS.writes (Elt F) VS.junk (kernelRun_A c i arg2 harg2 arg3 harg3 arg4 harg4 arg5 harg5 arg6 harg6 hc0 hc1 x0 x1 x2).2.1)

/-- Case B stores nothing into the output block either: the same placeholder. -/
def out_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : Vec F S2048x32 .f32 :=
  VO.read (Elt F) (VO.writes (Elt F) VO.junk (kernelRun_B c i arg2 harg2 arg3 harg3 arg4 harg4 arg5 harg5 arg6 harg6 hc0 hc1 x0 x1 x2 xs).1)

/-- Case B's one piece for the accumulator covers it. -/
theorem scover_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) (y : S2048x33.Idx) :
    ∃ pc ∈ (kernelRun_B c i arg2 harg2 arg3 harg3 arg4 harg4 arg5 harg5 arg6 harg6 hc0 hc1 x0 x1 x2 xs).2.1, y ∈ pc.1.set :=
  View.cover_of_tiledL (kernelRun_B c i arg2 harg2 arg3 harg3 arg4 harg4 arg5 harg5 arg6 harg6 hc0 hc1 x0 x1 x2 xs).2.1 S2048x33.size (by sl_kernel_rfl) y

/-- What case B leaves in the accumulator. -/
def sout_B (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : Vec F S2048x33 .f32 :=
  VS.read (Elt F) (VS.writes (Elt F) VS.junk (kernelRun_B c i arg2 harg2 arg3 harg3 arg4 harg4 arg5 harg5 arg6 harg6 hc0 hc1 x0 x1 x2 xs).2.1)

/-- Case C's one piece for the output block covers it. -/
theorem cover_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) (y : S2048x32.Idx) :
    ∃ pc ∈ (kernelRun_C c i arg2 harg2 arg3 harg3 arg4 harg4 arg5 harg5 arg6 harg6 hc0 hc1 x0 x1 x2 xs).1, y ∈ pc.1.set :=
  View.cover_of_tiledL (kernelRun_C c i arg2 harg2 arg3 harg3 arg4 harg4 arg5 harg5 arg6 harg6 hc0 hc1 x0 x1 x2 xs).1 S2048x32.size (by sl_kernel_rfl) y

/-- What case C leaves in the output's staging buffer. -/
def out_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : Vec F S2048x32 .f32 :=
  VO.read (Elt F) (VO.writes (Elt F) VO.junk (kernelRun_C c i arg2 harg2 arg3 harg3 arg4 harg4 arg5 harg5 arg6 harg6 hc0 hc1 x0 x1 x2 xs).1)

/-- Case C's one piece for the accumulator covers it. -/
theorem scover_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) (y : S2048x33.Idx) :
    ∃ pc ∈ (kernelRun_C c i arg2 harg2 arg3 harg3 arg4 harg4 arg5 harg5 arg6 harg6 hc0 hc1 x0 x1 x2 xs).2.1, y ∈ pc.1.set :=
  View.cover_of_tiledL (kernelRun_C c i arg2 harg2 arg3 harg3 arg4 harg4 arg5 harg5 arg6 harg6 hc0 hc1 x0 x1 x2 xs).2.1 S2048x33.size (by sl_kernel_rfl) y

/-- What case C leaves in the accumulator. -/
def sout_C (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : Vec F S2048x33 .f32 :=
  VS.read (Elt F) (VS.writes (Elt F) VS.junk (kernelRun_C c i arg2 harg2 arg3 harg3 arg4 harg4 arg5 harg5 arg6 harg6 hc0 hc1 x0 x1 x2 xs).2.1)

/-! ## The cases' contents in closed form -/

theorem zero_off1 : (![0] : Fin 1 → Nat) = fun _ => 0 := by funext a; fin_cases a; rfl
theorem zero_off2 : (![0, 0] : Fin 2 → Nat) = fun _ => 0 := by funext a; fin_cases a <;> rfl

/-- Case A leaves in the accumulator one update step over the cleared value. -/
theorem sout_A_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : condFirst i) (hc1 : ¬condLast i)
    (x0 : Vec F S4096 .i32) (x1 : Vec F S4096x33 .f32) (x2 : Vec F S2048x33 .f32) : sout_A c i arg2 harg2 arg3 harg3 arg4 harg4 arg5 harg5 arg6 harg6 hc0 hc1 x0 x1 x2 = k1_pay2 i x0 x1 (k1_pay1 (F := F)) := by
  unfold sout_A; rw [View.read_writes_eq_canon _ _ _ (scover_A c i arg2 harg2 arg3 harg3 arg4 harg4 arg5 harg5 arg6 harg6 hc0 hc1 x0 x1 x2)]
  unfold kernelRun_A; dsimp only; sl_unfold_words
  rw [View.canon_cons_unit_zero (S := S2048x33) zero_off2]
  simp only [View.readAt_eq_ld, harg2.read_unread, harg3.read_unread, View.ld_unit_zero (S := S4096) zero_off1,
    View.ld_unit_zero (S := S4096x33) zero_off2, View.readCov_unit_zero (S := S2048x33) _ zero_off2]

/-- Case B leaves in the accumulator one update step over what it held. -/
theorem sout_B_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : ¬condLast i)
    (x0 : Vec F S4096 .i32) (x1 : Vec F S4096x33 .f32) (x2 : Vec F S2048x33 .f32) (xs : Vec F S2048x33 .f32) : sout_B c i arg2 harg2 arg3 harg3 arg4 harg4 arg5 harg5 arg6 harg6 hc0 hc1 x0 x1 x2 xs = k1_pay2 i x0 x1 xs := by
  unfold sout_B; rw [View.read_writes_eq_canon _ _ _ (scover_B c i arg2 harg2 arg3 harg3 arg4 harg4 arg5 harg5 arg6 harg6 hc0 hc1 x0 x1 x2 xs)]
  unfold kernelRun_B; dsimp only; sl_unfold_words
  rw [View.canon_unit_zero (S := S2048x33) zero_off2]
  simp only [View.readAt_eq_ld, harg2.read_unread, harg3.read_unread, harg6.read_unread, View.ld_unit_zero (S := S4096) zero_off1,
    View.ld_unit_zero (S := S4096x33) zero_off2, View.ld_unit_zero (S := S2048x33) zero_off2]

/-- So does case C. -/
theorem sout_C_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : sout_C c i arg2 harg2 arg3 harg3 arg4 harg4 arg5 harg5 arg6 harg6 hc0 hc1 x0 x1 x2 xs = k1_pay2 i x0 x1 xs := by
  unfold sout_C; rw [View.read_writes_eq_canon _ _ _ (scover_C c i arg2 harg2 arg3 harg3 arg4 harg4 arg5 harg5 arg6 harg6 hc0 hc1 x0 x1 x2 xs)]
  unfold kernelRun_C; dsimp only; sl_unfold_words
  rw [View.canon_unit_zero (S := S2048x33) zero_off2]
  simp only [View.readAt_eq_ld, harg2.read_unread, harg3.read_unread, harg6.read_unread, View.ld_unit_zero (S := S4096) zero_off1,
    View.ld_unit_zero (S := S4096x33) zero_off2, View.ld_unit_zero (S := S2048x33) zero_off2]

/-- Case C leaves in the output block what the closing formula makes of the updated accumulator and the node
    block of the table. -/
theorem out_C_eq (c : Dev nD) (i : grid1.Coords) (arg2 : Memref sig .tc .vmem S4096 .i32) (harg2 : arg2.IsWhole) (arg3 : Memref sig .tc .vmem S4096x33 .f32) (harg3 : arg3.IsWhole) (arg4 : Memref sig .tc .vmem S2048x33 .f32) (harg4 : arg4.IsWhole) (arg5 : Memref sig .tc .vmem S2048x32 .f32) (harg5 : arg5.IsWhole) (arg6 : Memref sig .tc .vmem S2048x33 .f32) (harg6 : arg6.IsWhole) (hc0 : ¬condFirst i) (hc1 : condLast i)
    (x0 : Vec F S4096 .i32) (x1 : Vec F S4096x33 .f32) (x2 : Vec F S2048x33 .f32) (xs : Vec F S2048x33 .f32) : out_C c i arg2 harg2 arg3 harg3 arg4 harg4 arg5 harg5 arg6 harg6 hc0 hc1 x0 x1 x2 xs = k1_pay3 (k1_pay2 i x0 x1 xs) x2 := by
  unfold out_C; rw [View.read_writes_eq_canon _ _ _ (cover_C c i arg2 harg2 arg3 harg3 arg4 harg4 arg5 harg5 arg6 harg6 hc0 hc1 x0 x1 x2 xs)]
  unfold kernelRun_C; dsimp only; sl_unfold_words
  rw [View.canon_unit_zero (S := S2048x32) zero_off2]
  simp only [View.readAt_eq_ld, harg2.read_unread, harg3.read_unread, harg4.read_unread, harg6.read_unread, View.ld_unit_zero (S := S4096) zero_off1,
    View.ld_unit_zero (S := S4096x33) zero_off2, View.ld_unit_zero (S := S2048x33) zero_off2, View.readCov_unit_zero (S := S2048x33) _ zero_off2]

/-! ## What the output's staging buffer and the accumulator hold after each point -/

/-- After the body at point n: the pair (the output's staging buffer, the accumulator). The case is read off
    n mod 391; the accumulator the step reads is the cleared value in case A and what the point before left in
    cases B and C. First-and-last at once does not occur. -/
def outsAt (c : Dev nD) : (n : ℕ) → n < cfg1.N → Vec F S2048x32 .f32 × Vec F S2048x33 .f32
  | 0, hn => (out_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM (Memref.isWhole_whole _) ((hcondFirst ⟨0, hn⟩).mpr (Nat.zero_mod _)) (fun h => (fun h => by (try dsimp only at h); omega) ((hcondLast ⟨0, hn⟩).mp h)) (iblk V c 0 ⟨0, hn⟩) (iblk V c 1 ⟨0, hn⟩) (iblk V c 2 ⟨0, hn⟩))
  | n + 1, hn =>
    if h0 : (n + 1) % 391 = 0 then
      if h1 : (n + 1) % 391 = 390 then
        False.elim (by omega)
      else
        (out_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) ((hcondFirst ⟨n + 1, hn⟩).mpr h0) (fun h => h1 ((hcondLast ⟨n + 1, hn⟩).mp h)) (iblk V c 0 ⟨n + 1, hn⟩) (iblk V c 1 ⟨n + 1, hn⟩) (iblk V c 2 ⟨n + 1, hn⟩))
    else
      if h1 : (n + 1) % 391 = 390 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (out_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

/-- At a point of case A. -/
theorem outsAt_A (c : Dev nD) (t : Fin cfg1.N) (h0 : t.val % 391 = 0) (h1 : ¬t.val % 391 = 390) :
    outsAt V c t.val t.isLt = (out_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t), sout_A c (grid1.coords t) (ms_0 t) (hs_0 t) (ms_1 t) (hs_1 t) (ms_2 t) (hs_2 t) (ms_3 t) (hs_3 t) scM (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans ((dif_neg h1).trans rfl)

/-- At a point of case B: over what the point before left. -/
theorem outsAt_B (c : Dev nD) (t : Fin cfg1.N) (h0 : ¬t.val % 391 = 0) (h1 : ¬t.val % 391 = 390) :
    outsAt V c t.val t.isLt = (out_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2, sout_B c (grid1.coords t) (ms_0 t) (hs_0 t) (ms_1 t) (hs_1 t) (ms_2 t) (hs_2 t) (ms_3 t) (hs_3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt_C (c : Dev nD) (t : Fin cfg1.N) (h0 : ¬t.val % 391 = 0) (h1 : t.val % 391 = 390) :
    outsAt V c t.val t.isLt = (out_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2, sout_C c (grid1.coords t) (ms_0 t) (hs_0 t) (ms_1 t) (hs_1 t) (ms_2 t) (hs_2 t) (ms_3 t) (hs_3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: at the region's entry the class's invariant (every scoped buffer that is no staging
    buffer of this call at anything, the generator register at some state); afterwards the accumulator at what
    the point before left in it, beside the other scoped buffers and the generator register. -/
def PhiS (c : Dev nD) : (n : ℕ) → n ≤ cfg1.N → sProp 𝕄
  | 0, _ => Pipeline.ΦA spec1 c
  | n + 1, hn => iprop(iprop(owns (c : Thread nD τ) scM fullShare ((outsAt V c n hn).2) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare ((outsAt V c n hn).2) ∗ others (F := F) c) ∗ (∃ r, prngReg c r)) := rfl

theorem PhiS_pos (c : Dev nD) (n : ℕ) (h : n ≤ cfg1.N) (hz : n ≠ 0) :
    PhiS V c n h = iprop(iprop(owns (c : Thread nD τ) scM fullShare ((outsAt V c (n - 1) (by omega)).2) ∗ others (F := F) c) ∗ (∃ r, prngReg c r)) := by
  cases n with
  | zero => exact absurd rfl hz
  | succ n => rfl

/-! ## The pipeline's proof data -/

/-- The arrays as the region finds them; after the body at point t each input's buffer at its block and the
    output's at the first component of the pair above; the invariant the one above; full shares; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation, at a generic point -/

/-- What the body is called with at point t: the invariant, the core's dues, each window's current staging
    buffer at what the pipeline left in it, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point. The inputs' memrefs hold their blocks; n mod 391 says which case the point is in, and
    that case's run applies. The invariant hands the body the accumulator (at anything at the region's first point,
    otherwise at what the point before left), keeps the other scoped buffers and the generator register, and takes
    the accumulator back at this point's contents. Where the output window is idle its buffer is handed back as it
    was found. The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 19159 := lt_of_lt_of_eq t.isLt (show cfg1.N = 19159 from N_1)
  by_cases h0 : t.val % 391 = 0
  · by_cases h1 : t.val % 391 = 390
    · exfalso; omega
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((hcondLast t).mp h))) (noFlush_3 t (fun h => h1 ((hcondLast t).mp h)))]
      rw [outsAt_A V c t h0 h1]
      unfold sout_A; (try dsimp only)
      by_cases hz : t.val = 0
      · rw [PhiS_castSucc V c t, PhiS_zero V c _ _ hz, PhiA_eq]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩⟩
        iapply ((kernelRun_A c (grid1.coords t) _ _ _ _ _ _ _ _ _ _ ((hcondFirst t).mpr h0) (fun h => h1 ((hcondLast t).mp h)) (iblk V c 0 t) (iblk V c 1 t) (iblk V c 2 t)).2.2 _ Set.univ _)
        isplitl [H0]; · iexact H0
        isplitl [H1]; · iexact H1
        isplitl [H2]; · iexact H2
        isplitl [H3]; · iexact H3
        isplitl [HS]; · iexists _; iexact HS
        iintro ⟨H0, H1, H2, H3, ⟨%es, HS⟩⟩
        isplitl [HS Hoth Hg]
        · isplitl [HS Hoth]
          · isplitl [HS]
            · unfold owns; iexists _; isplitr
              swap; · iexact HS
              ipureintro; exact View.read_writes_of_cover _ _ _ _ _ (scover_A c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · by_cases h1 : t.val % 391 = 390
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [show (dat V c).leavesExact 3 t = owns (c : Thread nD τ) (ms_3 t) fullShare ((dat V c).after 3 t) from by
        unfold Dat.leavesExact; rw [live_3 t ((hcondLast t).mpr h1)], after_3]
      rw [outsAt_C V c t h0 h1]
      unfold out_C sout_C; (try dsimp only)
      have hz : t.val ≠ 0 := fun e => h0 (by rw [e])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (scover_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [show (dat V c).leavesExact 0 t = owns (c : Thread nD τ) (ms_0 t) fullShare ((dat V c).after 0 t) from by
        unfold Dat.leavesExact; rw [live_0 t], after_0]
      rw [show (dat V c).leavesExact 1 t = owns (c : Thread nD τ) (ms_1 t) fullShare ((dat V c).after 1 t) from by
        unfold Dat.leavesExact; rw [live_1 t], after_1]
      rw [show (dat V c).leavesExact 2 t = owns (c : Thread nD τ) (ms_2 t) fullShare ((dat V c).after 2 t) from by
        unfold Dat.leavesExact; rw [live_2 t], after_2]
      rw [Dat.leavesExact_idle (dat V c) 3 t (idle_3 t (fun h => h1 ((hcondLast t).mp h))) (noFlush_3 t (fun h => h1 ((hcondLast t).mp h)))]
      rw [outsAt_B V c t h0 h1]
      unfold sout_B; (try dsimp only)
      have hz : t.val ≠ 0 := fun e => h0 (by rw [e])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS Hoth]
        · isplitl [HS]
          · unfold owns; iexists _; isplitr
            swap; · iexact HS
            ipureintro; exact View.read_writes_of_cover _ _ _ _ _ (scover_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem Phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat V c).Φ (Fin.last cfg1.N) ⊢ Pipeline.ΦA spec1 c := by
  have hN : (Fin.last cfg1.N).val ≠ 0 := by rw [Fin.val_last]; have : cfg1.N = 19159 := N_1; omega
  rw [show (dat V c).Φ (Fin.last cfg1.N) = PhiS V c (Fin.last cfg1.N).val (Nat.le_of_lt_succ (Fin.last cfg1.N).isLt) from rfl,
    PhiS_pos V c _ _ hN, PhiA_eq]
  iintro ⟨⟨HS, Hoth⟩, Hg⟩
  isplitl [HS Hoth]
  · isplitl [HS]
    · iexists _; iexact HS
    iexact Hoth
  iexact Hg

/-! ## The step equations -/

/-- At the first edge block of a node block the accumulator ends at one update step over the cleared value. -/
theorem acc_first (c : Dev nD) (t : Fin cfg1.N) (h : t.val % 391 = 0) :
    (outsAt V c t.val t.isLt).2 = k1_pay2 (grid1.coords t) (iblk V c 0 t) (iblk V c 1 t) (k1_pay1 (F := F)) := by
  have h1 : ¬t.val % 391 = 390 := by omega
  rw [outsAt_A V c t h h1]; dsimp only
  exact sout_A_eq (F := F) c (grid1.coords t) (ms_0 t) (hs_0 t) (ms_1 t) (hs_1 t) (ms_2 t) (hs_2 t) (ms_3 t) (hs_3 t) scM (Memref.isWhole_whole _)
    ((hcondFirst t).mpr h) (fun h' => h1 ((hcondLast t).mp h')) (iblk V c 0 t) (iblk V c 1 t) (iblk V c 2 t)

/-- At every other point it ends at one update step over what the point before left. -/
theorem acc_next (c : Dev nD) (t : Fin cfg1.N) (h : ¬ t.val % 391 = 0) :
    (outsAt V c t.val t.isLt).2 = k1_pay2 (grid1.coords t) (iblk V c 0 t) (iblk V c 1 t) (outsAt V c (t.val - 1) (Nat.lt_of_le_of_lt (Nat.sub_le _ _) t.isLt)).2 := by
  by_cases h1 : t.val % 391 = 390
  · rw [outsAt_C V c t h h1]; dsimp only
    exact sout_C_eq (F := F) c (grid1.coords t) (ms_0 t) (hs_0 t) (ms_1 t) (hs_1 t) (ms_2 t) (hs_2 t) (ms_3 t) (hs_3 t) scM (Memref.isWhole_whole _)
      (fun h' => h ((hcondFirst t).mp h')) ((hcondLast t).mpr h1) (iblk V c 0 t) (iblk V c 1 t) (iblk V c 2 t)
      (outsAt V c (t.val - 1) (Nat.lt_of_le_of_lt (Nat.sub_le _ _) t.isLt)).2
  · rw [outsAt_B V c t h h1]; dsimp only
    exact sout_B_eq (F := F) c (grid1.coords t) (ms_0 t) (hs_0 t) (ms_1 t) (hs_1 t) (ms_2 t) (hs_2 t) (ms_3 t) (hs_3 t) scM (Memref.isWhole_whole _)
      (fun h' => h ((hcondFirst t).mp h')) (fun h' => h1 ((hcondLast t).mp h')) (iblk V c 0 t) (iblk V c 1 t) (iblk V c 2 t)
      (outsAt V c (t.val - 1) (Nat.lt_of_le_of_lt (Nat.sub_le _ _) t.isLt)).2

/-- At the last edge block of a node block the output block is the closing formula of the accumulator there and
    the node block of the table. -/
theorem out_last (c : Dev nD) (t : Fin cfg1.N) (h : t.val % 391 = 390) :
    (outsAt V c t.val t.isLt).1 = k1_pay3 ((outsAt V c t.val t.isLt).2) (iblk V c 2 t) := by
  have h0 : ¬t.val % 391 = 0 := by omega
  rw [outsAt_C V c t h0 h]; dsimp only
  exact (out_C_eq (F := F) c (grid1.coords t) (ms_0 t) (hs_0 t) (ms_1 t) (hs_1 t) (ms_2 t) (hs_2 t) (ms_3 t) (hs_3 t) scM (Memref.isWhole_whole _)
      (fun h' => h0 ((hcondFirst t).mp h')) ((hcondLast t).mpr h) (iblk V c 0 t) (iblk V c 1 t) (iblk V c 2 t)
      (outsAt V c (t.val - 1) (Nat.lt_of_le_of_lt (Nat.sub_le _ _) t.isLt)).2).trans
    (congrArg (fun a => k1_pay3 a (iblk V c 2 t))
      (sout_C_eq (F := F) c (grid1.coords t) (ms_0 t) (hs_0 t) (ms_1 t) (hs_1 t) (ms_2 t) (hs_2 t) (ms_3 t) (hs_3 t) scM (Memref.isWhole_whole _)
        (fun h' => h0 ((hcondFirst t).mp h')) ((hcondLast t).mpr h) (iblk V c 0 t) (iblk V c 1 t) (iblk V c 2 t)
        (outsAt V c (t.val - 1) (Nat.lt_of_le_of_lt (Nat.sub_le _ _) t.isLt)).2).symm)

end Cert.KernelIdeal.Scatter

end
-- ==== Proof.KI.Assembly.lean ====
/-
  The kernel program's whole run: @main's eleven items in order — eight stretches of host operations
  that slice, pad and augment the arguments, the gather pass, the scatter pass, the final slice — composed from
  each item's own account. Between two items a core holds every unscoped buffer at known contents: the launch
  memory pushed through the host stretches (`V0 … V8`), then each pass's arrays at what its write-backs leave
  (`W9`, `W10`), then the final slice (`W11`). The run ends with every unscoped buffer at `W11`; the frame
  claim and the result's value are read off that.
-/
import proofs.«412493_j88510686036697_1_alg».proof.Proof.KI.Gather.Frame
import proofs.«412493_j88510686036697_1_alg».proof.Proof.KI.Scatter.Frame
import proofs.«412493_j88510686036697_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Assembly

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' ends -/

/-- What the gather pass is entered from, read at the TensorCore's references. -/
abbrev E8 : (c : Dev nD) → (b : Ref sig .tc) → Buf (Elt F) ((c : Thread nD τ).loc b) := fun c b => V8 m c b
/-- After the gather pass: its arrays at what the pipeline leaves, every other buffer as entered. -/
def W9 (c : Dev nD) : Valuation τ sig (Elt F) :=
  Pipeline.withArrays spec0 c (V8 m c) fun w => (Gather.dat (E8 m) c).arrAt w cfg0.N
theorem W9_arr (c : Dev nD) (w : Fin cfg0.W) :
    W9 m c (Proc.devRef .tc (Pipeline.arrRef spec0 w)) = (Gather.dat (E8 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = V8 m c (Proc.devRef .tc b) := by
  unfold W9; exact Pipeline.withArrays_of_ne spec0 c _ _ b hb
/-- The same read at the TensorCore's references: what the scatter pass is entered from. -/
abbrev E9 : (c : Dev nD) → (b : Ref sig .tc) → Buf (Elt F) ((c : Thread nD τ).loc b) := fun c b => W9 m c b
theorem hF0 (c : Dev nD) (w : Fin cfg0.W) : (Gather.dat (E8 m) c).arrAt w cfg0.N = E9 m c (Pipeline.arrRef spec0 w) :=
  (W9_arr m c w).symm
theorem hrest0 (c : Dev nD) : ∀ b, b ∉ Finset.univ.image (Pipeline.arrRef spec0) → E9 m c b = E8 m c b :=
  fun b hb => W9_of_ne m c b fun w e => hb (Finset.mem_image.mpr ⟨w, Finset.mem_univ _, e⟩)

/-- After the scatter pass. -/
def W10 (c : Dev nD) : Valuation τ sig (Elt F) :=
  Pipeline.withArrays spec1 c (W9 m c) fun w => (Scatter.dat (E9 m) c).arrAt w cfg1.N
theorem W10_arr (c : Dev nD) (w : Fin cfg1.W) :
    W10 m c (Proc.devRef .tc (Pipeline.arrRef spec1 w)) = (Scatter.dat (E9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E10 : (c : Dev nD) → (b : Ref sig .tc) → Buf (Elt F) ((c : Thread nD τ).loc b) := fun c b => W10 m c b
theorem hF1 (c : Dev nD) (w : Fin cfg1.W) : (Scatter.dat (E9 m) c).arrAt w cfg1.N = E10 m c (Pipeline.arrRef spec1 w) :=
  (W10_arr m c w).symm
theorem hrest1 (c : Dev nD) : ∀ b, b ∉ Finset.univ.image (Pipeline.arrRef spec1) → E10 m c b = E9 m c b :=
  fun b hb => W10_of_ne m c b fun w e => hb (Finset.mem_image.mpr ⟨w, Finset.mem_univ _, e⟩)

/-- After the final slice. -/
abbrev W11 : Dev nD → Valuation τ sig (Elt F) := fun c => StableHlo.after hostOps2 (W10 m c)

/-! ## The proof data family and the thread state -/

abbrev adm : (p : Fin 2) → (pcfgs (F := F) p).Adm := fun p => (cfgs p).toPCfg_adm
/-- Each pass's proof data at its own entry contents: a literal match on the pipeline. -/
def pdats : (p : Fin 2) → (c : Dev nD) → Dat τ (Elt F) Unit ℕ (UR sig nD τ) ℕ (Pipeline.pin (pcfgs (F := F)) adm p) c
  | ⟨0, _⟩ => fun c => Gather.dat (E8 m) c
  | ⟨1, _⟩ => fun c => Scatter.dat (E9 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the last contents, the generator register. -/
abbrev Tₙ (c : Dev nD) : sProp 𝕄 := iprop(StableHlo.held (c : Thread nD τ) (Pipeline.ucRefs τ sig) (W11 m c) ∗ ∃ r, prngReg c r)

/-! ## The class's region invariant, put together and taken apart -/

/-- The generator register, anything, and a pipeline's scoped rest make the class's region invariant (the middle
    conjunct — the prefetched tables, of which there are none — is dropped). -/
theorem toPhiA0 (c : Dev nD) (Mid : sProp 𝕄) :
    iprop((∃ r, prngReg c r) ∗ Mid ∗ Pipeline.scopedRest (Ix := Unit) (Name := ℕ) (U := UR sig nD τ) (Lvl := ℕ) (Val := Elt F) spec0 c)
      ⊢ (Pipeline.ΦA spec0 c : sProp 𝕄) := by
  unfold Pipeline.ΦA
  iintro ⟨Hp, -, Hr⟩
  isplitl [Hr]; · iexact Hr
  iexact Hp
/-- And the invariant gives them back (no semaphore of the kernel's own: the middle conjunct is empty). -/
theorem fromPhiA0 (c : Dev nD) :
    (Pipeline.ΦA spec0 c : sProp 𝕄)
      ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr
theorem toPhiA1 (c : Dev nD) (Mid : sProp 𝕄) :
    iprop((∃ r, prngReg c r) ∗ Mid ∗ Pipeline.scopedRest (Ix := Unit) (Name := ℕ) (U := UR sig nD τ) (Lvl := ℕ) (Val := Elt F) spec1 c)
      ⊢ (Pipeline.ΦA spec1 c : sProp 𝕄) := by
  unfold Pipeline.ΦA
  iintro ⟨Hp, -, Hr⟩
  isplitl [Hr]; · iexact Hr
  iexact Hp
theorem fromPhiA1 (c : Dev nD) :
    (Pipeline.ΦA spec1 c : sProp 𝕄)
      ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-! ## The two passes as segments -/

set_option backward.isDefEq.respectTransparency.types false in
/-- THE GATHER PASS: entered from every unscoped buffer at `V8`, left at `W9`. Its arrays are split out of the
    unscoped buffers and put back at the exit contents; the generator register and the scoped rest go into the
    region invariant (whose later points track the accumulator) and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation (E8 m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E8 m c) fun w => Gather.A_eq (E8 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (toPhiA0 c _) (show Pipeline.ΦA spec0 c ⊢ (pdats m 0 c).Φ 0 from Gather.Phi_in (E8 m) c)
  hout c := by
    rw [Pipeline.ownSems0_none]
    exact BI.Entails.trans (show (pdats m 0 c).Φ (Fin.last _) ⊢ Pipeline.ΦA spec0 c from Gather.Phi_out (E8 m) c) (fromPhiA0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E8 m c) (E9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER PASS: entered from every unscoped buffer at `W9`, left at `W10`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation (E9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun w => Scatter.A_eq (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := BI.Entails.trans (toPhiA1 c _) (show Pipeline.ΦA spec1 c ⊢ (pdats m 1 c).Φ 0 from Scatter.Phi_in (E9 m) c)
  hout c := by
    rw [Pipeline.ownSems0_none]
    exact BI.Entails.trans (show (pdats m 1 c).Φ (Fin.last _) ⊢ Pipeline.ΦA spec1 c from Scatter.Phi_out (E9 m) c) (fromPhiA1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven items in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .region (reg0 m),
    .region (reg1 m),
    .host (hseg hostOps2 hostOps2_sub hostOps2_fresh (W10 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and every final state holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (StableHlo.after hostOps2 (W10 m c)) ∗ R c)
          ⊢ iprop(Tₙ m c ∗ ∃ W, owes (c : Thread nD τ) (0 : CellTallies nD τ sig Unit) W)
        iintro ⟨Hh, Hp, HO⟩
        isplitr [HO]
        · isplitl [Hh]; · iexact Hh
          iexact Hp
        · iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

/-! ## What the run leaves: the arguments as launched, the result at `W11` -/

/-- No item writes an argument: the last contents at an argument are the launch memory's. -/
theorem W11_of_arg (c : Dev nD) (r : Ref sig .tc) (h2 : r ∉ hostOps2_W) (h1 : ∀ w, Pipeline.arrRef spec1 w ≠ r) (h0 : ∀ w, Pipeline.arrRef spec0 w ≠ r)
    (h8 : V8 m c r = m ((c : Thread nD τ).loc r)) : W11 m c r = m ((c : Thread nD τ).loc r) :=
  (StableHlo.after_of_writes_sub hostOps2 _ hostOps2_writes h2).trans <| (W10_of_ne m c r h1).trans <| (W9_of_ne m c r h0).trans h8
theorem V8_arg (c : Dev nD) (r : Ref sig .tc) (h1 : r ∉ hostOps0_W) (h2 : r ∉ hostOps0_1_W) (h3 : r ∉ hostOps0_2_W) (h4 : r ∉ hostOps0_3_W)
    (h5 : r ∉ hostOps0_4_W) (h6 : r ∉ hostOps0_5_W) (h7 : r ∉ hostOps0_6_W) (h8 : r ∉ hostOps0_7_W) : V8 m c r = m ((c : Thread nD τ).loc r) :=
  (V8_of m c r h8).trans <| (V7_of m c r h7).trans <| (V6_of m c r h6).trans <| (V5_of m c r h5).trans <| (V4_of m c r h4).trans <|
    (V3_of m c r h3).trans <| (V2_of m c r h2).trans <| (V1_of m c r h1).trans rfl
theorem W11_main_arg0 (c : Dev nD) : W11 m c main_arg0 = m ((c : Thread nD τ).loc main_arg0) :=
  W11_of_arg m c main_arg0 (by decide) (by decide) (by decide) (V8_arg m c main_arg0 (by decide) (by decide) (by decide) (by decide) (by decide) (by decide) (by decide) (by decide))
theorem W11_main_arg1 (c : Dev nD) : W11 m c main_arg1 = m ((c : Thread nD τ).loc main_arg1) :=
  W11_of_arg m c main_arg1 (by decide) (by decide) (by decide) (V8_arg m c main_arg1 (by decide) (by decide) (by decide) (by decide) (by decide) (by decide) (by decide) (by decide))
theorem W11_main_arg2 (c : Dev nD) : W11 m c main_arg2 = m ((c : Thread nD τ).loc main_arg2) :=
  W11_of_arg m c main_arg2 (by decide) (by decide) (by decide) (V8_arg m c main_arg2 (by decide) (by decide) (by decide) (by decide) (by decide) (by decide) (by decide) (by decide))

/-- THE RUN, read at the four buffers a claim speaks of: the result at `W11`, each argument as launched. -/
theorem run_main : θ_run defs (onTc (τ := τ) (main (F := F))) ⟨m, fun _ => 0, ρ⟩ (fun r => ∀ c : Dev nD,
      r.2.mem ((c.tc : Thread nD τ).loc main_v12) = W11 m c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v12 (by decide)),
     (h c _ (mem_uc main_arg0 (by decide))).trans (W11_main_arg0 m c),
     (h c _ (mem_uc main_arg1 (by decide))).trans (W11_main_arg1 m c),
     (h c _ (mem_uc main_arg2 (by decide))).trans (W11_main_arg2 m c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_main m ρ)

end Cert.KernelIdeal.Assembly

end
-- ==== Proof.Spec.lean ====
/-
  What both programs compute, as one function of the three argument arrays, and the kernel's two passes in
  closed form.

  The arguments: a feature table `u : [100000, 32]`, edge weights `w : [1600000]` and an index array
  `ei : [2, 1600000]` whose row 0 names each edge's own node and row 1 its neighbour. The result at node `n`,
  feature `f`, is the weighted sum, over the edges whose own node is `n`, of the neighbour's feature minus the
  node's own: Σ_{e : row e = n} w e · (u (col e, f) − u (n, f)).

  The kernel reaches it in two passes over padded arrays (edges padded to 1601536 = 391 · 4096 with index 0 and
  weight 0; the table augmented by a column of ones and padded to 100352 = 49 · 2048 zero rows). The first pass
  selects each edge's neighbour row by a sum over all node rows of a 0/1 indicator times the row, and scales it by the
  weight (`wcol`); the second sums, per node, the selected rows of the edges whose own node it is, and subtracts the
  summed ones-column (the node's weighted degree) times the node's own row (`lapP`). The two agree by distributing
  the weight over the difference, which is sound where every entry is a real number.
-/
import Idealize.ShloMosaic.PureOps.Ideal
import Idealize.ShloMosaic.Lib.ValueIdx

noncomputable section

open scoped BigOperators

namespace Cert.Spec

open Idealize.ShloMosaic Idealize.ShloMosaic.ValueIdx

abbrev SU : Shape := ⟨2, ![100000, 32]⟩
abbrev SW : Shape := ⟨1, ![1600000]⟩
abbrev SEI : Shape := ⟨2, ![2, 1600000]⟩

variable (u : SU.Idx → EReal) (w : SW.Idx → EReal) (ei : IVec SEI 32)

/-! ## The result -/

/-- Edge `e`'s own node: row 0 of the index array, read signed. -/
def rowOf (e : Fin 1600000) : ℤ := (ei (ix2 (0 : Fin 2) e)).toInt
/-- Edge `e`'s neighbour: row 1 of the index array, read signed. -/
def colOf (e : Fin 1600000) : ℤ := (ei (ix2 (1 : Fin 2) e)).toInt
/-- The neighbour as a row of the feature table: clamped into `[0, 99999]` (in range it is the index itself). -/
def colIx (e : Fin 1600000) : Fin 100000 := ⟨min (colOf ei e).toNat 99999, by omega⟩

/-- The result at node `n`, feature `f`. -/
def lapAt (n : Fin 100000) (f : Fin 32) : EReal :=
  ∑ e : Fin 1600000, if rowOf ei e = (n.val : ℤ) then w (ix1 e) * (u (ix2 (colIx ei e) f) - u (ix2 n f)) else 0

/-- The result array. -/
def lap : SU.Idx → EReal := fun i => lapAt u w ei ⟨(i 0).val, idx2_lt0 i⟩ ⟨(i 1).val, idx2_lt1 i⟩

theorem lap_ix2 (n : Fin 100000) (f : Fin 32) : lap u w ei (ix2 n f) = lapAt u w ei n f := rfl

/-! ## The domain -/

/-- Every neighbour index names a row of the table. -/
def ColInRange : Prop := ∀ e : Fin 1600000, 0 ≤ colOf ei e ∧ colOf ei e < 100000
/-- Every entry of an array is a real number. -/
def AllReal {s : Shape} (v : s.Idx → EReal) : Prop := ∀ i, v i ≠ ⊤ ∧ v i ≠ ⊥

/-! ## The kernel's two passes -/

/-- The neighbour indices padded with 0 to 1601536 edges, -/
def colP (e : Fin 1601536) : BitVec 32 := if h : e.val < 1600000 then ei (ix2 (1 : Fin 2) ⟨e.val, h⟩) else 0#32
/-- the own-node indices likewise, -/
def rowP (e : Fin 1601536) : BitVec 32 := if h : e.val < 1600000 then ei (ix2 (0 : Fin 2) ⟨e.val, h⟩) else 0#32
/-- the weights padded with 0, -/
def wP (e : Fin 1601536) : EReal := if h : e.val < 1600000 then w (ix1 ⟨e.val, h⟩) else 0
/-- and the table with a 33rd column of ones, padded with zero rows to 100352. -/
def uAugP (n : Fin 100352) (c : Fin 33) : EReal :=
  if hn : n.val < 100000 then (if hc : c.val < 32 then u (ix2 ⟨n.val, hn⟩ ⟨c.val, hc⟩) else 1) else 0

/-- Whether a 32-bit index word names node row `n`. -/
def hit (x : BitVec 32) (n : ℕ) : EReal := if x = BitVec.ofNat 32 n then 1 else 0

/-- The first pass: edge `e`'s row is its neighbour's augmented row — selected as the sum over ALL node rows of
    the indicator times the row — scaled by the edge's weight. -/
def wcol (e : Fin 1601536) (c : Fin 33) : EReal :=
  (∑ n : Fin 100352, hit (colP ei e) n.val * uAugP u n c) * wP w e

/-- The second pass: node `n`'s row is the sum of the first pass's rows over the edges whose own node is `n`,
    minus the summed 33rd column (the node's weighted degree) times the node's own row. -/
def lapP (n : Fin 100352) (f : Fin 32) : EReal :=
  (∑ e : Fin 1601536, hit (rowP ei e) n.val * wcol u w ei e ⟨f.val, by omega⟩)
    - (∑ e : Fin 1601536, hit (rowP ei e) n.val * wcol u w ei e ⟨32, by omega⟩) * uAugP u n ⟨f.val, by omega⟩

end Cert.Spec

end
-- ==== Proof.KI.HostValue.lean ====
/-
  The host operations around the two kernels, read at an index.

  Before the first kernel the program builds four padded arrays from its arguments: the two rows of the index
  array, each flattened and padded with the zero word to 1601536 entries; the weights padded with zero to the same
  length; and the feature table with a 33rd column of ones, padded with 352 zero rows. Each is written by one
  stretch of host operations and left alone by the later ones, so at the first kernel's entry it is that stretch's
  term over the arguments. Read at an index, a pad is its operand inside the operand's extent and the padding value
  outside it, a slice shifts the index by its offsets, a reshape keeps the row-major position, a concatenation reads
  the piece the coordinate falls in, and a broadcast scalar is the scalar. After the second kernel the result is the
  leading 100000 × 32 block of that kernel's output.
-/
import proofs.«412493_j88510686036697_1_alg».proof.Proof.Gen.KernelIdeal.Regions
import proofs.«412493_j88510686036697_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost

noncomputable section

namespace Cert.KernelIdeal.HostValue

open Cert.KernelIdeal Cert.KernelIdeal.Gen Cert.Spec Idealize.ShloMosaic Idealize.ShloMosaic.TcCoe Idealize.ShloMosaic.ValueIdx Idealize.SL.Sem

variable (m : (ℓ : Loc nD τ sig) → Buf (Elt Ideal) ℓ)

/-- The three arguments on core c, as arrays. -/
abbrev argU (c : Dev nD) : FVec Ideal S100000x32 .f32 := m ((c : Thread nD τ).loc main_arg0)
abbrev argW (c : Dev nD) : FVec Ideal S1600000 .f32 := m ((c : Thread nD τ).loc main_arg1)
abbrev argE (c : Dev nD) : IVec S2x1600000 32 := m ((c : Thread nD τ).loc main_arg2)

/-- The f32 word of one denotes the real number one. -/
theorem one_word : Ideal.ofBits .f32 0x3F800000#32 = 1 := Ideal.ofBits_one_f32

/-! ## Each padded array as one term over the arguments

A buffer that only one stretch of host operations writes holds, at the first kernel's entry, that stretch's term
over what the stretch before left; the stretches in between leave it alone. -/

/-- The own-node indices: row 0 of the index array, flattened, padded with the zero word. -/
theorem v4_eq (c : Dev nD) : (V8 m c main_v4 : IVec S1601536 32) =
    pad S1601536 ![0] ![1536] ![0]
      (shapeCast S1600000 (extractStridedSlice S1x1600000 ![0, 0] (argE m c) slices_S2x1600000_S1x1600000_0_0) shapeCasts_S1x1600000_S1600000)
      (constantI S_ 32 0#32) pads_S1600000_S1601536_015360 h_S_ := by
  rw [V8_of m c main_v4 (by decide), V7_of m c main_v4 (by decide), V6_of m c main_v4 (by decide),
    V5_of m c main_v4 (by decide), V4_of m c main_v4 (by decide), V3_of m c main_v4 (by decide)]
  dsimp only [V2, V1, V0, hostOps0_1, hostOps0]
  after_results
  rfl

/-- Row 1 of the index array, flattened, survives the first pad's stretch and the second constant's. -/
theorem v3_eq (c : Dev nD) : (V3 m c main_v3 : IVec S1600000 32) =
    shapeCast S1600000 (extractStridedSlice S1x1600000 ![1, 0] (argE m c) slices_S2x1600000_S1x1600000_1_0) shapeCasts_S1x1600000_S1600000 := by
  rw [V3_of m c main_v3 (by decide), V2_of m c main_v3 (by decide)]
  dsimp only [V1, V0, hostOps0]
  after_results
  rfl

/-- The neighbour indices: row 1 of the index array, flattened, padded with the zero word. -/
theorem v5_eq (c : Dev nD) : (V8 m c main_v5 : IVec S1601536 32) =
    pad S1601536 ![0] ![1536] ![0]
      (shapeCast S1600000 (extractStridedSlice S1x1600000 ![1, 0] (argE m c) slices_S2x1600000_S1x1600000_1_0) shapeCasts_S1x1600000_S1600000)
      (constantI S_ 32 0#32) pads_S1600000_S1601536_015360 h_S_ := by
  rw [V8_of m c main_v5 (by decide), V7_of m c main_v5 (by decide), V6_of m c main_v5 (by decide),
    V5_of m c main_v5 (by decide), ← v3_eq m c]
  dsimp only [V4, V3, hostOps0_3, hostOps0_2]
  after_results
  rfl

/-- The weights reach the third pad as launched. -/
theorem w4_eq (c : Dev nD) : (V4 m c main_arg1 : FVec Ideal S1600000 .f32) = argW m c :=
  (V4_of m c main_arg1 (by decide)).trans <| (V3_of m c main_arg1 (by decide)).trans <|
    (V2_of m c main_arg1 (by decide)).trans <| (V1_of m c main_arg1 (by decide)).trans rfl

/-- The weights padded with the zero of f32. -/
theorem v6_eq (c : Dev nD) : (V8 m c main_v6 : FVec Ideal S1601536 .f32) =
    pad S1601536 ![0] ![1536] ![0] (argW m c) (constant (F := Ideal) S_ .f32 0x00000000#32)
      pads_S1600000_S1601536_015360 h_S_ := by
  rw [V8_of m c main_v6 (by decide), V7_of m c main_v6 (by decide), ← w4_eq m c]
  dsimp only [V6, V5, hostOps0_5, hostOps0_4]
  after_results
  rfl

/-- The table reaches the concatenation as launched. -/
theorem u6_eq (c : Dev nD) : (V6 m c main_arg0 : FVec Ideal S100000x32 .f32) = argU m c :=
  (V6_of m c main_arg0 (by decide)).trans <| (V5_of m c main_arg0 (by decide)).trans <|
    (V4_of m c main_arg0 (by decide)).trans <| (V3_of m c main_arg0 (by decide)).trans <|
    (V2_of m c main_arg0 (by decide)).trans <| (V1_of m c main_arg0 (by decide)).trans rfl

/-- The table with a column of the constant one appended, padded with rows of the zero of f32. -/
theorem v9_eq (c : Dev nD) : (V8 m c main_v9 : FVec Ideal S100352x33 .f32) =
    pad S100352x33 ![0, 0] ![352, 0] ![0, 0]
      (concatenate S100000x33 1
        [⟨S100000x32, argU m c⟩,
         ⟨S100000x1, broadcastInDim S100000x1 ![] bcast_S_S100000x1 (constant (F := Ideal) S_ .f32 0x3F800000#32)⟩]
        concatenates_S100000x32_S100000x1_S100000x33_d1)
      (constant (F := Ideal) S_ .f32 0x00000000#32) pads_S100000x33_S100352x33_03520_000 h_S_ := by
  rw [← u6_eq m c]
  dsimp only [V8, V7, hostOps0_7, hostOps0_6]
  after_results
  rfl

/-! ## The padded arrays at an index -/

/-- A flattened row of the index array at `e` is the array at that row and column `e`. -/
theorem rowVec_apply (ei : IVec S2x1600000 32) (r : Fin 2) (h : S2x1600000.Slices ![r.val, 0] S1x1600000) (e : Fin 1600000) :
    shapeCast S1600000 (extractStridedSlice S1x1600000 ![r.val, 0] ei h) shapeCasts_S1x1600000_S1600000 (ix1 e)
      = ei (ix2 r e) := by
  refine (shapeCast_apply _ _ (ix1 e) (ix2 (0 : Fin 1) e) (by
    rw [Shape.rowMajor_val_two, Shape.rowMajor_val_one]; show 0 * 1600000 + e.val = e.val; omega)).trans ?_
  exact extractStridedSlice_apply _ _ _ (ix2 (0 : Fin 1) e) (ix2 r e) (fun a => match a with
    | ⟨0, _⟩ => by show r.val = r.val + 0; omega
    | ⟨1, _⟩ => by show e.val = 0 + e.val; omega)

/-- A rank-1 pad by 1536 at the high end, read at `e`: the operand below its length, the padding value from there on. -/
theorem pad1_apply {α : Type} (x : S1600000.Idx → α) (v : S_.Idx → α) (e : Fin 1601536) :
    pad S1601536 ![0] ![1536] ![0] x v pads_S1600000_S1601536_015360 h_S_ (ix1 e)
      = if h : e.val < 1600000 then x (ix1 ⟨e.val, h⟩) else v ix0 := by
  by_cases h : e.val < 1600000
  · rw [dif_pos h]
    exact pad_apply_of_inside _ _ _ x v _ _ (ix1 e) (ix1 ⟨e.val, h⟩) (fun a => match a with
      | ⟨0, _⟩ => by show e.val = 0 + e.val * (0 + 1); omega)
  · rw [dif_neg h, pad_apply_of_not_inside _ _ _ x v _ _ (ix1 e) (0 : Fin 1) (by
      show ¬(0 ≤ e.val ∧ (e.val - 0) % (0 + 1) = 0 ∧ (e.val - 0) / (0 + 1) < 1600000); omega)]
    exact congrArg v (eq_ix0 _)

theorem rowP_eq (c : Dev nD) (e : Fin 1601536) : (V8 m c main_v4 : IVec S1601536 32) (ix1 e) = rowP (argE m c) e := by
  rw [v4_eq, pad1_apply]
  unfold rowP
  by_cases h : e.val < 1600000
  · rw [dif_pos h, dif_pos h]
    exact rowVec_apply (argE m c) 0 slices_S2x1600000_S1x1600000_0_0 ⟨e.val, h⟩
  · rw [dif_neg h, dif_neg h]; rfl

theorem colP_eq (c : Dev nD) (e : Fin 1601536) : (V8 m c main_v5 : IVec S1601536 32) (ix1 e) = colP (argE m c) e := by
  rw [v5_eq, pad1_apply]
  unfold colP
  by_cases h : e.val < 1600000
  · rw [dif_pos h, dif_pos h]
    exact rowVec_apply (argE m c) 1 slices_S2x1600000_S1x1600000_1_0 ⟨e.val, h⟩
  · rw [dif_neg h, dif_neg h]; rfl

theorem wP_eq (c : Dev nD) (e : Fin 1601536) : (V8 m c main_v6 : FVec Ideal S1601536 .f32) (ix1 e) = wP (argW m c) e := by
  rw [v6_eq, pad1_apply]
  unfold wP
  by_cases h : e.val < 1600000
  · rw [dif_pos h, dif_pos h]
  · rw [dif_neg h, dif_neg h, constant_apply]; exact Ideal.ofBits_zero_f32

theorem uAugP_eq (c : Dev nD) (n : Fin 100352) (k : Fin 33) :
    (V8 m c main_v9 : FVec Ideal S100352x33 .f32) (ix2 n k) = uAugP (argU m c) n k := by
  rw [v9_eq]
  unfold uAugP
  by_cases hn : n.val < 100000
  · rw [dif_pos hn]
    refine (pad_apply_of_inside _ _ _ _ _ _ _ (ix2 n k) (ix2 (⟨n.val, hn⟩ : Fin 100000) k) (fun a => match a with
      | ⟨0, _⟩ => by show n.val = 0 + n.val * (0 + 1); omega
      | ⟨1, _⟩ => by show k.val = 0 + k.val * (0 + 1); omega)).trans ?_
    by_cases hc : k.val < 32
    · rw [dif_pos hc]
      exact concatenate_pair_apply_left (t := S100000x33) (s₁ := S100000x32) (s₂ := S100000x1) (1 : Fin 2) _ _ _ (ix2 (⟨n.val, hn⟩ : Fin 100000) k) rfl
        (ix2 (⟨n.val, hn⟩ : Fin 100000) (⟨k.val, hc⟩ : Fin 32)) (fun b => match b with
          | ⟨0, _⟩ => rfl
          | ⟨1, _⟩ => rfl)
    · rw [dif_neg hc]
      refine (concatenate_pair_apply_right (t := S100000x33) (s₁ := S100000x32) (s₂ := S100000x1) (1 : Fin 2) _ _ _ (ix2 (⟨n.val, hn⟩ : Fin 100000) k) rfl rfl
        (ix2 (⟨n.val, hn⟩ : Fin 100000) (0 : Fin 1)) (fun b hb => match b, hb with
          | ⟨0, _⟩, _ => rfl
          | ⟨1, _⟩, hb => absurd rfl hb) (by show 0 + 32 = k.val; omega)).trans ?_
      rw [broadcastInDim_scalar_apply, constant_apply, one_word]
  · rw [dif_neg hn, pad_apply_of_not_inside _ _ _ _ _ _ _ (ix2 n k) (0 : Fin 2) (by
      show ¬(0 ≤ n.val ∧ (n.val - 0) % (0 + 1) = 0 ∧ (n.val - 0) / (0 + 1) < 100000); omega)]
    exact Ideal.ofBits_zero_f32

/-! ## The final slice -/

/-- The final slice over any contents: the result at `(n, f)` is the second kernel's output at `(n, f)`. -/
theorem result_eq' (X : Valuation τ sig (Elt Ideal)) (n : Fin 100000) (f : Fin 32) :
    ((StableHlo.after (hostOps2 (F := Ideal)) X) main_v12 : FVec Ideal S100000x32 .f32) (ix2 n f)
      = (X main_v11 : FVec Ideal S100352x32 .f32) (ix2 ⟨n.val, by omega⟩ f) := by
  have e : ((StableHlo.after (hostOps2 (F := Ideal)) X) main_v12 : FVec Ideal S100000x32 .f32)
      = extractStridedSlice S100000x32 ![0, 0] (X main_v11 : FVec Ideal S100352x32 .f32) slices_S100352x32_S100000x32_0_0 := by
    dsimp only [hostOps2]
    after_results
  rw [e]
  exact extractStridedSlice_apply _ _ _ (ix2 n f) (ix2 (⟨n.val, by omega⟩ : Fin 100352) f) (fun a => match a with
    | ⟨0, _⟩ => by show n.val = 0 + n.val; omega
    | ⟨1, _⟩ => by show f.val = 0 + f.val; omega)

theorem result_eq (outs : Outs (F := Ideal)) (c : Dev nD) (n : Fin 100000) (f : Fin 32) :
    (V11 m outs c main_v12 : FVec Ideal S100000x32 .f32) (ix2 n f)
      = (outs 10 main_v11 c : FVec Ideal S100352x32 .f32) (ix2 ⟨n.val, by omega⟩ f) := by
  refine (result_eq' (V10 m outs c) n f).trans ?_
  show (Function.update (V9 m outs c) (Proc.devRef .tc main_v11) (outs 10 main_v11 c) (Proc.devRef .tc main_v11)
    : FVec Ideal S100352x32 .f32) _ = _
  rw [Function.update_self]

end Cert.KernelIdeal.HostValue
end
-- ==== Proof.KI.Gather.Payload.lean ====
/-
  The three values the first pass stores, read at an index where every float is an extended real.

  The reset value is the zero vector. The accumulation step adds to the old accumulator, at row `k` and column `c`,
  the sum over the 2048 rows `q` of the table block of a 0/1 factor times the block's entry `(q, c)`; the factor is 1
  exactly where row `k`'s index word is the node id `2048 · b + q` of row `q` in block `b` (the lane number plus the
  block offset, one 32-bit word: the equation holds modulo 2^32, so no range condition enters). The scaling step
  multiplies row `k` of the accumulator by the row's weight. Last, the double sum over 49 blocks of 2048 rows is the
  single sum over the 100352 rows.
-/
import proofs.«412493_j88510686036697_1_alg».proof.Proof.Gen.KernelIdeal.Skeleton
import proofs.«412493_j88510686036697_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Gather

open Cert.KernelIdeal Cert.KernelIdeal.Gen Cert.Spec Idealize.ShloMosaic Idealize.ShloMosaic.ValueIdx

/-! ## Two keepdims layout steps read at an index -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reset value and the scaling step -/

theorem pay1_apply (j : S4096x33.Idx) : k0_pay1 (F := Ideal) j = 0 := by
  unfold k0_pay1
  rw [shapeCast_self]
  exact Ideal.ofBits_zero_f32

theorem pay3_apply (wblk : Vec Ideal S4096 .f32) (acc : Vec Ideal S4096x33 .f32) (k : Fin 4096) (c : Fin 33) :
    k0_pay3 (F := Ideal) wblk acc (ix2 k c) = acc (ix2 k c) * wblk (ix1 k) := by
  unfold k0_pay3
  rw [shapeCast_self, mulf_apply]
  refine congrArg (acc (ix2 k c) * ·) ?_
  exact (broadcastTo_a1_ab_apply _ _ k c).trans (shapeCast_a_a1_apply _ _ k 0)

/-! ## Forty-nine blocks of 2048 rows -/

/-- 49 blocks of 2048 are the 100352 rows. -/
theorem sum_blocks (g : ℕ → EReal) : ∑ j : Fin 49, ∑ q : Fin 2048, g (2048 * j.val + q.val) = ∑ n : Fin 100352, g n.val := by
  rw [← Fintype.sum_prod_type (f := fun p : Fin 49 × Fin 2048 => g (2048 * p.1.val + p.2.val))]
  exact Fintype.sum_equiv ((finProdFinEquiv (m := 49) (n := 2048)).trans (finCongr (by norm_num)))
    _ _ fun p => congrArg g (Nat.add_comm _ _)

/-! ## The accumulation step: the word side -/

/-- The converted compare bit: 1 where the two words agree, 0 elsewhere. -/
theorem sitofp_bit (x y : BitVec 32) :
    FloatOps.sitofp (F := Ideal) .f32 ((IntOp.cmpi .eq x y).setWidth 32) = if x = y then 1 else 0 := by
  show ((((IntOp.cmpi .eq x y).setWidth 32).toInt : ℝ) : EReal) = _
  by_cases h : x = y
  · have hb : IntOp.cmpi .eq x y = 1#1 := by simp [IntOp.cmpi, h]
    have h1 : ((1#1 : BitVec 1).setWidth 32).toInt = 1 := by decide
    rw [hb, if_pos h, h1]; simp
  · have hb : IntOp.cmpi .eq x y = 0#1 := by
      rw [show IntOp.cmpi .eq x y = BitVec.ofBool (x == y) from rfl, beq_eq_false_iff_ne.mpr h]; rfl
    have h0 : ((0#1 : BitVec 1).setWidth 32).toInt = 0 := by decide
    rw [hb, if_neg h, h0]; simp

/-- The node id of column `q` in block `n`: the lane number plus the block's offset, as one word. -/
theorem node_word (n q : ℕ) :
    IntOp.addi (BitVec.ofNat 32 (0 * 2048 + q)) (Scalar.muli (BitVec.ofNat 32 n) 2048#32) = BitVec.ofNat 32 (2048 * n + q) := by
  show BitVec.ofNat 32 (0 * 2048 + q) + BitVec.ofNat 32 n * BitVec.ofNat 32 2048 = _
  rw [Nat.zero_mul, Nat.zero_add, ← BitVec.ofNat_mul, ← BitVec.ofNat_add, Nat.add_comm, Nat.mul_comm]

/-! ## The accumulation step: the product's operand indices -/

theorem lhs_axis0 (j : S4096x33.Idx) (kk : dot_S4096x2048_S2048x33_S4096x33_1_0_0_1_n_n.contr.Idx) :
    (dot_S4096x2048_S2048x33_S4096x33_1_0_0_1_n_n.lhsIdx j kk 0 : ℕ) = j 0 := by
  simp [DotDims.lhsIdx, dot_S4096x2048_S2048x33_S4096x33_1_0_0_1_n_n]; rfl
theorem lhs_axis1 (j : S4096x33.Idx) (kk : dot_S4096x2048_S2048x33_S4096x33_1_0_0_1_n_n.contr.Idx) :
    (dot_S4096x2048_S2048x33_S4096x33_1_0_0_1_n_n.lhsIdx j kk 1 : ℕ) = kk ⟨0, by decide⟩ := by
  simp [DotDims.lhsIdx, dot_S4096x2048_S2048x33_S4096x33_1_0_0_1_n_n]; rfl
theorem rhs_axis0 (j : S4096x33.Idx) (kk : dot_S4096x2048_S2048x33_S4096x33_1_0_0_1_n_n.contr.Idx) :
    (dot_S4096x2048_S2048x33_S4096x33_1_0_0_1_n_n.rhsIdx j kk 0 : ℕ) = kk ⟨0, by decide⟩ := by
  simp [DotDims.rhsIdx, dot_S4096x2048_S2048x33_S4096x33_1_0_0_1_n_n]; rfl
theorem rhs_axis1 (j : S4096x33.Idx) (kk : dot_S4096x2048_S2048x33_S4096x33_1_0_0_1_n_n.contr.Idx) :
    (dot_S4096x2048_S2048x33_S4096x33_1_0_0_1_n_n.rhsIdx j kk 1 : ℕ) = j 1 := by
  simp [DotDims.rhsIdx, dot_S4096x2048_S2048x33_S4096x33_1_0_0_1_n_n]; rfl

/-- The contraction index of the product is a number below 2048. -/
abbrev contrE : dot_S4096x2048_S2048x33_S4096x33_1_0_0_1_n_n.contr.Idx ≃ Fin 2048 :=
  contrEquiv1 dot_S4096x2048_S2048x33_S4096x33_1_0_0_1_n_n 2048 rfl rfl

theorem lhsIdx_eq (k : Fin 4096) (c : Fin 33) (q : Fin 2048) :
    dot_S4096x2048_S2048x33_S4096x33_1_0_0_1_n_n.lhsIdx (ix2 k c) (contrE.symm q) = ix2 k q := by
  funext a
  match a with
  | ⟨0, _⟩ => exact Fin.ext (lhs_axis0 _ _)
  | ⟨1, _⟩ => exact Fin.ext ((lhs_axis1 _ _).trans (contrEquiv1_symm_val _ 2048 rfl rfl q))

theorem rhsIdx_eq (k : Fin 4096) (c : Fin 33) (q : Fin 2048) :
    dot_S4096x2048_S2048x33_S4096x33_1_0_0_1_n_n.rhsIdx (ix2 k c) (contrE.symm q) = ix2 q c := by
  funext a
  match a with
  | ⟨0, _⟩ => exact Fin.ext ((rhs_axis0 _ _).trans (contrEquiv1_symm_val _ 2048 rfl rfl q))
  | ⟨1, _⟩ => exact Fin.ext (rhs_axis1 _ _)

/-! ## The accumulation step -/

theorem pay2_apply (i : grid0.Coords) (colblk : Vec Ideal S4096 .i32) (ublk : Vec Ideal S2048x33 .f32) (acc : Vec Ideal S4096x33 .f32) (k : Fin 4096) (c : Fin 33) :
    k0_pay2 (F := Ideal) i colblk ublk acc (ix2 k c)
      = acc (ix2 k c) + ∑ q : Fin 2048, hit (colblk (ix1 k)) (2048 * (i 1).val + q.val) * ublk (ix2 q c) := by
  unfold k0_pay2
  simp only [shapeCast_self]
  rw [addf_apply]
  refine congrArg (acc (ix2 k c) + ·) ?_
  refine (Ideal.matmul_constant_zero_apply _ none _ _ (ix2 k c)).trans ?_
  rw [← Equiv.sum_comp contrE.symm]
  refine Finset.sum_congr rfl fun q _ => ?_
  rw [lhsIdx_eq, rhsIdx_eq]
  refine congrArg₂ (· * ·) ?_ rfl
  rw [truncf_apply, sitofp_apply, extui_apply]
  have hx : broadcastTo S4096x2048 (shapeCast S4096x1 colblk shapeCasts_S4096_S4096x1) broadcasts_S4096x1_S4096x2048 (ix2 k q)
      = colblk (ix1 k) :=
    (broadcastTo_a1_ab_apply _ _ k q).trans (shapeCast_a_a1_apply _ _ k 0)
  show FloatOps.sitofp (F := Ideal) .f32 ((IntOp.cmpi .eq
      (broadcastTo S4096x2048 (shapeCast S4096x1 colblk shapeCasts_S4096_S4096x1) broadcasts_S4096x1_S4096x2048 (ix2 k q))
      (IntOp.addi (BitVec.ofNat 32 (0 * 2048 + q.val)) (Scalar.muli (BitVec.ofNat 32 (i 1).val) 2048#32))).setWidth 32) = _
  rw [hx, node_word, sitofp_bit]
  rfl

end Cert.KernelIdeal.Gather

end
-- ==== Proof.KI.Gather.Value.lean ====
/-
  What the first pass leaves in its result array, in closed form, at the buffer contents the region is entered with.

  A point of the 391 × 49 grid is t = 49·i + j: edge block i (4096 edges) against node block j (2048 rows of the padded
  table). Its coordinates and the four windows' block indices are t / 49 and t % 49, by arithmetic on the row-major
  numbering (no enumeration of the grid). Through them each input block is read off its array: the index words and the
  weights of edge block i at edge 4096·i + q, the table block j at row 2048·j + p. The accumulator after point 49·i + j
  is then, at row q, the sum over the node blocks 0 … j of the selecting sums for edge 4096·i + q — by induction on the
  point from the two step equations (reset at j = 0, one more block at every other point) —, at j = 48 the sum over all
  100352 rows; the point j = 48 scales it by the edge's weight into the output block, which is block i of the closed
  form; and those blocks cover the array (row r lies in the block of point 49·(r / 4096) + 48).
-/
import proofs.«412493_j88510686036697_1_alg».proof.Proof.KI.Gather.Payload
import proofs.«412493_j88510686036697_1_alg».proof.Proof.KI.Gather.Frame
import Idealize.ShloMosaic.Lib.Pipeline.Value
import Idealize.ShloMosaic.Lib.ValueIdx

set_option maxRecDepth 16384

noncomputable section

open scoped BigOperators

namespace Cert.KernelIdeal.Gather

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

namespace Arr

/-! ## The grid's coordinates and the windows' block indices, in closed form -/

section Closed

theorem N_eq : cfg0.N = 19159 := N_0

/-- The point's second coordinate is its number modulo 49, -/
theorem coord1 (t : Fin cfg0.N) : ((grid0.coords t) 1).val = t.val % 49 := by
  show t.val / grid0.stride 1 % 49 = _
  rw [show grid0.stride 1 = 1 from by decide, Nat.div_one]

/-- and its first the quotient by 49. -/
theorem coord0 (t : Fin cfg0.N) : ((grid0.coords t) 0).val = t.val / 49 := by
  show t.val / grid0.stride 0 % 391 = _
  rw [show grid0.stride 0 = 49 from by decide]
  have hN := N_eq; have := t.isLt
  exact Nat.mod_eq_of_lt (by omega)

theorem index0_0 (t : Fin cfg0.N) : win0_0.index t 0 = t.val / 49 := by
  show (BitVec.ofNat 32 ((grid0.coords t) 0).val).toNat = _
  rw [BitVec.toNat_ofNat, coord0 t]
  have hN := N_eq; have := t.isLt
  exact Nat.mod_eq_of_lt (by omega)

theorem index1_0 (t : Fin cfg0.N) : win0_1.index t 0 = t.val / 49 := by
  show (BitVec.ofNat 32 ((grid0.coords t) 0).val).toNat = _
  rw [BitVec.toNat_ofNat, coord0 t]
  have hN := N_eq; have := t.isLt
  exact Nat.mod_eq_of_lt (by omega)

theorem index2_0 (t : Fin cfg0.N) : win0_2.index t 0 = t.val % 49 := by
  show (BitVec.ofNat 32 ((grid0.coords t) 1).val).toNat = _
  rw [BitVec.toNat_ofNat, coord1 t]
  exact Nat.mod_eq_of_lt (by omega)

theorem index2_1 (t : Fin cfg0.N) : win0_2.index t 1 = 0 := rfl

theorem index3_0 (t : Fin cfg0.N) : win0_3.index t 0 = t.val / 49 := by
  show (BitVec.ofNat 32 ((grid0.coords t) 0).val).toNat = _
  rw [BitVec.toNat_ofNat, coord0 t]
  have hN := N_eq; have := t.isLt
  exact Nat.mod_eq_of_lt (by omega)

theorem index3_1 (t : Fin cfg0.N) : win0_3.index t 1 = 0 := rfl

end Closed

/-! ## The input blocks read at an index through their arrays -/

section Blocks

variable (V : (c : Dev nD) → (b : Ref sig .tc) → Buf (Elt Ideal) ((c : Thread nD τ).loc b)) (c : Dev nD)
variable (CP : Fin 1601536 → BitVec 32) (WP : Fin 1601536 → EReal) (UP : Fin 100352 → Fin 33 → EReal)

/-- The table's rows continued by zero past the last one: a row number needs no bound. -/
def UPn (n : ℕ) (k : Fin 33) : EReal := if h : n < 100352 then UP ⟨n, h⟩ k else 0

theorem iblk0_apply (hC : ∀ e, (V c main_v5 : IVec S1601536 32) (ix1 e) = CP e)
    (t : Fin cfg0.N) (q : Fin 4096) (e : Fin 1601536) (he : e.val = 4096 * (t.val / 49) + q.val) :
    (iblk V c 0 t : Vec Ideal S4096 .i32) (ix1 q) = CP e := by
  rw [← hC e]
  unfold iblk
  rw [View.read_apply]
  show (V c main_v5 : IVec S1601536 32) (((cfg0.win 0).blk t).view.emb (ix1 q)) = (V c main_v5 : IVec S1601536 32) (ix1 e)
  congr 1
  funext a
  apply Fin.ext
  match a with
  | ⟨0, _⟩ => show win0_0.index t 0 * 4096 + 1 * q.val = e.val; rw [index0_0 t, he]; omega

theorem iblk1_apply (hW : ∀ e, (V c main_v6 : FVec Ideal S1601536 .f32) (ix1 e) = WP e)
    (t : Fin cfg0.N) (q : Fin 4096) (e : Fin 1601536) (he : e.val = 4096 * (t.val / 49) + q.val) :
    (iblk V c 1 t : Vec Ideal S4096 .f32) (ix1 q) = WP e := by
  rw [← hW e]
  unfold iblk
  rw [View.read_apply]
  show (V c main_v6 : FVec Ideal S1601536 .f32) (((cfg0.win 1).blk t).view.emb (ix1 q)) = (V c main_v6 : FVec Ideal S1601536 .f32) (ix1 e)
  congr 1
  funext a
  apply Fin.ext
  match a with
  | ⟨0, _⟩ => show win0_1.index t 0 * 4096 + 1 * q.val = e.val; rw [index1_0 t, he]; omega

theorem iblk2_apply (hU : ∀ n k, (V c main_v9 : FVec Ideal S100352x33 .f32) (ix2 n k) = UP n k)
    (t : Fin cfg0.N) (p : Fin 2048) (k : Fin 33) :
    (iblk V c 2 t : Vec Ideal S2048x33 .f32) (ix2 p k) = UPn UP (2048 * (t.val % 49) + p.val) k := by
  have hlt : 2048 * (t.val % 49) + p.val < 100352 := by have := p.isLt; omega
  rw [UPn, dif_pos hlt, ← hU]
  unfold iblk
  rw [View.read_apply]
  show (V c main_v9 : FVec Ideal S100352x33 .f32) (((cfg0.win 2).blk t).view.emb (ix2 p k))
    = (V c main_v9 : FVec Ideal S100352x33 .f32) (ix2 ⟨2048 * (t.val % 49) + p.val, hlt⟩ k)
  congr 1
  funext a
  apply Fin.ext
  match a with
  | ⟨0, _⟩ => show win0_2.index t 0 * 2048 + 1 * p.val = 2048 * (t.val % 49) + p.val; rw [index2_0 t]; omega
  | ⟨1, _⟩ => show win0_2.index t 1 * 33 + 1 * k.val = k.val; rw [index2_1 t]; omega

end Blocks

/-! ## The accumulator after each point -/

section Acc

variable (V : (c : Dev nD) → (b : Ref sig .tc) → Buf (Elt Ideal) ((c : Thread nD τ).loc b)) (c : Dev nD)
variable (CP : Fin 1601536 → BitVec 32) (WP : Fin 1601536 → EReal) (UP : Fin 100352 → Fin 33 → EReal)

/-- One accumulation step at point `t`, read at row `q` and column `k`: the old value plus node block
    `t % 49`'s share of the selecting sum for edge `4096 · (t / 49) + q`. -/
theorem step_apply (hC : ∀ e, (V c main_v5 : IVec S1601536 32) (ix1 e) = CP e)
    (hU : ∀ n k, (V c main_v9 : FVec Ideal S100352x33 .f32) (ix2 n k) = UP n k)
    (t : Fin cfg0.N) (acc : Vec Ideal S4096x33 .f32) (q : Fin 4096) (k : Fin 33) (e : Fin 1601536)
    (he : e.val = 4096 * (t.val / 49) + q.val) :
    k0_pay2 (F := Ideal) (grid0.coords t) (iblk V c 0 t) (iblk V c 2 t) acc (ix2 q k)
      = acc (ix2 q k) + ∑ p : Fin 2048, hit (CP e) (2048 * (t.val % 49) + p.val) * UPn UP (2048 * (t.val % 49) + p.val) k := by
  refine (pay2_apply (grid0.coords t) (iblk V c 0 t) (iblk V c 2 t) acc q k).trans ?_
  refine congrArg (acc (ix2 q k) + ·) (Finset.sum_congr rfl fun p _ => ?_)
  rw [coord1 t]
  exact congrArg₂ (· * ·) (congrArg (hit · _) (iblk0_apply V c CP hC t q e he)) (iblk2_apply V c UP hU t p k)

/-- After point `n` the accumulator holds, at row `q`, the selecting sum over the node blocks `0 … n % 49` for
    edge `4096 · (n / 49) + q`: reset and first block at the multiples of 49, one more block at every other point. -/
theorem acc_closed (hC : ∀ e, (V c main_v5 : IVec S1601536 32) (ix1 e) = CP e)
    (hU : ∀ n k, (V c main_v9 : FVec Ideal S100352x33 .f32) (ix2 n k) = UP n k) :
    ∀ (n : ℕ) (h : n < cfg0.N) (q : Fin 4096) (k : Fin 33) (e : Fin 1601536), e.val = 4096 * (n / 49) + q.val →
      (outsAt V c n h).2 (ix2 q k)
        = ∑ j ∈ Finset.range (n % 49 + 1), ∑ p : Fin 2048, hit (CP e) (2048 * j + p.val) * UPn UP (2048 * j + p.val) k := by
  intro n
  induction n using Nat.strong_induction_on with
  | _ n ih =>
    intro h q k e he
    by_cases h0 : n % 49 = 0
    · refine (congrFun (acc_first V c ⟨n, h⟩ h0) (ix2 q k)).trans ?_
      refine (step_apply V c CP UP hC hU ⟨n, h⟩ (k0_pay1 (F := Ideal)) q k e he).trans ?_
      rw [pay1_apply, zero_add]
      show ∑ p : Fin 2048, hit (CP e) (2048 * (n % 49) + p.val) * UPn UP (2048 * (n % 49) + p.val) k = _
      rw [h0, Finset.sum_range_one]
    · have hlt : n - 1 < cfg0.N := Nat.lt_of_le_of_lt (Nat.sub_le _ _) h
      refine (congrFun (acc_next V c ⟨n, h⟩ h0) (ix2 q k)).trans ?_
      refine (step_apply V c CP UP hC hU ⟨n, h⟩ (outsAt V c (n - 1) hlt).2 q k e he).trans ?_
      rw [ih (n - 1) (by omega) hlt q k e (by omega)]
      show _ + ∑ p : Fin 2048, hit (CP e) (2048 * (n % 49) + p.val) * UPn UP (2048 * (n % 49) + p.val) k = _
      rw [show (n - 1) % 49 + 1 = n % 49 from by omega, Finset.sum_range_succ]

end Acc

/-! ## The flushed block, and the array -/

section Array

variable (V : (c : Dev nD) → (b : Ref sig .tc) → Buf (Elt Ideal) ((c : Thread nD τ).loc b)) (c : Dev nD)
variable (CP : Fin 1601536 → BitVec 32) (WP : Fin 1601536 → EReal) (UP : Fin 100352 → Fin 33 → EReal)

/-- The first pass's result in closed form, as an array: row `e` is the selecting sum for edge `e` times its weight. -/
def G : S1601536x33.Idx → EReal := fun i =>
  (∑ n : Fin 100352, hit (CP ⟨(i 0).val, idx2_lt0 i⟩) n.val * UP n ⟨(i 1).val, idx2_lt1 i⟩) * WP ⟨(i 0).val, idx2_lt0 i⟩

theorem G_ix2 (e : Fin 1601536) (k : Fin 33) :
    G CP WP UP (ix2 e k) = (∑ n : Fin 100352, hit (CP e) n.val * UP n k) * WP e := rfl

/-- The 49 block sums are the sum over all 100352 rows. -/
theorem blocks_total (x : BitVec 32) (k : Fin 33) :
    (∑ j ∈ Finset.range 49, ∑ p : Fin 2048, hit x (2048 * j + p.val) * UPn UP (2048 * j + p.val) k)
      = ∑ n : Fin 100352, hit x n.val * UP n k := by
  rw [Finset.sum_range fun j => ∑ p : Fin 2048, hit x (2048 * j + p.val) * UPn UP (2048 * j + p.val) k]
  refine (sum_blocks fun n => hit x n * UPn UP n k).trans (Finset.sum_congr rfl fun n _ => ?_)
  show hit x n.val * UPn UP n.val k = _
  rw [UPn, dif_pos n.isLt]

/-- What a last-node-block point writes back, read at row `q` and column `k`. -/
theorem flushed_apply (hC : ∀ e, (V c main_v5 : IVec S1601536 32) (ix1 e) = CP e)
    (hW : ∀ e, (V c main_v6 : FVec Ideal S1601536 .f32) (ix1 e) = WP e)
    (hU : ∀ n k, (V c main_v9 : FVec Ideal S100352x33 .f32) (ix2 n k) = UP n k)
    (t : Fin cfg0.N) (ht : t.val % 49 = 48) (q : Fin 4096) (k : Fin 33) (e : Fin 1601536)
    (he : e.val = 4096 * (t.val / 49) + q.val) :
    ((dat (F := Ideal) V c).flushed 3 t : Vec Ideal S4096x33 .f32) (ix2 q k)
      = (∑ n : Fin 100352, hit (CP e) n.val * UP n k) * WP e := by
  show ((dat (F := Ideal) V c).after 3 t : Vec Ideal S4096x33 .f32) (ix2 q k) = _
  rw [after_3 V c t, out_last V c t ht, pay3_apply, iblk1_apply V c WP hW t q e he,
    acc_closed V c CP UP hC hU t.val t.isLt q k e he, ht, blocks_total]

/-- The same block of the closed form, read through the output window at that point. -/
theorem read_G_apply (t : Fin cfg0.N) (q : Fin 4096) (k : Fin 33) (e : Fin 1601536)
    (he : e.val = 4096 * (t.val / 49) + q.val) :
    (((cfg0.win 3).blk t).view.read (Elt Ideal) (G CP WP UP) : Vec Ideal S4096x33 .f32) (ix2 q k)
      = (∑ n : Fin 100352, hit (CP e) n.val * UP n k) * WP e := by
  rw [← G_ix2, View.read_apply]
  show G CP WP UP (((cfg0.win 3).blk t).view.emb (ix2 q k)) = G CP WP UP (ix2 e k)
  congr 1
  funext a
  apply Fin.ext
  match a with
  | ⟨0, _⟩ => show win0_3.index t 0 * 4096 + 1 * q.val = e.val; rw [index3_0 t, he]; omega
  | ⟨1, _⟩ => show win0_3.index t 1 * 33 + 1 * k.val = k.val; rw [index3_1 t]; omega

theorem flushed_eq (hC : ∀ e, (V c main_v5 : IVec S1601536 32) (ix1 e) = CP e)
    (hW : ∀ e, (V c main_v6 : FVec Ideal S1601536 .f32) (ix1 e) = WP e)
    (hU : ∀ n k, (V c main_v9 : FVec Ideal S100352x33 .f32) (ix2 n k) = UP n k)
    (t : Fin cfg0.N) (hf : (cfg0.win 3).flush t = true) :
    (dat (F := Ideal) V c).flushed 3 t = ((cfg0.win 3).blk t).view.read (Elt Ideal) (G CP WP UP) := by
  have ht : t.val % 49 = 48 := (flush0_3 t).mp hf
  have hN := N_eq
  have key : ∀ j : S4096x33.Idx, ((dat (F := Ideal) V c).flushed 3 t : Vec Ideal S4096x33 .f32) j
      = (((cfg0.win 3).blk t).view.read (Elt Ideal) (G CP WP UP) : Vec Ideal S4096x33 .f32) j := fun j => by
    obtain ⟨q, k, rfl⟩ : ∃ (q : Fin 4096) (k : Fin 33), j = ix2 q k := ⟨j 0, j 1, eq_ix2 j⟩
    have hq := q.isLt; have htl := t.isLt
    have hb : 4096 * (t.val / 49) + q.val < 1601536 := by omega
    exact (flushed_apply V c CP WP UP hC hW hU t ht q k ⟨_, hb⟩ rfl).trans
      (read_G_apply CP WP UP t q k ⟨_, hb⟩ rfl).symm
  exact funext key

/-- A row of the array lies in the block of a point whose edge block holds it. -/
theorem mem_blk3 (t : Fin cfg0.N) (i : S1601536x33.Idx) (hlo : 4096 * (t.val / 49) ≤ (i 0).val)
    (hhi : (i 0).val < 4096 * (t.val / 49) + 4096) : i ∈ ((cfg0.win 3).blk t).view.set := by
  have h1 : (i 1).val < 33 := idx2_lt1 i
  show i ∈ ((View.whole main_v10).slice (win0_3.rect t)).set
  rw [View.set_slice_whole, Rect.mem_set_unit]
  intro a
  match a with
  | ⟨0, _⟩ =>
    show win0_3.index t 0 * 4096 ≤ (i 0).val ∧ (i 0).val < win0_3.index t 0 * 4096 + 4096
    rw [index3_0 t]; omega
  | ⟨1, _⟩ =>
    show win0_3.index t 1 * 33 ≤ (i 1).val ∧ (i 1).val < win0_3.index t 1 * 33 + 33
    rw [index3_1 t]; omega

/-- Every row of the array lies in the block some last-node-block point writes back: row `r` in that of point
    `49 · (r / 4096) + 48`. -/
theorem covered (i : S1601536x33.Idx) :
    ∃ t : Fin cfg0.N, (cfg0.win 3).flush t = true ∧ i ∈ ((cfg0.win 3).blk t).view.set := by
  have h0 : (i 0).val < 1601536 := idx2_lt0 i
  have hN := N_eq
  have ht : 49 * ((i 0).val / 4096) + 48 < cfg0.N := by omega
  refine ⟨⟨49 * ((i 0).val / 4096) + 48, ht⟩, (flush0_3 _).mpr ?_, mem_blk3 _ i ?_ ?_⟩
  · show (49 * ((i 0).val / 4096) + 48) % 49 = 48
    omega
  · show 4096 * ((49 * ((i 0).val / 4096) + 48) / 49) ≤ (i 0).val
    omega
  · show (i 0).val < 4096 * ((49 * ((i 0).val / 4096) + 48) / 49) + 4096
    omega

end Array

end Arr

/-! ## The result -/

/-- The array the first pass leaves: at edge `e` and column `k`, the selecting sum over all node rows times the
    edge's weight. -/
theorem arr_closed (V : (c : Dev nD) → (b : Ref sig .tc) → Buf (Elt Ideal) ((c : Thread nD τ).loc b)) (c : Dev nD)
    (CP : Fin 1601536 → BitVec 32) (WP : Fin 1601536 → EReal) (UP : Fin 100352 → Fin 33 → EReal)
    (hC : ∀ e, (V c main_v5 : IVec S1601536 32) (ix1 e) = CP e)
    (hW : ∀ e, (V c main_v6 : FVec Ideal S1601536 .f32) (ix1 e) = WP e)
    (hU : ∀ n k, (V c main_v9 : FVec Ideal S100352x33 .f32) (ix2 n k) = UP n k)
    (e : Fin 1601536) (k : Fin 33) :
    ((dat (F := Ideal) V c).arrAt 3 cfg0.N : FVec Ideal S1601536x33 .f32) (ix2 e k) = (∑ n : Fin 100352, hit (CP e) n.val * UP n k) * WP e :=
  (congrFun ((dat (F := Ideal) V c).arrAt_eq_of_cover 3 (Arr.G CP WP UP) (Arr.flushed_eq V c CP WP UP hC hW hU) Arr.covered) (ix2 e k)).trans
    (Arr.G_ix2 CP WP UP e k)

end Cert.KernelIdeal.Gather

end
-- ==== Proof.KI.Scatter.Payload.lean ====
/-
  The three values the second kernel stores, each read at one index, at the ideal instance (floats are extended reals,
  every operation exact, a change of float format the identity).

  * The reset value is the zero vector.
  * The accumulation step adds to the old accumulator the product of a 2048 × 4096 matrix of zeros and ones with a
    4096 × 33 block: entry (r, q) of the matrix is 1 exactly when edge q's index word is the word of node
    2048 · (grid coordinate 0) + r. Read at (r, c), the step is the old accumulator there plus the sum over the 4096
    edges of the block of that indicator times the block's entry (q, c). The matrix entry is reached through a word
    comparison, a widening of its one bit to 32, a signed conversion to a float and a narrowing of the float format;
    the node word is the row number plus the product of the grid coordinate with 2048, which is the word of
    2048 · (grid coordinate 0) + r because the passage from naturals to 32-bit words respects sums and products.
  * The last value is, at (r, f) with f below 32, the accumulator's entry (r, f) minus its entry (r, 32) times the table
    block's entry (r, f).
  Last, a sum over 391 blocks of 4096 edges each is one sum over the 1601536 padded edges.
-/
import proofs.«412493_j88510686036697_1_alg».proof.Proof.Gen.KernelIdeal.Skeleton
import proofs.«412493_j88510686036697_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Scatter

open Cert.KernelIdeal Cert.KernelIdeal.Gen Cert.Spec Idealize.ShloMosaic Idealize.ShloMosaic.ValueIdx

/-! ## The reset value and the last value -/

/-- The reset value is the zero vector. -/
theorem pay1_apply (j : S2048x33.Idx) : k1_pay1 (F := Ideal) j = 0 := by
  unfold k1_pay1
  simp only [shapeCast_self]
  show Ideal.ofBits .f32 0x00000000#32 = 0
  exact Ideal.ofBits_zero_f32

/-- A column of height 2048 broadcast along 32 columns reads its one entry of the row. -/
theorem bcast_col_apply (v : FVec Ideal S2048x1 .f32) (r : Fin 2048) (f : Fin 32) :
    broadcastTo S2048x32 v broadcasts_S2048x1_S2048x32 (ix2 r f) = v (ix2 r (0 : Fin 1)) := by
  refine broadcastTo_apply v broadcasts_S2048x1_S2048x32 (ix2 r f) (ix2 r (0 : Fin 1)) fun ax => ?_
  match ax with
  | ⟨0, _⟩ =>
    show r.val = if (2048 : ℕ) = 1 then 0 else r.val
    rw [if_neg (by decide)]
  | ⟨1, _⟩ => rfl

/-- The last value at (r, f): the accumulator's entry minus its 33rd column's entry times the table block's entry. -/
theorem pay3_apply (acc : Vec Ideal S2048x33 .f32) (ublk : Vec Ideal S2048x33 .f32) (r : Fin 2048) (f : Fin 32) :
    k1_pay3 (F := Ideal) acc ublk (ix2 r f)
      = acc (ix2 r ⟨f.val, by omega⟩) - acc (ix2 r ⟨32, by omega⟩) * ublk (ix2 r ⟨f.val, by omega⟩) := by
  unfold k1_pay3
  simp only [shapeCast_self]
  rw [subf_apply, mulf_apply, bcast_col_apply]
  rw [slice2_axis1_apply 0 acc slices_S2048x33_o0_0_S2048x32 r f ⟨f.val, by omega⟩ (by simp),
    slice2_axis1_apply 0 ublk slices_S2048x33_o0_0_S2048x32 r f ⟨f.val, by omega⟩ (by simp),
    slice2_axis1_apply 32 acc slices_S2048x33_o0_32_S2048x1 r (0 : Fin 1) ⟨32, by omega⟩ (by simp)]

/-! ## The accumulation step -/

/-- The output row is the left operand's row. -/
theorem lhs_0 (i : S2048x33.Idx) (q : dot_S2048x4096_S4096x33_S2048x33_1_0_0_1_n_n.contr.Idx) :
    (dot_S2048x4096_S4096x33_S2048x33_1_0_0_1_n_n.lhsIdx i q 0).val = (i 0).val := by
  unfold DotDims.lhsIdx
  rw [dif_neg (show ¬(0 : Fin S2048x4096.rank) ∈ dot_S2048x4096_S4096x33_S2048x33_1_0_0_1_n_n.lhsBatch by decide),
    dif_pos (show (0 : Fin S2048x4096.rank) ∈ dot_S2048x4096_S4096x33_S2048x33_1_0_0_1_n_n.lhsNonContracting by decide)]
  rfl

/-- The contraction position is the left operand's column. -/
theorem lhs_1 (i : S2048x33.Idx) (q : dot_S2048x4096_S4096x33_S2048x33_1_0_0_1_n_n.contr.Idx) :
    (dot_S2048x4096_S4096x33_S2048x33_1_0_0_1_n_n.lhsIdx i q 1).val = (q ⟨0, by decide⟩).val :=
  dot_S2048x4096_S4096x33_S2048x33_1_0_0_1_n_n.lhsIdx_val_of_single rfl i q

/-- The contraction position is the right operand's row. -/
theorem rhs_0 (i : S2048x33.Idx) (q : dot_S2048x4096_S4096x33_S2048x33_1_0_0_1_n_n.contr.Idx) :
    (dot_S2048x4096_S4096x33_S2048x33_1_0_0_1_n_n.rhsIdx i q 0).val = (q ⟨0, by decide⟩).val :=
  dot_S2048x4096_S4096x33_S2048x33_1_0_0_1_n_n.rhsIdx_val_of_single rfl i q

/-- The output column is the right operand's column. -/
theorem rhs_1 (i : S2048x33.Idx) (q : dot_S2048x4096_S4096x33_S2048x33_1_0_0_1_n_n.contr.Idx) :
    (dot_S2048x4096_S4096x33_S2048x33_1_0_0_1_n_n.rhsIdx i q 1).val = (i 1).val := by
  unfold DotDims.rhsIdx
  rw [dif_neg (show ¬(1 : Fin S4096x33.rank) ∈ dot_S2048x4096_S4096x33_S2048x33_1_0_0_1_n_n.rhsBatch by decide),
    dif_pos (show (1 : Fin S4096x33.rank) ∈ dot_S2048x4096_S4096x33_S2048x33_1_0_0_1_n_n.rhsNonContracting by decide)]
  rfl

/-- The node-id word at row `r` of the block whose grid coordinate is `i0`: the row number plus `2048 · i0`, as a
    32-bit word. -/
theorem nodeword_apply (i0 : ℕ) (r : Fin 2048) (q : Fin 4096) :
    addi (iota .tc S2048x4096 32 [0] iota_S2048x4096_d0_w32)
        (broadcast S2048x4096 (Scalar.muli (BitVec.ofNat 32 i0) 2048#32)) (ix2 r q)
      = BitVec.ofNat 32 (2048 * i0 + r.val) := by
  show IntOp.addi (iota .tc S2048x4096 32 [0] iota_S2048x4096_d0_w32 (ix2 r q)) (Scalar.muli (BitVec.ofNat 32 i0) 2048#32) = _
  rw [iota_single_apply]
  show BitVec.ofNat 32 r.val + BitVec.ofNat 32 i0 * BitVec.ofNat 32 2048 = _
  rw [← BitVec.ofNat_mul, ← BitVec.ofNat_add]
  congr 1
  omega

/-- The index word of edge `q`, laid along the columns and repeated down the rows. -/
theorem rowword_apply (rowblk : IVec S4096 32) (r : Fin 2048) (q : Fin 4096) :
    broadcastTo S2048x4096 (shapeCast S1x4096 rowblk shapeCasts_S4096_S1x4096) broadcasts_S1x4096_S2048x4096 (ix2 r q)
      = rowblk (ix1 q) := by
  rw [broadcastTo_1b_ab_apply, shapeCast_a_1a_apply]

/-- The compare bit, widened and converted, is 1 where the words agree and 0 where they do not. -/
theorem sitofp_bit (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · subst h; simp
  · have hb : (x == y) = false := beq_eq_false_iff_ne.mpr h
    rw [if_neg h, hb]
    simp

/-- A word comparison of two vectors at an index compares the two words there. -/
theorem cmpi_apply {s : Shape} {w : ℕ} (p : CmpIPredicate) (x y : IVec s w) (j : s.Idx) :
    cmpi p x y j = IntOp.cmpi p (x j) (y j) := rfl

/-- The accumulation step at (r, c): the old accumulator plus the sum over the block's edges of the indicator "edge q's
    own node is node 2048 · (grid coordinate 0) + r" times the block's entry (q, c). -/
theorem pay2_apply (i : grid1.Coords) (rowblk : Vec Ideal S4096 .i32) (wcblk : Vec Ideal S4096x33 .f32)
    (acc : Vec Ideal S2048x33 .f32) (r : Fin 2048) (c : Fin 33) :
    k1_pay2 (F := Ideal) i rowblk wcblk acc (ix2 r c)
      = acc (ix2 r c) + ∑ q : Fin 4096, hit (rowblk (ix1 q)) (2048 * (i 0).val + r.val) * wcblk (ix2 q c) := by
  unfold k1_pay2
  simp only [shapeCast_self]
  rw [addf_apply]
  simp only [matmul]
  rw [Ideal.matmul_constant_zero_apply,
    ← Equiv.sum_comp (contrEquiv1 dot_S2048x4096_S4096x33_S2048x33_1_0_0_1_n_n 4096 rfl rfl).symm]
  congr 1
  refine Finset.sum_congr rfl fun q _ => ?_
  have hk := contrEquiv1_symm_val dot_S2048x4096_S4096x33_S2048x33_1_0_0_1_n_n 4096 rfl rfl q
  have el : dot_S2048x4096_S4096x33_S2048x33_1_0_0_1_n_n.lhsIdx (ix2 r c)
      ((contrEquiv1 dot_S2048x4096_S4096x33_S2048x33_1_0_0_1_n_n 4096 rfl rfl).symm q) = ix2 r q :=
    funext fun a => Fin.ext (by
      match a with
      | ⟨0, _⟩ => exact lhs_0 _ _
      | ⟨1, _⟩ => exact (lhs_1 _ _).trans hk)
  have er : dot_S2048x4096_S4096x33_S2048x33_1_0_0_1_n_n.rhsIdx (ix2 r c)
      ((contrEquiv1 dot_S2048x4096_S4096x33_S2048x33_1_0_0_1_n_n 4096 rfl rfl).symm q) = ix2 q c :=
    funext fun a => Fin.ext (by
      match a with
      | ⟨0, _⟩ => exact (rhs_0 _ _).trans hk
      | ⟨1, _⟩ => exact rhs_1 _ _)
  rw [el, er, truncf_apply, truncf_apply, sitofp_apply, extui_apply]
  rw [cmpi_apply, rowword_apply, nodeword_apply, sitofp_bit]
  rfl

/-! ## Blocks of edges -/

/-- 391 blocks of 4096 are the 1601536 padded edges. -/
theorem sum_blocks (g : ℕ → EReal) :
    ∑ j : Fin 391, ∑ q : Fin 4096, g (4096 * j.val + q.val) = ∑ e : Fin 1601536, g e.val := by
  have h : (391 * 4096 : ℕ) = 1601536 := by norm_num
  calc ∑ j : Fin 391, ∑ q : Fin 4096, g (4096 * j.val + q.val)
      = ∑ x : Fin 391 × Fin 4096, g (4096 * x.1.val + x.2.val) :=
          (Fintype.sum_prod_type (fun x : Fin 391 × Fin 4096 => g (4096 * x.1.val + x.2.val))).symm
    _ = ∑ x : Fin 391 × Fin 4096, g (finProdFinEquiv x).val := by
          refine Finset.sum_congr rfl fun x _ => ?_
          congr 1
          show 4096 * x.1.val + x.2.val = x.2.val + 4096 * x.1.val
          omega
    _ = ∑ e : Fin (391 * 4096), g e.val := Equiv.sum_comp finProdFinEquiv (fun e => g e.val)
    _ = ∑ e : Fin 1601536, g e.val := Equiv.sum_comp (finCongr h) (fun e => g e.val)

end Cert.KernelIdeal.Scatter

end
-- ==== Proof.KI.Scatter.Value.lean ====
/-
  The second pass's output array in closed form. A point of its grid is (i, j): node block i (2048 node rows) against
  edge block j (4096 padded edges); the points are walked row by row, 391 edge blocks to a node block, so point
  number t is node block t / 391 and edge block t % 391. Along a row the accumulator gains, at each point, the
  contributions of the point's edge block to the node rows of the block: after edge block j it holds the sum of the
  contributions of edge blocks 0 to j, by induction on j; at j = 390 that is the sum over all 1601536 padded edges.
  There the output block is formed: entry (r, f) is the accumulator's entry (r, f) minus its entry (r, 32) times the
  table block's entry (r, f). Every entry of the output array lies in exactly such a block, so the array ends at that
  closed form, entry by entry.
-/
import proofs.«412493_j88510686036697_1_alg».proof.Proof.KI.Scatter.Payload
import proofs.«412493_j88510686036697_1_alg».proof.Proof.KI.Scatter.Frame
import Idealize.ShloMosaic.Lib.Pipeline.Value
import Idealize.ShloMosaic.Lib.ValueIdx

set_option maxRecDepth 16384

noncomputable section

open scoped BigOperators

namespace Cert.KernelIdeal.Scatter

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

/-! ## The grid's points and the windows' block numbers -/

/-- Along the node-block axis one step is 391 points; -/
theorem stride0 : grid1.stride 0 = 391 := by decide
/-- along the edge-block axis it is one point. -/
theorem stride1 : grid1.stride 1 = 1 := by decide

/-- A point's node-block number is its position divided by 391, -/
theorem coords0_val (t : Fin cfg1.N) : ((grid1.coords t) 0).val = t.val / 391 := by
  have hN : t.val < 19159 := lt_of_lt_of_eq t.isLt N_1
  show t.val / grid1.stride 0 % grid1.bound 0 = _
  rw [stride0]
  show t.val / 391 % 49 = _
  omega

/-- and its edge-block number the remainder. -/
theorem coords1_val (t : Fin cfg1.N) : ((grid1.coords t) 1).val = t.val % 391 := by
  show t.val / grid1.stride 1 % grid1.bound 1 = _
  rw [stride1]
  show t.val / 1 % 391 = _
  omega

/-- A natural number below 2 ^ 32 is read back from its 32-bit word. -/
theorem word_toNat (x : ℕ) (h : x < 4294967296) : (BitVec.ofNat 32 x).toNat = x := by
  rw [BitVec.toNat_ofNat]; exact Nat.mod_eq_of_lt h

/-- The windows' block numbers at a point, in closed form: the edge windows move with the edge-block number, the
    table's and the output's with the node-block number; every second block number is zero. -/
theorem idx_facts : ∀ t : Fin cfg1.N,
    ((grid1.coords t) 0).val = t.val / 391
    ∧ win1_0.index t (0 : Fin 1) = t.val % 391
    ∧ win1_1.index t (0 : Fin 2) = t.val % 391 ∧ win1_1.index t (1 : Fin 2) = 0
    ∧ win1_2.index t (0 : Fin 2) = t.val / 391 ∧ win1_2.index t (1 : Fin 2) = 0
    ∧ win1_3.index t (0 : Fin 2) = t.val / 391 ∧ win1_3.index t (1 : Fin 2) = 0 := by
  intro t
  have hN : t.val < 19159 := lt_of_lt_of_eq t.isLt N_1
  have c0 := coords0_val t
  have c1 := coords1_val t
  refine ⟨c0, ?_, ?_, ?_, ?_, ?_, ?_, ?_⟩
  · show (BitVec.ofNat 32 ((grid1.coords t) 1).val).toNat = _
    rw [c1, word_toNat _ (by omega)]
  · show (BitVec.ofNat 32 ((grid1.coords t) 1).val).toNat = _
    rw [c1, word_toNat _ (by omega)]
  · rfl
  · show (BitVec.ofNat 32 ((grid1.coords t) 0).val).toNat = _
    rw [c0, word_toNat _ (by omega)]
  · rfl
  · show (BitVec.ofNat 32 ((grid1.coords t) 0).val).toNat = _
    rw [c0, word_toNat _ (by omega)]
  · rfl

/-! ## The blocks through their arrays -/

section Value

variable (V : (c : Dev nD) → (b : Ref sig .tc) → Buf (Elt Ideal) ((c : Thread nD τ).loc b))

/-- The own-node index block at a point is the stretch of 4096 edges of the padded index array that starts at
    4096 times the point's edge-block number. -/
theorem iblk0_apply (c : Dev nD) (t : Fin cfg1.N) (p : Fin 4096) (e : Fin 1601536)
    (he : e.val = 4096 * (t.val % 391) + p.val) :
    (iblk V c 0 t : IVec S4096 32) (ix1 p) = (V c main_v4 : IVec S1601536 32) (ix1 e) := by
  show V c main_v4 (((cfg1.win 0).blk t).view.emb (ix1 p)) = V c main_v4 (ix1 e)
  congr 1
  funext a
  apply Fin.ext
  match a with
  | ⟨0, _⟩ =>
    show win1_0.index t (0 : Fin 1) * 4096 + 1 * p.val = e.val
    rw [(idx_facts t).2.1, he]; omega

/-- The first pass's result block at a point: the same stretch of rows, every column. -/
theorem iblk1_apply (c : Dev nD) (t : Fin cfg1.N) (p : Fin 4096) (k : Fin 33) (e : Fin 1601536)
    (he : e.val = 4096 * (t.val % 391) + p.val) :
    (iblk V c 1 t : FVec Ideal S4096x33 .f32) (ix2 p k) = (V c main_v10 : FVec Ideal S1601536x33 .f32) (ix2 e k) := by
  show V c main_v10 (((cfg1.win 1).blk t).view.emb (ix2 p k)) = V c main_v10 (ix2 e k)
  congr 1
  funext a
  apply Fin.ext
  match a with
  | ⟨0, _⟩ =>
    show win1_1.index t (0 : Fin 2) * 4096 + 1 * p.val = e.val
    rw [(idx_facts t).2.2.1, he]; omega
  | ⟨1, _⟩ =>
    show win1_1.index t (1 : Fin 2) * 33 + 1 * k.val = k.val
    rw [(idx_facts t).2.2.2.1]; omega

/-- The table block at a point: the 2048 node rows that start at 2048 times the point's node-block number. -/
theorem iblk2_apply (c : Dev nD) (t : Fin cfg1.N) (r : Fin 2048) (k : Fin 33) (n : Fin 100352)
    (hn : n.val = 2048 * (t.val / 391) + r.val) :
    (iblk V c 2 t : FVec Ideal S2048x33 .f32) (ix2 r k) = (V c main_v9 : FVec Ideal S100352x33 .f32) (ix2 n k) := by
  show V c main_v9 (((cfg1.win 2).blk t).view.emb (ix2 r k)) = V c main_v9 (ix2 n k)
  congr 1
  funext a
  apply Fin.ext
  match a with
  | ⟨0, _⟩ =>
    show win1_2.index t (0 : Fin 2) * 2048 + 1 * r.val = n.val
    rw [(idx_facts t).2.2.2.2.1, hn]; omega
  | ⟨1, _⟩ =>
    show win1_2.index t (1 : Fin 2) * 33 + 1 * k.val = k.val
    rw [(idx_facts t).2.2.2.2.2.1]; omega

/-! ## The accumulator along a row of the grid -/

variable (RP : Fin 1601536 → BitVec 32) (WC : Fin 1601536 → Fin 33 → EReal) (UP : Fin 100352 → Fin 33 → EReal)

/-- Edge `e`'s contribution to node `n`, column `k`: the indicator that its own node is `n` times the first pass's
    entry; zero past the padded edges. -/
def term (n : ℕ) (k : Fin 33) (e : ℕ) : EReal := if h : e < 1601536 then hit (RP ⟨e, h⟩) n * WC ⟨e, h⟩ k else 0

/-- The contributions of edge block `j`, summed. -/
def blockSum (n : ℕ) (k : Fin 33) (j : ℕ) : EReal := ∑ p : Fin 4096, term RP WC n k (4096 * j + p.val)

/-- One accumulation step at a point adds the point's edge block's contributions to the node rows of the point's
    node block. -/
theorem step_apply (c : Dev nD)
    (hR : ∀ e, (V c main_v4 : IVec S1601536 32) (ix1 e) = RP e)
    (hWC : ∀ e k, (V c main_v10 : FVec Ideal S1601536x33 .f32) (ix2 e k) = WC e k)
    (t : Fin cfg1.N) (acc : Vec Ideal S2048x33 .f32) (r : Fin 2048) (k : Fin 33) :
    k1_pay2 (F := Ideal) (grid1.coords t) (iblk V c 0 t) (iblk V c 1 t) acc (ix2 r k)
      = acc (ix2 r k) + blockSum RP WC (2048 * (t.val / 391) + r.val) k (t.val % 391) := by
  refine (pay2_apply (grid1.coords t) (iblk V c 0 t) (iblk V c 1 t) acc r k).trans ?_
  rw [(idx_facts t).1]
  congr 1
  refine Finset.sum_congr rfl fun p _ => ?_
  have hm : t.val % 391 < 391 := Nat.mod_lt _ (by decide)
  have hlt : 4096 * (t.val % 391) + p.val < 1601536 := by have := p.isLt; omega
  rw [iblk0_apply V c t p ⟨_, hlt⟩ rfl, iblk1_apply V c t p k ⟨_, hlt⟩ rfl, hR, hWC]
  unfold term
  rw [dif_pos hlt]

/-- After the point at edge block `j` of node block `i` the accumulator holds, at node row `r` and column `k`, the
    contributions of edge blocks 0 to `j` to node 2048 · i + r. -/
theorem acc_closed (c : Dev nD)
    (hR : ∀ e, (V c main_v4 : IVec S1601536 32) (ix1 e) = RP e)
    (hWC : ∀ e k, (V c main_v10 : FVec Ideal S1601536x33 .f32) (ix2 e k) = WC e k)
    (i : ℕ) : ∀ j : ℕ, j < 391 → ∀ t : Fin cfg1.N, t.val = 391 * i + j → ∀ (r : Fin 2048) (k : Fin 33),
      (outsAt V c t.val t.isLt).2 (ix2 r k) = ∑ s ∈ Finset.range (j + 1), blockSum RP WC (2048 * i + r.val) k s := by
  intro j
  induction j with
  | zero =>
    intro _ t ht r k
    have hm : t.val % 391 = 0 := by omega
    have hd : t.val / 391 = i := by omega
    rw [acc_first V c t hm, step_apply V RP WC c hR hWC t, pay1_apply, zero_add, Finset.sum_range_one, hd, hm]
  | succ j ih =>
    intro hj t ht r k
    have hm : ¬ t.val % 391 = 0 := by omega
    have hmj : t.val % 391 = j + 1 := by omega
    have hd : t.val / 391 = i := by omega
    have hlt : t.val - 1 < cfg1.N := Nat.lt_of_le_of_lt (Nat.sub_le _ _) t.isLt
    rw [acc_next V c t hm, step_apply V RP WC c hR hWC t, Finset.sum_range_succ _ (j + 1), hd, hmj]
    congr 1
    exact ih (by omega) ⟨t.val - 1, hlt⟩ (by show t.val - 1 = 391 * i + j; omega) r k

/-! ## The output block and the output array -/

/-- The contributions of all padded edges to node `n`, column `k`. -/
def colSum (n : ℕ) (k : Fin 33) : EReal := ∑ e : Fin 1601536, hit (RP e) n * WC e k

/-- At the last edge block of a node block the accumulator holds every padded edge's contribution. -/
theorem acc_last (c : Dev nD)
    (hR : ∀ e, (V c main_v4 : IVec S1601536 32) (ix1 e) = RP e)
    (hWC : ∀ e k, (V c main_v10 : FVec Ideal S1601536x33 .f32) (ix2 e k) = WC e k)
    (t : Fin cfg1.N) (ht : t.val % 391 = 390) (r : Fin 2048) (k : Fin 33) (n : ℕ) (hn : n = 2048 * (t.val / 391) + r.val) :
    (outsAt V c t.val t.isLt).2 (ix2 r k) = colSum RP WC n k := by
  subst hn
  have h390 : (390 : ℕ) < 391 := by omega
  have hv : t.val = 391 * (t.val / 391) + 390 := by omega
  refine (acc_closed V RP WC c hR hWC (t.val / 391) 390 h390 t hv r k).trans ?_
  have e1 : ∑ s ∈ Finset.range (390 + 1), blockSum RP WC (2048 * (t.val / 391) + r.val) k s
      = ∑ s : Fin 391, blockSum RP WC (2048 * (t.val / 391) + r.val) k s.val :=
    Finset.sum_range (fun s => blockSum RP WC (2048 * (t.val / 391) + r.val) k s)
  have e2 : ∑ s : Fin 391, blockSum RP WC (2048 * (t.val / 391) + r.val) k s.val
      = ∑ e : Fin 1601536, term RP WC (2048 * (t.val / 391) + r.val) k e.val :=
    sum_blocks (fun e => term RP WC (2048 * (t.val / 391) + r.val) k e)
  have e3 : ∑ e : Fin 1601536, term RP WC (2048 * (t.val / 391) + r.val) k e.val
      = colSum RP WC (2048 * (t.val / 391) + r.val) k := by
    unfold colSum
    refine Finset.sum_congr rfl fun e _ => ?_
    unfold term
    rw [dif_pos e.isLt]
  exact e1.trans (e2.trans e3)

/-- What the second pass leaves at node `n`, feature `f`: the contributions to column `f` minus the contributions to the
    33rd column times the table's entry. -/
def closed (n : Fin 100352) (f : Fin 32) : EReal :=
  colSum RP WC n.val ⟨f.val, by omega⟩ - colSum RP WC n.val ⟨32, by omega⟩ * UP n ⟨f.val, by omega⟩

/-- The output block formed at the last edge block of a node block is the closed form on the block's node rows. -/
theorem out_apply (c : Dev nD)
    (hR : ∀ e, (V c main_v4 : IVec S1601536 32) (ix1 e) = RP e)
    (hWC : ∀ e k, (V c main_v10 : FVec Ideal S1601536x33 .f32) (ix2 e k) = WC e k)
    (hU : ∀ n k, (V c main_v9 : FVec Ideal S100352x33 .f32) (ix2 n k) = UP n k)
    (t : Fin cfg1.N) (ht : t.val % 391 = 390) (r : Fin 2048) (f : Fin 32) (n : Fin 100352)
    (hn : n.val = 2048 * (t.val / 391) + r.val) :
    (outsAt V c t.val t.isLt).1 (ix2 r f) = closed RP WC UP n f := by
  have e0 := congrFun (out_last V c t ht) (ix2 r f)
  have e1 := pay3_apply ((outsAt V c t.val t.isLt).2) (iblk V c 2 t) r f
  have e2 := iblk2_apply V c t r ⟨f.val, by omega⟩ n hn
  have e3 := hU n ⟨f.val, by omega⟩
  have e4 := acc_last V RP WC c hR hWC t ht r ⟨f.val, by omega⟩ n.val hn
  have e5 := acc_last V RP WC c hR hWC t ht r ⟨32, by omega⟩ n.val hn
  refine e0.trans (e1.trans ?_)
  rw [e2, e3, e4, e5]
  unfold closed
  exact rfl

/-- What a point that writes the output block back writes is its block of an array, once the block formed there is that
    array on the block's node rows. -/
theorem flushed_of (Gf : S100352x32.Idx → EReal) (c : Dev nD) (t : Fin cfg1.N)
    (h : ∀ (r : Fin 2048) (f : Fin 32) (n : Fin 100352), n.val = 2048 * (t.val / 391) + r.val →
      (outsAt V c t.val t.isLt).1 (ix2 r f) = Gf (ix2 n f)) :
    (dat (F := Ideal) V c).flushed 3 t = ((cfg1.win 3).blk t).view.read (Elt Ideal) Gf := by
  have hN : t.val < 19159 := lt_of_lt_of_eq t.isLt N_1
  show (cfg1.win 3).cut (grid1.coords t) ((dat (F := Ideal) V c).after 3 t) = _
  rw [after_3]
  funext y
  obtain ⟨r, f, rfl⟩ : ∃ (r : Fin 2048) (f : Fin 32), y = ix2 r f := ⟨y 0, y 1, eq_ix2 y⟩
  have hn : 2048 * (t.val / 391) + r.val < 100352 := by have := r.isLt; omega
  show (outsAt V c t.val t.isLt).1 (ix2 r f) = Gf (((cfg1.win 3).blk t).view.emb (ix2 r f))
  rw [h r f ⟨_, hn⟩ rfl]
  obtain ⟨-, -, -, -, -, -, e0, e1⟩ := idx_facts t
  congr 1
  funext a
  apply Fin.ext
  match a with
  | ⟨0, _⟩ =>
    show 2048 * (t.val / 391) + r.val = win1_3.index t (0 : Fin 2) * 2048 + 1 * r.val
    rw [e0]; omega
  | ⟨1, _⟩ =>
    show f.val = win1_3.index t (1 : Fin 2) * 32 + 1 * f.val
    rw [e1]; omega

/-- Every entry of the output array lies in the block of the point at the last edge block of its node block. -/
theorem cover (idx : S100352x32.Idx) :
    ∃ t : Fin cfg1.N, (cfg1.win 3).flush t = true ∧ idx ∈ ((cfg1.win 3).blk t).view.set := by
  have h0 : (idx 0).val < 100352 := idx2_lt0 idx
  have h1 : (idx 1).val < 32 := idx2_lt1 idx
  have hN : cfg1.N = 19159 := N_1
  have hlt : 391 * ((idx 0).val / 2048) + 390 < cfg1.N := by rw [hN]; omega
  refine ⟨⟨391 * ((idx 0).val / 2048) + 390, hlt⟩,
    (flush1_3 _).mpr (by show (391 * ((idx 0).val / 2048) + 390) % 391 = 390; omega), ?_⟩
  obtain ⟨-, -, -, -, -, -, e0, e1⟩ := idx_facts ⟨391 * ((idx 0).val / 2048) + 390, hlt⟩
  show idx ∈ ((View.whole main_v11).slice (win1_3.rect ⟨391 * ((idx 0).val / 2048) + 390, hlt⟩)).set
  rw [View.set_slice_whole, Rect.mem_set_unit]
  intro a
  match a with
  | ⟨0, _⟩ =>
    show win1_3.index ⟨391 * ((idx 0).val / 2048) + 390, hlt⟩ (0 : Fin 2) * 2048 ≤ (idx 0).val
      ∧ (idx 0).val < win1_3.index ⟨391 * ((idx 0).val / 2048) + 390, hlt⟩ (0 : Fin 2) * 2048 + 2048
    rw [e0]
    show (391 * ((idx 0).val / 2048) + 390) / 391 * 2048 ≤ (idx 0).val
      ∧ (idx 0).val < (391 * ((idx 0).val / 2048) + 390) / 391 * 2048 + 2048
    omega
  | ⟨1, _⟩ =>
    show win1_3.index ⟨391 * ((idx 0).val / 2048) + 390, hlt⟩ (1 : Fin 2) * 32 ≤ (idx 1).val
      ∧ (idx 1).val < win1_3.index ⟨391 * ((idx 0).val / 2048) + 390, hlt⟩ (1 : Fin 2) * 32 + 32
    rw [e1]
    omega

/-- The closed form as an array over the padded nodes. -/
def G : S100352x32.Idx → EReal := fun idx =>
  closed RP WC UP ⟨(idx 0).val, idx2_lt0 idx⟩ ⟨(idx 1).val, idx2_lt1 idx⟩

/-- The array at an entry given by its node and feature. -/
theorem G_apply (n : Fin 100352) (f : Fin 32) : G RP WC UP (ix2 n f) = closed RP WC UP n f := by
  unfold G
  rfl

/-- The closed form written out. -/
theorem closed_eq (n : Fin 100352) (f : Fin 32) :
    closed RP WC UP n f
      = (∑ e : Fin 1601536, hit (RP e) n.val * WC e ⟨f.val, by omega⟩)
        - (∑ e : Fin 1601536, hit (RP e) n.val * WC e ⟨32, by omega⟩) * UP n ⟨f.val, by omega⟩ := by
  unfold closed colSum
  rfl

/-- THE OUTPUT ARRAY after the second pass, entry by entry, in closed form over the three arrays it reads. -/
theorem arr_closed (c : Dev nD)
    (hR : ∀ e, (V c main_v4 : IVec S1601536 32) (ix1 e) = RP e)
    (hWC : ∀ e k, (V c main_v10 : FVec Ideal S1601536x33 .f32) (ix2 e k) = WC e k)
    (hU : ∀ n k, (V c main_v9 : FVec Ideal S100352x33 .f32) (ix2 n k) = UP n k)
    (n : Fin 100352) (f : Fin 32) :
    ((dat (F := Ideal) V c).arrAt 3 cfg1.N : FVec Ideal S100352x32 .f32) (ix2 n f)
      = (∑ e : Fin 1601536, hit (RP e) n.val * WC e ⟨f.val, by omega⟩)
        - (∑ e : Fin 1601536, hit (RP e) n.val * WC e ⟨32, by omega⟩) * UP n ⟨f.val, by omega⟩ := by
  have hG : ∀ t, (cfg1.win 3).flush t = true →
      (dat (F := Ideal) V c).flushed 3 t = ((cfg1.win 3).blk t).view.read (Elt Ideal) (G RP WC UP) :=
    fun t hf => flushed_of V (G RP WC UP) c t fun r f n hn =>
      (out_apply V RP WC UP c hR hWC hU t ((flush1_3 t).mp hf) r f n hn).trans (G_apply RP WC UP n f).symm
  have hfin := (dat (F := Ideal) V c).arrAt_eq_of_cover 3 (G RP WC UP) hG cover
  exact (congrFun hfin (ix2 n f)).trans ((G_apply RP WC UP n f).trans (closed_eq RP WC UP n f))

end Value

end Cert.KernelIdeal.Scatter

end
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.SpecLaw.lean ====
/-
  The kernel's two passes give the result.

  The first pass selects, for each edge, its neighbour's row of the augmented table as a sum over all node rows of a
  0/1 indicator times the row; an index word equals the word of a row number exactly when it reads, signed, as that
  number, so the sum keeps one row. A padded edge has weight 0 and contributes nothing. The second pass's indicator on
  an edge's own node is the same fact about index words, so the sums over the padded edges are the sums over the
  real edges of the terms whose own node is the row asked for. What is left is a law of real numbers:
  Σ a·w − (Σ 1·w)·b = Σ w·(a − b), which holds on the extended reals where every entry is a real number (there
  subtraction and distributivity are not ring laws, so the step is done on the reals, under the coercion).
-/
import proofs.«412493_j88510686036697_1_alg».proof.Proof.Spec
import proofs.«412493_j88510686036697_1_alg».proof.Proof.LibERealCoe
import Mathlib.Data.EReal.Basic
import Mathlib.Data.EReal.Operations
import Mathlib.Algebra.BigOperators.Group.Finset.Basic
import Mathlib.Algebra.BigOperators.Ring.Finset
import Mathlib.Tactic.Ring

noncomputable section

open scoped BigOperators

namespace Cert.Spec

open Idealize.ShloMosaic Idealize.ShloMosaic.ValueIdx

variable (u : SU.Idx → EReal) (w : SW.Idx → EReal) (ei : IVec SEI 32)

/-! ## Index words -/

/-- A natural number below 2^31, written as a 32-bit word and read signed, is itself. -/
theorem toInt_ofNat_small (n : ℕ) (hn : n < 2147483648) : (BitVec.ofNat 32 n).toInt = (n : ℤ) := by
  have h1 : (BitVec.ofNat 32 n).toNat = n := by
    rw [BitVec.toNat_ofNat]
    exact Nat.mod_eq_of_lt (by omega)
  rw [BitVec.toInt_eq_toNat_of_lt (by rw [h1]; omega), h1]

/-- A 32-bit word is the word of `n` (below 2^31) exactly when it reads, signed, as `n`. -/
theorem eq_ofNat_iff (x : BitVec 32) (n : ℕ) (hn : n < 2147483648) :
    x = BitVec.ofNat 32 n ↔ x.toInt = (n : ℤ) := by
  constructor
  · rintro rfl
    exact toInt_ofNat_small n hn
  · intro h
    exact BitVec.eq_of_toInt_eq (h.trans (toInt_ofNat_small n hn).symm)

/-- The indicator of a word against a row number below 2^31 is the indicator of its signed reading. -/
theorem hit_eq (x : BitVec 32) (n : ℕ) (hn : n < 2147483648) :
    hit x n = if x.toInt = (n : ℤ) then 1 else 0 := by
  unfold hit
  by_cases h : x.toInt = (n : ℤ)
  · rw [if_pos h, if_pos ((eq_ofNat_iff x n hn).mpr h)]
  · rw [if_neg h, if_neg (fun h' => h ((eq_ofNat_iff x n hn).mp h'))]

/-- The sum over all node rows of the indicator times the row keeps the one row the word names. -/
theorem sum_hit_select (x : BitVec 32) (g : Fin 100352 → EReal) (v : Fin 100352)
    (hx : x.toInt = (v.val : ℤ)) : ∑ m : Fin 100352, hit x m.val * g m = g v := by
  have hv : v.val < 2147483648 := by have := v.isLt; omega
  rw [Finset.sum_eq_single v]
  · rw [hit_eq x v.val hv, if_pos hx, one_mul]
  · intro b _ hb
    have hbl : b.val < 2147483648 := by have := b.isLt; omega
    rw [hit_eq x b.val hbl, if_neg, zero_mul]
    intro h
    apply hb
    apply Fin.ext
    have h2 : (b.val : ℤ) = (v.val : ℤ) := h.symm.trans hx
    exact_mod_cast h2
  · intro h
    exact absurd (Finset.mem_univ v) h

/-! ## The augmented table on a node row -/

/-- On a node row a feature column of the augmented table is the table's entry. -/
theorem uAugP_feat (m : Fin 100352) (hm : m.val < 100000) (f : Fin 32) :
    uAugP u m ⟨f.val, by omega⟩ = u (ix2 ⟨m.val, hm⟩ f) := by
  unfold uAugP
  rw [dif_pos hm, dif_pos (show (⟨f.val, by omega⟩ : Fin 33).val < 32 from f.isLt)]

/-- On a node row the 33rd column of the augmented table is one. -/
theorem uAugP_one (m : Fin 100352) (hm : m.val < 100000) :
    uAugP u m ⟨32, by omega⟩ = 1 := by
  unfold uAugP
  rw [dif_pos hm, dif_neg (show ¬ (⟨32, by omega⟩ : Fin 33).val < 32 from Nat.lt_irrefl 32)]

/-! ## The first pass, edge by edge -/

/-- A real edge whose neighbour index is in range: the selected row is the neighbour's, scaled by the weight. -/
theorem wcol_real (e : Fin 1601536) (h : e.val < 1600000) (c : Fin 33)
    (hc0 : 0 ≤ colOf ei ⟨e.val, h⟩) (hc1 : colOf ei ⟨e.val, h⟩ < 100000) :
    wcol u w ei e c
      = uAugP u ⟨(colOf ei ⟨e.val, h⟩).toNat, by omega⟩ c * w (ix1 ⟨e.val, h⟩) := by
  unfold wcol
  have hcol : colP ei e = ei (ix2 (1 : Fin 2) ⟨e.val, h⟩) := dif_pos h
  have hwp : wP w e = w (ix1 ⟨e.val, h⟩) := dif_pos h
  have hx : (colP ei e).toInt = (((⟨(colOf ei ⟨e.val, h⟩).toNat, by omega⟩ : Fin 100352).val : ℕ) : ℤ) := by
    rw [hcol]
    show colOf ei ⟨e.val, h⟩ = (((colOf ei ⟨e.val, h⟩).toNat : ℕ) : ℤ)
    exact (Int.toNat_of_nonneg hc0).symm
  rw [hwp, sum_hit_select (colP ei e) (fun m => uAugP u m c) _ hx]

/-- A padded edge has weight 0: its row is 0. -/
theorem wcol_pad (e : Fin 1601536) (h : ¬ e.val < 1600000) (c : Fin 33) : wcol u w ei e c = 0 := by
  unfold wcol
  have hwp : wP w e = 0 := dif_neg h
  rw [hwp, mul_zero]

/-! ## The padded edges drop out of a sum -/

/-- A sum over the padded edge range of a function that vanishes on the padding is the sum over the real edges. -/
theorem sum_pad {M : Type*} [AddCommMonoid M] (F : Fin 1601536 → M)
    (h0 : ∀ e : Fin 1601536, ¬ e.val < 1600000 → F e = 0) :
    ∑ e, F e = ∑ e : Fin 1600000, F (Fin.castLE (by omega) e) := by
  symm
  refine Fintype.sum_of_injective (fun e : Fin 1600000 => (Fin.castLE (by omega) e : Fin 1601536)) ?_ _ _ ?_
    (fun _ => rfl)
  · intro a b hab
    have h1 := congrArg Fin.val hab
    exact Fin.ext h1
  · intro i hi
    apply h0
    intro hlt
    exact hi ⟨⟨i.val, hlt⟩, rfl⟩

/-! ## The second pass's terms on a real edge -/

/-- On a real edge the second pass's term is the first pass's row where the edge's own node is the row asked for,
    and 0 elsewhere. -/
theorem term_real (hcol : ColInRange ei) (n : ℕ) (hn : n < 100000) (c : Fin 33) (e : Fin 1600000) :
    hit (rowP ei (Fin.castLE (by omega) e)) n * wcol u w ei (Fin.castLE (by omega) e) c
      = if rowOf ei e = (n : ℤ) then
          uAugP u ⟨(colOf ei e).toNat, by have := hcol e; omega⟩ c * w (ix1 e) else 0 := by
  have he : (Fin.castLE (by omega : 1600000 ≤ 1601536) e).val < 1600000 := e.isLt
  have h1 : rowP ei (Fin.castLE (by omega) e) = ei (ix2 (0 : Fin 2) e) := dif_pos he
  have h2 : wcol u w ei (Fin.castLE (by omega) e) c
      = uAugP u ⟨(colOf ei e).toNat, by have := hcol e; omega⟩ c * w (ix1 e) :=
    wcol_real u w ei (Fin.castLE (by omega) e) he c (hcol e).1 (hcol e).2
  rw [h1, h2, hit_eq _ n (by omega)]
  show (if rowOf ei e = (n : ℤ) then (1 : EReal) else 0) * _ = _
  by_cases hr : rowOf ei e = (n : ℤ)
  · rw [if_pos hr, if_pos hr, one_mul]
  · rw [if_neg hr, if_neg hr, zero_mul]

/-- The second pass's sum over the padded edges is the sum over the real edges whose own node is the row. -/
theorem pass2_sum (hcol : ColInRange ei) (n : ℕ) (hn : n < 100000) (c : Fin 33) :
    ∑ e : Fin 1601536, hit (rowP ei e) n * wcol u w ei e c
      = ∑ e : Fin 1600000, if rowOf ei e = (n : ℤ) then
          uAugP u ⟨(colOf ei e).toNat, by have := hcol e; omega⟩ c * w (ix1 e) else 0 := by
  rw [sum_pad (fun e => hit (rowP ei e) n * wcol u w ei e c)
    (fun e he => by rw [wcol_pad u w ei e he c, mul_zero])]
  exact Finset.sum_congr rfl fun e _ => term_real u w ei hcol n hn c e

/-- In range the clamped neighbour row is the neighbour index itself. -/
theorem colIx_eq (hcol : ColInRange ei) (e : Fin 1600000) :
    colIx ei e = ⟨(colOf ei e).toNat, by have := hcol e; omega⟩ := by
  apply Fin.ext
  show min (colOf ei e).toNat 99999 = (colOf ei e).toNat
  have := hcol e
  omega

/-- The second pass's sum of a feature column: the neighbours' entries, weighted, over the edges of the row. -/
theorem pass2_feat (hcol : ColInRange ei) (n : ℕ) (hn : n < 100000) (f : Fin 32) :
    ∑ e : Fin 1601536, hit (rowP ei e) n * wcol u w ei e ⟨f.val, by omega⟩
      = ∑ e : Fin 1600000, if rowOf ei e = (n : ℤ) then u (ix2 (colIx ei e) f) * w (ix1 e) else 0 := by
  rw [pass2_sum u w ei hcol n hn]
  refine Finset.sum_congr rfl fun e _ => ?_
  rw [colIx_eq ei hcol e, uAugP_feat u _ (by have := hcol e; show (colOf ei e).toNat < 100000; omega) f]

/-- The second pass's sum of the 33rd column: the weights over the edges of the row (the weighted degree). -/
theorem pass2_ones (hcol : ColInRange ei) (n : ℕ) (hn : n < 100000) :
    ∑ e : Fin 1601536, hit (rowP ei e) n * wcol u w ei e ⟨32, by omega⟩
      = ∑ e : Fin 1600000, if rowOf ei e = (n : ℤ) then 1 * w (ix1 e) else 0 := by
  rw [pass2_sum u w ei hcol n hn]
  refine Finset.sum_congr rfl fun e _ => ?_
  rw [uAugP_one u _ (by have := hcol e; show (colOf ei e).toNat < 100000; omega)]

/-- The two passes as two sums over the real edges. -/
theorem lapP_eq_sums (hcol : ColInRange ei) (n : Fin 100000) (f : Fin 32) :
    lapP u w ei ⟨n.val, by omega⟩ f
      = (∑ e : Fin 1600000, if rowOf ei e = (n.val : ℤ) then u (ix2 (colIx ei e) f) * w (ix1 e) else 0)
        - (∑ e : Fin 1600000, if rowOf ei e = (n.val : ℤ) then 1 * w (ix1 e) else 0) * u (ix2 n f) := by
  unfold lapP
  rw [pass2_feat u w ei hcol n.val n.isLt f, pass2_ones u w ei hcol n.val n.isLt,
    uAugP_feat u ⟨n.val, by omega⟩ n.isLt f]

/-! ## The law of real numbers, under the coercion -/

/-- Σ a·w − (Σ 1·w)·b = Σ w·(a − b) over the indices that satisfy a condition, for real a, w, b read in the
    extended reals: every sum and product is the coercion of the real one, and on the reals the weight distributes
    over the difference. -/
theorem real_law {ι : Type*} (s : Finset ι) (P : ι → Prop) [DecidablePred P] (a wv : ι → ℝ) (b : ℝ) :
    (∑ e ∈ s, if P e then (a e : EReal) * (wv e : EReal) else 0)
        - (∑ e ∈ s, if P e then 1 * (wv e : EReal) else 0) * (b : EReal)
      = ∑ e ∈ s, if P e then (wv e : EReal) * ((a e : EReal) - (b : EReal)) else 0 := by
  have hA : (∑ e ∈ s, if P e then (a e : EReal) * (wv e : EReal) else 0)
      = ((∑ e ∈ s, if P e then a e * wv e else 0 : ℝ) : EReal) := by
    rw [Cert.ERealCoe.coe_sum]
    refine Finset.sum_congr rfl fun e _ => ?_
    by_cases h : P e
    · rw [if_pos h, if_pos h, EReal.coe_mul]
    · rw [if_neg h, if_neg h, EReal.coe_zero]
  have hB : (∑ e ∈ s, if P e then 1 * (wv e : EReal) else 0)
      = ((∑ e ∈ s, if P e then 1 * wv e else 0 : ℝ) : EReal) := by
    rw [Cert.ERealCoe.coe_sum]
    refine Finset.sum_congr rfl fun e _ => ?_
    by_cases h : P e
    · rw [if_pos h, if_pos h, EReal.coe_mul, EReal.coe_one]
    · rw [if_neg h, if_neg h, EReal.coe_zero]
  have hC : (∑ e ∈ s, if P e then (wv e : EReal) * ((a e : EReal) - (b : EReal)) else 0)
      = ((∑ e ∈ s, if P e then wv e * (a e - b) else 0 : ℝ) : EReal) := by
    rw [Cert.ERealCoe.coe_sum]
    refine Finset.sum_congr rfl fun e _ => ?_
    by_cases h : P e
    · rw [if_pos h, if_pos h, EReal.coe_mul, EReal.coe_sub]
    · rw [if_neg h, if_neg h, EReal.coe_zero]
  rw [hA, hB, hC, ← EReal.coe_mul, ← EReal.coe_sub]
  congr 1
  rw [Finset.sum_mul, ← Finset.sum_sub_distrib]
  refine Finset.sum_congr rfl fun e _ => ?_
  by_cases h : P e
  · rw [if_pos h, if_pos h, if_pos h]
    ring
  · rw [if_neg h, if_neg h, if_neg h]
    ring

/-! ## The two passes give the result -/

/-- The kernel's two passes give the result: on a node row of the table, where every entry of u and w is a real number and every neighbour index is in range. -/
theorem lapP_eq_lapAt (u : SU.Idx → EReal) (w : SW.Idx → EReal) (ei : IVec SEI 32)
    (hu : AllReal u) (hw : AllReal w) (hcol : ColInRange ei) (n : Fin 100000) (f : Fin 32) :
    lapP u w ei ⟨n.val, by omega⟩ f = lapAt u w ei n f := by
  obtain ⟨ur, hur⟩ : ∃ ur : SU.Idx → ℝ, ∀ i, u i = (ur i : EReal) :=
    ⟨fun i => (u i).toReal, fun i => (EReal.coe_toReal (hu i).1 (hu i).2).symm⟩
  obtain ⟨wr, hwr⟩ : ∃ wr : SW.Idx → ℝ, ∀ i, w i = (wr i : EReal) :=
    ⟨fun i => (w i).toReal, fun i => (EReal.coe_toReal (hw i).1 (hw i).2).symm⟩
  rw [lapP_eq_sums u w ei hcol n f]
  unfold lapAt
  simp only [hur, hwr]
  exact real_law Finset.univ (fun e => rowOf ei e = (n.val : ℤ)) (fun e => ur (ix2 (colIx ei e) f))
    (fun e => wr (ix1 e)) (ur (ix2 n f))

end Cert.Spec

end
-- ==== Proof.KI.KernelValue.lean ====
/-
  The idealized kernel program's result is the specification's array of its arguments, where every entry of the
  feature table and of the weights is a real number and every neighbour index names a row of the table.

  The final slice reads the scatter pass's array on the first 100000 node rows and 32 features. That array is the
  scatter pass's closed form over its three inputs as the pass finds them: the padded own-node indices and the padded
  augmented table, which no pass writes, and the gather pass's array, which is the gather pass's closed form over the
  padded neighbour indices, the padded weights and the same table. Together these are `lapP`, which the law of the
  two passes turns into `lapAt`.
-/
import proofs.«412493_j88510686036697_1_alg».proof.Proof.KI.Assembly
import proofs.«412493_j88510686036697_1_alg».proof.Proof.KI.HostValue
import proofs.«412493_j88510686036697_1_alg».proof.Proof.KI.Gather.Value
import proofs.«412493_j88510686036697_1_alg».proof.Proof.KI.Scatter.Value
import proofs.«412493_j88510686036697_1_alg».proof.Proof.SpecLaw

noncomputable section

namespace Cert.KernelIdeal.KernelValue

open Cert.KernelIdeal Cert.KernelIdeal.Gen Cert.KernelIdeal.Assembly Cert.KernelIdeal.HostValue Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The gather pass finds the padded neighbour indices, the padded weights and the padded augmented table; -/
theorem gather_out (c : Dev nD) (e : Fin 1601536) (k : Fin 33) :
    ((Gather.dat (F := Ideal) (E8 m) c).arrAt 3 cfg0.N : FVec Ideal S1601536x33 .f32) (ix2 e k)
      = wcol (argU m c) (argW m c) (argE m c) e k := by
  unfold wcol
  exact Gather.arr_closed (E8 m) c (colP (argE m c)) (wP (argW m c)) (uAugP (argU m c))
    (fun e => colP_eq m c e) (fun e => wP_eq m c e) (fun n k => uAugP_eq m c n k) e k

/-- the scatter pass finds the padded own-node indices as the host stretches left them (the gather pass writes
    neither them nor the table), -/
theorem E9_v4 (c : Dev nD) (e : Fin 1601536) : (E9 m c main_v4 : IVec S1601536 32) (ix1 e) = rowP (argE m c) e :=
  (congrFun (W9_of_ne m c main_v4 (by decide)) (ix1 e)).trans (rowP_eq m c e)
/-- the table as an input array of the gather pass, which ends as it was entered, -/
theorem E9_v9 (c : Dev nD) (n : Fin 100352) (k : Fin 33) : (E9 m c main_v9 : FVec Ideal S100352x33 .f32) (ix2 n k) = uAugP (argU m c) n k :=
  (congrFun ((W9_arr m c 2).trans (((Gather.dat (F := Ideal) (E8 m) c).arrAt_in 2 rfl _).trans (Gather.A_eq (E8 m) c 2))) (ix2 n k)).trans (uAugP_eq m c n k)
/-- and the gather pass's output array. -/
theorem E9_v10 (c : Dev nD) (e : Fin 1601536) (k : Fin 33) :
    (E9 m c main_v10 : FVec Ideal S1601536x33 .f32) (ix2 e k) = wcol (argU m c) (argW m c) (argE m c) e k :=
  (congrFun (W9_arr m c 3) (ix2 e k)).trans (gather_out m c e k)

/-- THE KERNEL'S VALUE. -/
theorem kernel_value (c : Dev nD) (hu : AllReal (argU m c)) (hw : AllReal (argW m c)) (hcol : ColInRange (argE m c)) :
    (W11 (F := Ideal) m c main_v12 : FVec Ideal S100000x32 .f32) = lap (argU m c) (argW m c) (argE m c) := by
  funext i
  obtain ⟨n, f, rfl⟩ : ∃ (n : Fin 100000) (f : Fin 32), i = ix2 n f := ⟨⟨(i 0).val, idx2_lt0 i⟩, ⟨(i 1).val, idx2_lt1 i⟩, eq_ix2 i⟩
  rw [lap_ix2, ← lapP_eq_lapAt _ _ _ hu hw hcol n f]
  unfold lapP
  refine (result_eq' (W10 m c) n f).trans ?_
  refine (congrFun (W10_arr m c 3) (ix2 ⟨n.val, by omega⟩ f)).trans ?_
  exact Scatter.arr_closed (V := E9 m) (RP := rowP (argE m c)) (WC := wcol (argU m c) (argW m c) (argE m c)) (UP := uAugP (argU m c)) c
    (fun e => E9_v4 m c e) (fun e k => E9_v10 m c e k) (fun n k => E9_v9 m c n k) ⟨n.val, by omega⟩ f

end Cert.KernelIdeal.KernelValue

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.RefValue.lean ====
/-
  The reference program reads as the specification: its two row gathers are the table at the edges' clamped
  endpoints (an index that is in range is not wrapped and not clamped), its scatter-add sums, into node row n,
  the weighted differences of the edges whose own node is n.
-/
import proofs.«412493_j88510686036697_1_alg».proof.Proof.Gen.ReferenceIdeal.Run
import proofs.«412493_j88510686036697_1_alg».proof.Proof.Gen.ReferenceIdeal.Read
import proofs.«412493_j88510686036697_1_alg».proof.Proof.Spec
import proofs.«412493_j88510686036697_1_alg».proof.Proof.LibRowGather
import proofs.«412493_j88510686036697_1_alg».proof.Proof.LibRowScatterAdd

noncomputable section

namespace Cert.RefValue

open Cert.Spec Idealize.ShloMosaic Idealize.ShloMosaic.TcCoe Idealize.ShloMosaic.ValueIdx Idealize.SL.Sem

section Term

open Cert.ReferenceIdeal Cert.ReferenceIdeal.Gen Cert.ReferenceIdeal.Read
open scoped BigOperators

/-! ## Words: the wrap of a negative index -/

/-- A negative row number is wrapped by the table's height; a non-negative one is left as it is. -/
def wrap (x : BitVec 32) : BitVec 32 := Scalar.select (IntOp.cmpi .slt x 0#32) (IntOp.addi x 100000#32) x

/-- A word that reads as a non-negative integer is not wrapped. -/
theorem wrap_of_nonneg (x : BitVec 32) (h : 0 ≤ x.toInt) : wrap x = x := by
  have hs : x.slt 0#32 = false := by
    simp only [BitVec.slt, BitVec.toInt_zero, decide_eq_false_iff_not, not_lt]
    exact h
  show Scalar.select (BitVec.ofBool (x.slt 0#32)) (IntOp.addi x 100000#32) x = x
  rw [hs]
  exact select_zero _ _

/-! ## The index array's two rows, flattened, and their wrapped columns -/

variable (u : FVec Ideal S100000x32 .f32) (w : FVec Ideal S1600000 .f32) (ei : IVec S2x1600000 32)

/-- Row 0 of the index array, as a flat vector, at edge e. -/
theorem v1_at (e : Fin 1600000) : val_main_v1 (F := Ideal) ei (ix1 e) = ei (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Row 1 of the index array, as a flat vector, at edge e. -/
theorem v3_at (e : Fin 1600000) : val_main_v3 (F := Ideal) ei (ix1 e) = ei (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- A flat vector read as a column: entry (e, 0) is entry e. -/
theorem col_idx (e : Fin 1600000) : idx_main_v9 (ix2 e (0 : Fin 1)) = ix1 e := by
  funext a
  match a with
  | ⟨0, _⟩ => rfl

/-- The wrapped neighbour column at (e, 0). -/
theorem v9_at (e : Fin 1600000) : val_main_v9 (F := Ideal) ei (ix2 e (0 : Fin 1)) = wrap (ei (ix2 (1 : Fin 2) e)) := by
  rw [val_main_v9_apply, col_idx, val_main_v8_apply, val_main_v5_apply, val_main_v7_apply, v3_at]
  rfl

/-- The wrapped own-node column at (e, 0). -/
theorem v16_at (e : Fin 1600000) : val_main_v16 (F := Ideal) ei (ix2 e (0 : Fin 1)) = wrap (ei (ix2 (0 : Fin 2) e)) := by
  rw [val_main_v16_apply]
  show val_main_v15 (F := Ideal) ei (idx_main_v9 (ix2 e (0 : Fin 1))) = _
  rw [col_idx, val_main_v15_apply, val_main_v12_apply, val_main_v14_apply, v1_at]
  rfl

/-- The raw own-node column at (e, 0): what the scatter reads. -/
theorem v23_at (e : Fin 1600000) : val_main_v23 (F := Ideal) ei (ix2 e (0 : Fin 1)) = ei (ix2 (0 : Fin 2) e) := by
  rw [val_main_v23_apply]
  show val_main_v1 (F := Ideal) ei (idx_main_v9 (ix2 e (0 : Fin 1))) = _
  rw [col_idx, v1_at]

/-! ## The two gathers and the scatter-add at an index -/

/-- The table has a row. -/
theorem table_pos : 0 < 100000 := by decide

/-- A row gather of the table at (e, f): the table at the row the column names (read signed, clamped), feature f. -/
theorem gather_at (idx : IVec S1600000x1 32) (e : Fin 1600000) (f : Fin 32) :
    Host.gather gather_S100000x32_S1600000x1_S1600000x32_1_0_n_n_0_1_132 u idx (ix2 e f)
      = u (ix2 (gatherRow table_pos idx e) f) :=
  rowGather_apply table_pos Gen.gather_S100000x32_S1600000x1_S1600000x32_1_0_n_n_0_1_132_wf u idx e f

/-- The accumulating row scatter at (n, f): the operand's entry plus the updates of the rows whose index, read signed, is n. -/
theorem scatter_at (x : FVec Ideal S100000x32 .f32) (idx : IVec S1600000x1 32) (upd : FVec Ideal S1600000x32 .f32)
    (n : Fin 100000) (f : Fin 32) :
    Host.scatterAdd scatter_S100000x32_S1600000x1_S1600000x32_1_0_0_1 x idx upd (ix2 n f)
      = x (ix2 n f) + ∑ e : Fin 1600000, if (idx (ix2 e (0 : Fin 1))).toInt = (n.val : ℤ) then upd (ix2 e f) else 0 :=
  rowScatterAdd_apply Gen.scatter_S100000x32_S1600000x1_S1600000x32_1_0_0_1_wf x idx upd n f

/-- An in-range neighbour index is neither wrapped nor clamped: the first gather reads the specification's row. -/
theorem gatherRow_col (hcol : ColInRange ei) (e : Fin 1600000) :
    gatherRow table_pos (val_main_v9 (F := Ideal) ei) e = colIx ei e := by
  refine Fin.ext ?_
  show min (val_main_v9 (F := Ideal) ei (ix2 e (0 : Fin 1))).toInt.toNat (100000 - 1) = min (ei (ix2 (1 : Fin 2) e)).toInt.toNat 99999
  rw [v9_at, wrap_of_nonneg _ (hcol e).1]

/-- An edge whose own node, read signed, is the table row n gathers row n: no wrap, no clamp. -/
theorem gatherRow_row (e : Fin 1600000) (n : Fin 100000) (h : rowOf ei e = (n.val : ℤ)) :
    gatherRow table_pos (val_main_v16 (F := Ideal) ei) e = n := by
  have h' : (ei (ix2 (0 : Fin 2) e)).toInt = (n.val : ℤ) := h
  refine Fin.ext ?_
  show min (val_main_v16 (F := Ideal) ei (ix2 e (0 : Fin 1))).toInt.toNat (100000 - 1) = n.val
  rw [v16_at, wrap_of_nonneg _ (by rw [h']; exact Int.natCast_nonneg _), h']
  have := n.isLt
  omega

/-- The weights, broadcast along the features, at (e, f). -/
theorem v20_at (e : Fin 1600000) (f : Fin 32) : val_main_v20 (F := Ideal) w (ix2 e f) = w (ix1 e) := by
  rw [val_main_v20_apply, val_main_v19_apply]
  congr 1
  funext a
  match a with
  | ⟨0, _⟩ => rfl

/-! ## The reference's term is the specification -/

/-- At node n, feature f: the zero operand plus, over the edges whose own node is n, the weight times the neighbour's
    feature minus row n's own. An edge whose own node is no table row contributes nothing on either side. -/
theorem ref_term_eq (hcol : ColInRange ei) : val_main_v24 (F := Ideal) u w ei = lap u w ei := by
  funext i
  obtain ⟨n, f, rfl⟩ : ∃ n f, i = ix2 n f := ⟨_, _, eq_ix2 i⟩
  rw [lap_ix2]
  unfold val_main_v24 lapAt
  rw [scatter_at, val_main_v22_apply]
  show Ideal.ofBits .f32 0x00000000#32 + _ = _
  rw [Ideal.ofBits_zero_f32, zero_add]
  refine Finset.sum_congr rfl (fun e _ => ?_)
  rw [v23_at]
  by_cases h : rowOf ei e = (n.val : ℤ)
  · rw [if_pos h, if_pos (show (ei (ix2 (0 : Fin 2) e)).toInt = (n.val : ℤ) from h), val_main_v21_apply, val_main_v18_apply, v20_at]
    unfold val_main_v10 val_main_v17
    rw [gather_at, gather_at, gatherRow_col ei hcol, gatherRow_row ei e n h]
    rfl
  · rw [if_neg h, if_neg (show ¬(ei (ix2 (0 : Fin 2) e)).toInt = (n.val : ℤ) from h)]

end Term

/-- From any memory whose neighbour indices are in range, the reference runs to the specification's array of its
    own arguments, and leaves the arguments as they were. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hcol : ∀ c : Dev Cert.ReferenceIdeal.nD, ColInRange (m' ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v24)
            = lap (m' ((c.tc : Thread Cert.ReferenceIdeal.nD Cert.ReferenceIdeal.τ).loc Cert.ReferenceIdeal.main_arg0))
                  (m' ((c.tc : Thread Cert.ReferenceIdeal.nD Cert.ReferenceIdeal.τ).loc Cert.ReferenceIdeal.main_arg1))
                  (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run (Cert.ReferenceIdeal.defs (F := Ideal)) _ _).mono (fun _ h c => ⟨(h c).1.trans ?_, (h c).2⟩)
    (Cert.ReferenceIdeal.Value.run (F := Ideal) m' ρ')
  exact (Cert.ReferenceIdeal.Read.val_main_v24_eq _ _ _).trans (ref_term_eq _ _ _ (hcol c))

end Cert.RefValue

end
-- ==== Proof.PreDecode.lean ====
/-
  The printed precondition, read back: the function of the three argument arrays being all ones says that every
  entry of the feature table and of the weights is a real number, and that every neighbour index names a row of
  the table.
-/
import proofs.«412493_j88510686036697_1_alg».proof.Pre_finite_inputs
import proofs.«412493_j88510686036697_1_alg».proof.Proof.Spec
import Idealize.ShloMosaic.Lib.ReduceAll
import Idealize.ShloMosaic.Lib.StableHlo.Predicate
import Idealize.ShloMosaic.Lib.ValueIdx
import Idealize.ShloMosaic.Lib.Pipeline.Value

namespace Cert.PreDecode

open Cert.Spec Idealize.ShloMosaic Idealize.ShloMosaic.ValueIdx

variable [Cert.Pre_finite_inputs.Facts]

/-- The scalar shape has one index. -/
instance : Subsingleton Cert.Pre_finite_inputs.S_.Idx := ⟨fun a b => funext fun d => d.elim0⟩

/-- The word 0x7F800000 read as a binary32 number is +∞. -/
theorem inf_word : Ideal.ofBits .f32 0x7F800000#32 = (⊤ : EReal) := by simp [Ideal.ofBits, Ideal.ieee]

/-- An extended real whose absolute value `max x (-x)` compares below +∞ is a real number: at ⊤ the maximum is ⊤,
    and at ⊥ it is `-⊥ = ⊤`. -/
theorem real_of_abs_lt_inf (x : EReal)
    (h : Ideal.cmp .olt (max x (-x)) (Ideal.ofBits .f32 0x7F800000#32) = 1#1) : x ≠ ⊤ ∧ x ≠ ⊥ := by
  rw [inf_word] at h
  simp only [Ideal.cmp, StableHlo.Predicate.ofBool_eq_one_iff, decide_eq_true_eq] at h
  induction x using EReal.rec with
  | bot => simp at h
  | coe r => exact ⟨EReal.coe_ne_top r, EReal.coe_ne_bot r⟩
  | top => simp at h

/-- A word that compares signed `≥ 0` and signed `< 100000` has its signed value in `[0, 100000)`. -/
theorem range_of_cmp (x : BitVec 32) (h0 : IntOp.cmpi .sge x 0#32 = 1#1) (h1 : IntOp.cmpi .slt x 100000#32 = 1#1) :
    0 ≤ x.toInt ∧ x.toInt < 100000 := by
  simp only [IntOp.cmpi, StableHlo.Predicate.ofBool_eq_one_iff, BitVec.sle, BitVec.slt, decide_eq_true_eq] at h0 h1
  have e0 : (0#32 : BitVec 32).toInt = 0 := by decide
  have e1 : (100000#32 : BitVec 32).toInt = 100000 := by decide
  rw [e0] at h0
  rw [e1] at h1
  exact ⟨h0, h1⟩

/-- Row 1 of the index array, sliced out and flattened, read at edge `e`: the array at (1, e). -/
theorem row1_apply (ei : IVec Cert.Pre_finite_inputs.S2x1600000 32) (e : Fin 1600000) :
    shapeCast Cert.Pre_finite_inputs.S1600000
      (extractStridedSlice Cert.Pre_finite_inputs.S1x1600000 ![1, 0] ei Cert.Pre_finite_inputs.Facts.slices_S2x1600000_S1x1600000_1_0)
      Cert.Pre_finite_inputs.Facts.shapeCasts_S1x1600000_S1600000 (ix1 e) = ei (ix2 (1 : Fin 2) e) := by
  refine (shapeCast_apply _ _ (ix1 e) (ix2 (0 : Fin 1) e) ?_).trans ?_
  · rw [Shape.rowMajor_val_two, Shape.rowMajor_val_one]
    show (0 : Nat) * _ + e.val = e.val
    omega
  · refine extractStridedSlice_apply _ ei _ (ix2 (0 : Fin 1) e) (ix2 (1 : Fin 2) e) fun a => ?_
    match a with
    | ⟨0, _⟩ => rfl
    | ⟨1, _⟩ => show e.val = 0 + e.val; omega

/-- The precondition, all ones, says: every entry of u and of w is a real number, and every neighbour index is in range. -/
theorem decode (u : FVec Ideal Cert.Pre_finite_inputs.S100000x32 .f32) (w : FVec Ideal Cert.Pre_finite_inputs.S1600000 .f32)
    (ei : IVec Cert.Pre_finite_inputs.S2x1600000 32)
    (h : Cert.Pre_finite_inputs.fn (F := Ideal) u w ei = fun _ => 1#1) :
    AllReal u ∧ AllReal w ∧ ColInRange ei := by
  have h0 := congrFun h ValueIdx.ix0
  dsimp only [Cert.Pre_finite_inputs.fn, Cert.Pre_finite_inputs.fn_part1] at h0
  obtain ⟨h12, h3⟩ := IntOp.andi_eq_one.1 h0
  obtain ⟨h1, h2⟩ := IntOp.andi_eq_one.1 h12
  refine ⟨fun i => ?_, fun i => ?_, fun e => ?_⟩
  · exact real_of_abs_lt_inf (u i) (Host.reduce_andi_all _ _ _ _ _ h1 i)
  · exact real_of_abs_lt_inf (w i) (Host.reduce_andi_all _ _ _ _ _ h2 i)
  · have he := Host.reduce_andi_all _ _ _ _ _ h3 (ix1 e)
    obtain ⟨ha, hb⟩ := IntOp.andi_eq_one.1 he
    have hr := row1_apply ei e
    exact range_of_cmp (ei (ix2 (1 : Fin 2) e)) (hr ▸ ha) (hr ▸ hb)

end Cert.PreDecode
-- ==== Proof.lean ====
/-
  The certificate's claim: a graph diffusion step — per node, the weighted sum over its edges of the neighbour's
  features minus the node's own — computed by a kernel that replaces the gather of neighbour rows and the
  scatter-add into node rows by two passes of 0/1-matrix products over padded arrays, against the direct
  gather / scatter-add reference.

  Both kernel programs (the word-level one and its idealization) run their two passes as pipelines whose bodies
  carry an accumulator between grid points; each pass's frame is proved from its own per-case runs and an invariant
  that tracks the accumulator, and @main is composed from its eleven items. At the ideal instance the first pass
  leaves each edge's neighbour row scaled by the edge's weight (the appended column of ones carries the weight
  itself), the second leaves, per node, the sum of those rows minus the summed weights times the node's own row;
  where every table and weight entry is a real number and every neighbour index names a table row, distributing the
  weight over the difference makes this the reference's value. The reference drops an edge whose own node is out of
  range exactly as the kernel's 0/1 matrix never selects it, so nothing is asked of the own-node indices.
-/
import proofs.«412493_j88510686036697_1_alg».proof.Defs
import proofs.«412493_j88510686036697_1_alg».proof.Proof.Gen.Kernel
import proofs.«412493_j88510686036697_1_alg».proof.Proof.Gen.KernelIdeal
import proofs.«412493_j88510686036697_1_alg».proof.Proof.Gen.ReferenceIdeal
import proofs.«412493_j88510686036697_1_alg».proof.Proof.Gen.Pre_finite_inputs
import proofs.«412493_j88510686036697_1_alg».proof.Proof.K.Assembly
import proofs.«412493_j88510686036697_1_alg».proof.Proof.KI.Assembly
import proofs.«412493_j88510686036697_1_alg».proof.Proof.KI.KernelValue
import proofs.«412493_j88510686036697_1_alg».proof.Proof.RefValue
import proofs.«412493_j88510686036697_1_alg».proof.Proof.PreDecode

noncomputable section

namespace Cert.Proof

open Idealize.ShloMosaic Idealize.SL.Sem Cert.Spec

/-- The precondition at the idealized kernel's arguments, decoded. -/
theorem pre_KI (m : (ℓ : Loc Cert.KernelIdeal.nD Cert.KernelIdeal.τ Cert.KernelIdeal.sig) → Buf (Elt Ideal) ℓ)
    (h : Cert.Pre_KernelIdeal m) (c : Dev Cert.KernelIdeal.nD) :
    AllReal (Cert.KernelIdeal.HostValue.argU m c) ∧ AllReal (Cert.KernelIdeal.HostValue.argW m c) ∧ ColInRange (Cert.KernelIdeal.HostValue.argE m c) :=
  Cert.PreDecode.decode _ _ _ (h c)

theorem frame_k : Cert.frame_Kernel := fun m ρ _ => Cert.Kernel.Assembly.frame m ρ
theorem frame_ki : Cert.frame_KernelIdeal := fun m ρ _ => Cert.KernelIdeal.Assembly.frame m ρ
theorem frame_ri : Cert.frame_ReferenceIdeal := fun m ρ h =>
  (θ_run Cert.ReferenceIdeal.defs _ _).mono (fun _ hr c => (hr c).2)
    (Cert.RefValue.ref_run m ρ fun c => (Cert.PreDecode.decode _ _ _ (h c)).2.2)

theorem algebraic : Cert.algebraic_KernelIdeal_ReferenceIdeal := by
  intro m ρ m' ρ' hpre hagree
  refine ⟨fun c => lap (Cert.KernelIdeal.HostValue.argU m c) (Cert.KernelIdeal.HostValue.argW m c) (Cert.KernelIdeal.HostValue.argE m c), ?_, ?_⟩
  · refine (θ_run Cert.KernelIdeal.defs _ _).mono (fun r hr c => ⟨(hr c).1.trans ?_, (hr c).2⟩) (Cert.KernelIdeal.Assembly.run_main (F := Ideal) m ρ)
    obtain ⟨hu, hw, hcol⟩ := pre_KI m hpre c
    exact Cert.KernelIdeal.KernelValue.kernel_value m c hu hw hcol
  · have hcol' : ∀ c : Dev Cert.ReferenceIdeal.nD, ColInRange (m' ((c.tc : Thread Cert.ReferenceIdeal.nD Cert.ReferenceIdeal.τ).loc Cert.ReferenceIdeal.main_arg2)) := fun c => by
      rw [(hagree c).2.2]; exact (pre_KI m hpre c).2.2
    refine (θ_run Cert.ReferenceIdeal.defs _ _).mono (fun r hr c => ⟨(hr c).1.trans ?_, (hr c).2⟩) (Cert.RefValue.ref_run m' ρ' hcol')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
